-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_vm1" .f32 0x39000400#32 ((1 / 8191 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x8192 : Shape := ⟨3, ![8, 512, 8192]⟩
abbrev S8192x8192 : Shape := ⟨2, ![8192, 8192]⟩
abbrev S8x512 : Shape := ⟨2, ![8, 512]⟩
abbrev S8 : Shape := ⟨1, ![8]⟩
abbrev S4096 : Shape := ⟨1, ![4096]⟩
abbrev S_ : Shape := ⟨0, ![]⟩
abbrev S1 : Shape := ⟨1, ![1]⟩
abbrev S4095 : Shape := ⟨1, ![4095]⟩
abbrev S4096x1 : Shape := ⟨2, ![4096, 1]⟩
abbrev S4096x2 : Shape := ⟨2, ![4096, 2]⟩

class Facts : Prop where
  shapeCasts_S8x512_S4096 : S8x512.ShapeCasts S4096
  bcast_S_S4096 : S_.BroadcastsInDim S4096 (![] : Fin 0 → Fin S4096.rank)
  slices_S4096_S1_4095 : S4096.Slices ![4095] S1
  slices_S4096_S4095_0 : S4096.Slices ![0] S4095
  concatenates_S1_S4095_S4096_d0 : Shape.Concatenates [S1, S4095] S4096 0
  bcast_S_S1 : S_.BroadcastsInDim S1 (![] : Fin 0 → Fin S1.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S_S8 : S_.BroadcastsInDim S8 (![] : Fin 0 → Fin S8.rank)
  natLt_1_32 : 1 < 32
  reduceWindows_S4096_S4096_w4096s1p4095_0 : S4096.ReduceWindows (![4096] : Fin 1 → Nat) ![1] ![4095] ![0] S4096
  h_S_ : 0 < S_.numel
  bcast_S_S8x512x8192 : S_.BroadcastsInDim S8x512x8192 (![] : Fin 0 → Fin S8x512x8192.rank)
  reducesTo_S8x512x8192_S_d0_1_2 : S8x512x8192.ReducesTo [0, 1, 2] S_
  bcast_S_S8192x8192 : S_.BroadcastsInDim S8192x8192 (![] : Fin 0 → Fin S8192x8192.rank)
  reducesTo_S8192x8192_S_d0_1 : S8192x8192.ReducesTo [0, 1] S_
  bcast_S_S8x512 : S_.BroadcastsInDim S8x512 (![] : Fin 0 → Fin S8x512.rank)
  reducesTo_S8x512_S_d0_1 : S8x512.ReducesTo [0, 1] S_
  reducesTo_S8_S_d0 : S8.ReducesTo [0] S_
  reducesTo_S4096_S_d0 : S4096.ReducesTo [0] S_
  scatter_S4096_S1_S__n_0_0_0_wf : ScatterDims.WF S4096 S1 S_ [] [0] [0] 0
  gather_S8192x8192_S4096x2_S4096_n_01_n_n_01_1_11_wf : GatherDims.WF S8192x8192 S4096x2 S4096 [] [0, 1] [] [0, 1] [] 1 ![1, 1]
  gather_S8_S4096x1_S4096_n_0_n_n_0_1_1_wf : GatherDims.WF S8 S4096x1 S4096 [] [0] [] [0] [] 1 ![1]

variable [Facts]

def scatter_S4096_S1_S__n_0_0_0 : ScatterDims S4096 S1 S_ where
  updateWindowDims := []
  insertedWindowDims := [0]
  scatterDimsToOperandDims := [0]
  indexVectorDim := 0
  wf := scatter_S4096_S1_S__n_0_0_0_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf
def gather_S8_S4096x1_S4096_n_0_n_n_0_1_1 : GatherDims S8 S4096x1 S4096 where
  offsetDims := []
  collapsedSliceDims := [0]
  operandBatchingDims := []
  startIndicesBatchingDims := []
  startIndexMap := [0]
  indexVectorDim := 1
  sliceSizes := ![1]
  wf := gather_S8_S4096x1_S4096_n_0_n_n_0_1_1_wf
def fn_part4 {F : FTy → Type} [FloatOps F] (main_arg3 : IVec S8 32) (main_v48 : FVec F S4096 .f32) (main_v52 : FVec F S4096 .f32) (main_v68 : IVec S_ 1) (main_v69 : IVec S8 32) : IVec S_ 1 :=
  let main_v70 : IVec S8 1 := cmpi .sge main_arg3 main_v69
  let main_c_24 : IVec S_ 32 := constantI S_ 32 512#32
  let main_v71 : IVec S8 32 := broadcastInDim S8 ![] bcast_S_S8 main_c_24
  let main_v72 : IVec S8 1 := cmpi .sle main_arg3 main_v71
  let main_v73 : IVec S8 1 := andi main_v70 main_v72
  let main_c_25 : IVec S_ 1 := constantI S_ 1 1#1
  let main_v74 : IVec S_ 1 := (fun x v => Host.reduce IntOp.andi x v reducesTo_S8_S_d0 h_S_) main_v73 main_c_25
  let main_v75 : IVec S_ 1 := andi main_v68 main_v74
  let main_cst_26 : FVec F S_ .f32 := constant S_ .f32 0x00000000#32
  let main_v76 : FVec F S4096 .f32 := broadcastInDim S4096 ![] bcast_S_S4096 main_cst_26
  let main_v77 : IVec S4096 1 := cmpf .oge main_v48 main_v76
  let main_c_27 : IVec S_ 1 := constantI S_ 1 1#1
  let main_v78 : IVec S_ 1 := (fun x v => Host.reduce IntOp.andi x v reducesTo_S4096_S_d0 h_S_) main_v77 main_c_27
  let main_v79 : IVec S_ 1 := andi main_v75 main_v78
  let main_cst_28 : FVec F S_ .f32 := constant S_ .f32 0x00000000#32
  let main_v80 : FVec F S4096 .f32 := broadcastInDim S4096 ![] bcast_S_S4096 main_cst_28
  let main_v81 : IVec S4096 1 := cmpf .oge main_v52 main_v80
  let main_c_29 : IVec S_ 1 := constantI S_ 1 1#1
  let main_v82 : IVec S_ 1 := (fun x v => Host.reduce IntOp.andi x v reducesTo_S4096_S_d0 h_S_) main_v81 main_c_29
  let main_v83 : IVec S_ 1 := andi main_v79 main_v82
  main_v83

def fn_part3 {F : FTy → Type} [FloatOps F] (main_arg1 : FVec F S8192x8192 .f32) (main_arg2 : IVec S8x512 32) (main_arg3 : IVec S8 32) (main_v48 : FVec F S4096 .f32) (main_v52 : FVec F S4096 .f32) (main_v53 : FVec F S8x512x8192 .f32) : IVec S_ 1 :=
  let main_cst_16 : FVec F S_ .f32 := constant S_ .f32 0x7F800000#32
  let main_v54 : FVec F S8x512x8192 .f32 := broadcastInDim S8x512x8192 ![] bcast_S_S8x512x8192 main_cst_16
  let main_v55 : IVec S8x512x8192 1 := cmpf .olt main_v53 main_v54
  let main_c_17 : IVec S_ 1 := constantI S_ 1 1#1
  let main_v56 : IVec S_ 1 := (fun x v => Host.reduce IntOp.andi x v reducesTo_S8x512x8192_S_d0_1_2 h_S_) main_v55 main_c_17
  let main_v57 : FVec F S8192x8192 .f32 := Host.absf main_arg1
  let main_cst_18 : FVec F S_ .f32 := constant S_ .f32 0x7F800000#32
  let main_v58 : FVec F S8192x8192 .f32 := broadcastInDim S8192x8192 ![] bcast_S_S8192x8192 main_cst_18
  let main_v59 : IVec S8192x8192 1 := cmpf .olt main_v57 main_v58
  let main_c_19 : IVec S_ 1 := constantI S_ 1 1#1
  let main_v60 : IVec S_ 1 := (fun x v => Host.reduce IntOp.andi x v reducesTo_S8192x8192_S_d0_1 h_S_) main_v59 main_c_19
  let main_v61 : IVec S_ 1 := andi main_v56 main_v60
  let main_c_20 : IVec S_ 32 := constantI S_ 32 0#32
  let main_v62 : IVec S8x512 32 := broadcastInDim S8x512 ![] bcast_S_S8x512 main_c_20
  let main_v63 : IVec S8x512 1 := cmpi .sge main_arg2 main_v62
  let main_c_21 : IVec S_ 32 := constantI S_ 32 8192#32
  let main_v64 : IVec S8x512 32 := broadcastInDim S8x512 ![] bcast_S_S8x512 main_c_21
  let main_v65 : IVec S8x512 1 := cmpi .slt main_arg2 main_v64
  let main_v66 : IVec S8x512 1 := andi main_v63 main_v65
  let main_c_22 : IVec S_ 1 := constantI S_ 1 1#1
  let main_v67 : IVec S_ 1 := (fun x v => Host.reduce IntOp.andi x v reducesTo_S8x512_S_d0_1 h_S_) main_v66 main_c_22
  let main_v68 : IVec S_ 1 := andi main_v61 main_v67
  let main_c_23 : IVec S_ 32 := constantI S_ 32 0#32
  let main_v69 : IVec S8 32 := broadcastInDim S8 ![] bcast_S_S8 main_c_23
  fn_part4 (F := F) main_arg3 main_v48 main_v52 main_v68 main_v69

def fn_part2 {F : FTy → Type} [FloatOps F] (main_arg0 : FVec F S8x512x8192 .f32) (main_arg1 : FVec F S8192x8192 .f32) (main_arg2 : IVec S8x512 32) (main_arg3 : IVec S8 32) (main_v2 : IVec S4096 1) (main_v26 : FVec F S4096 .f32) (main_v35 : FVec F S8 .f32) : IVec S_ 1 :=
  let main_v36 : IVec S4096 32 := (extui 32 · natLt_1_32) main_v2
  let main_c_10 : IVec S_ 32 := constantI S_ 32 0#32
  let main_v37 : IVec S4096 32 := (fun x v => Host.reduceWindow IntOp.addi ![4096] ![1] ![4095] ![0] x v reduceWindows_S4096_S4096_w4096s1p4095_0 h_S_) main_v36 main_c_10
  let main_v38 : IVec S4096 32 := subi main_v37 main_v36
  let main_c_11 : IVec S_ 32 := constantI S_ 32 0#32
  let main_v39 : IVec S4096 32 := broadcastInDim S4096 ![] bcast_S_S4096 main_c_11
  let main_v40 : IVec S4096 1 := cmpi .slt main_v38 main_v39
  let main_c_12 : IVec S_ 32 := constantI S_ 32 8#32
  let main_v41 : IVec S4096 32 := broadcastInDim S4096 ![] bcast_S_S4096 main_c_12
  let main_v42 : IVec S4096 32 := addi main_v38 main_v41
  let main_v43 : IVec S4096 32 := select main_v40 main_v42 main_v38
  let main_v44 : IVec S4096x1 32 := broadcastInDim S4096x1 ![0] bcast_S4096_S4096x1_0 main_v43
  let main_v45 : FVec F S4096 .f32 := (fun x i => Host.gather gather_S8_S4096x1_S4096_n_0_n_n_0_1_1 x i) main_v35 main_v44
  let main_v46 : FVec F S4096 .f32 := mulf main_v45 main_v26
  let main_cst_13 : FVec F S_ .f32 := constant S_ .f32 0x45FFF800#32
  let main_v47 : FVec F S4096 .f32 := broadcastInDim S4096 ![] bcast_S_S4096 main_cst_13
  let main_v48 : FVec F S4096 .f32 := Host.divf main_v46 main_v47
  let main_cst_14 : FVec F S_ .f32 := constant S_ .f32 0x46000000#32
  let main_v49 : FVec F S4096 .f32 := broadcastInDim S4096 ![] bcast_S_S4096 main_cst_14
  let main_v50 : FVec F S4096 .f32 := mulf main_v48 main_v49
  let main_cst_15 : FVec F S_ .f32 := constant S_ .f32 0x3F800000#32
  let main_v51 : FVec F S4096 .f32 := broadcastInDim S4096 ![] bcast_S_S4096 main_cst_15
  let main_v52 : FVec F S4096 .f32 := subf main_v51 main_v50
  let main_v53 : FVec F S8x512x8192 .f32 := Host.absf main_arg0
  fn_part3 (F := F) main_arg1 main_arg2 main_arg3 main_v48 main_v52 main_v53

def fn_part1 {F : FTy → Type} [FloatOps F] (main_arg0 : FVec F S8x512x8192 .f32) (main_arg1 : FVec F S8192x8192 .f32) (main_arg2 : IVec S8x512 32) (main_arg3 : IVec S8 32) (main_v0 : IVec S4096 32) (main_v2 : IVec S4096 1) (main_v17 : IVec S4096 32) : IVec S_ 1 :=
  let main_c_5 : IVec S_ 32 := constantI S_ 32 0#32
  let main_v18 : IVec S4096 32 := broadcastInDim S4096 ![] bcast_S_S4096 main_c_5
  let main_v19 : IVec S4096 1 := cmpi .slt main_v0 main_v18
  let main_c_6 : IVec S_ 32 := constantI S_ 32 8192#32
  let main_v20 : IVec S4096 32 := broadcastInDim S4096 ![] bcast_S_S4096 main_c_6
  let main_v21 : IVec S4096 32 := addi main_v0 main_v20
  let main_v22 : IVec S4096 32 := select main_v19 main_v21 main_v0
  let main_v23 : IVec S4096x1 32 := broadcastInDim S4096x1 ![0] bcast_S4096_S4096x1_0 main_v17
  let main_v24 : IVec S4096x1 32 := broadcastInDim S4096x1 ![0] bcast_S4096_S4096x1_0 main_v22
  let main_v25 : IVec S4096x2 32 := (fun a b => concatenate S4096x2 1 [⟨S4096x1, a⟩, ⟨S4096x1, b⟩] concatenates_S4096x1_S4096x1_S4096x2_d1) main_v23 main_v24
  let main_v26 : FVec F S4096 .f32 := (fun x i => Host.gather gather_S8192x8192_S4096x2_S4096_n_01_n_n_01_1_11 x i) main_arg1 main_v25
  let main_c_7 : IVec S_ 32 := constantI S_ 32 1#32
  let main_v27 : IVec S8 32 := broadcastInDim S8 ![] bcast_S_S8 main_c_7
  let main_v28 : IVec S8 32 := addi main_arg3 main_v27
  let main_v29 : FVec F S8 .f32 := sitofp .f32 main_v28
  let main_cst : FVec F S_ .f32 := constant S_ .f32 0x3F800000#32
  let main_v30 : FVec F S8 .f32 := broadcastInDim S8 ![] bcast_S_S8 main_cst
  let main_v31 : FVec F S8 .f32 := Host.divf main_v30 main_v29
  let main_cst_8 : FVec F S_ .f32 := constant S_ .f32 0x3F666666#32
  let main_v32 : FVec F S8 .f32 := broadcastInDim S8 ![] bcast_S_S8 main_cst_8
  let main_v33 : FVec F S8 .f32 := Host.powf main_v32 main_v31
  let main_cst_9 : FVec F S_ .f32 := constant S_ .f32 0x3F800000#32
  let main_v34 : FVec F S8 .f32 := broadcastInDim S8 ![] bcast_S_S8 main_cst_9
  let main_v35 : FVec F S8 .f32 := subf main_v34 main_v33
  fn_part2 (F := F) main_arg0 main_arg1 main_arg2 main_arg3 main_v2 main_v26 main_v35

def fn {F : FTy → Type} [FloatOps F] (main_arg0 : FVec F S8x512x8192 .f32) (main_arg1 : FVec F S8192x8192 .f32) (main_arg2 : IVec S8x512 32) (main_arg3 : IVec S8 32) : IVec S_ 1 :=
  let main_v0 : IVec S4096 32 := shapeCast S4096 main_arg2 shapeCasts_S8x512_S4096
  let main_c : IVec S_ 32 := constantI S_ 32 1#32
  let main_v1 : IVec S4096 32 := broadcastInDim S4096 ![] bcast_S_S4096 main_c
  let main_v2 : IVec S4096 1 := cmpi .eq main_v0 main_v1
  let main_v3 : IVec S1 32 := (extractStridedSlice S1 ![4095] · slices_S4096_S1_4095) main_v0
  let main_v4 : IVec S4095 32 := (extractStridedSlice S4095 ![0] · slices_S4096_S4095_0) main_v0
  let main_v5 : IVec S4096 32 := (fun a b => concatenate S4096 0 [⟨S1, a⟩, ⟨S4095, b⟩] concatenates_S1_S4095_S4096_d0) main_v3 main_v4
  let main_v6 : IVec S1 1 := (extractStridedSlice S1 ![4095] · slices_S4096_S1_4095) main_v2
  let main_v7 : IVec S4095 1 := (extractStridedSlice S4095 ![0] · slices_S4096_S4095_0) main_v2
  let main_v8 : IVec S4096 1 := (fun a b => concatenate S4096 0 [⟨S1, a⟩, ⟨S4095, b⟩] concatenates_S1_S4095_S4096_d0) main_v6 main_v7
  let main_c_0 : IVec S_ 32 := constantI S_ 32 0#32
  let main_v9 : IVec S1 32 := broadcastInDim S1 ![] bcast_S_S1 main_c_0
  let main_c_1 : IVec S_ 1 := constantI S_ 1 1#1
  let main_v10 : IVec S4096 1 := (fun x i u => Host.scatter scatter_S4096_S1_S__n_0_0_0 (fun _ b => b) x i u) main_v8 main_v9 main_c_1
  let main_c_2 : IVec S_ 32 := constantI S_ 32 4095#32
  let main_v11 : IVec S4096 32 := broadcastInDim S4096 ![] bcast_S_S4096 main_c_2
  let main_v12 : IVec S4096 32 := select main_v10 main_v11 main_v5
  let main_c_3 : IVec S_ 32 := constantI S_ 32 0#32
  let main_v13 : IVec S4096 32 := broadcastInDim S4096 ![] bcast_S_S4096 main_c_3
  let main_v14 : IVec S4096 1 := cmpi .slt main_v12 main_v13
  let main_c_4 : IVec S_ 32 := constantI S_ 32 8192#32
  let main_v15 : IVec S4096 32 := broadcastInDim S4096 ![] bcast_S_S4096 main_c_4
  let main_v16 : IVec S4096 32 := addi main_v12 main_v15
  let main_v17 : IVec S4096 32 := select main_v14 main_v16 main_v12
  fn_part1 (F := F) main_arg0 main_arg1 main_arg2 main_arg3 main_v0 main_v2 main_v17
-- ==== Kernel.lean ====
abbrev S8x512x8192 : Shape := ⟨3, ![8, 512, 8192]⟩
abbrev S8192x8192 : Shape := ⟨2, ![8192, 8192]⟩
abbrev S8x512 : Shape := ⟨2, ![8, 512]⟩
abbrev S8 : Shape := ⟨1, ![8]⟩
abbrev S4096x8192 : Shape := ⟨2, ![4096, 8192]⟩
abbrev S4096 : Shape := ⟨1, ![4096]⟩
abbrev S_ : Shape := ⟨0, ![]⟩
abbrev S1 : Shape := ⟨1, ![1]⟩
abbrev S4095 : Shape := ⟨1, ![4095]⟩
abbrev S4096x1 : Shape := ⟨2, ![4096, 1]⟩
abbrev S4096x2 : Shape := ⟨2, ![4096, 2]⟩
abbrev S4096x1x1 : Shape := ⟨3, ![4096, 1, 1]⟩
abbrev S1x1x1 : Shape := ⟨3, ![1, 1, 1]⟩
abbrev S2x1x1 : Shape := ⟨3, ![2, 1, 1]⟩
abbrev S128x8192 : Shape := ⟨2, ![128, 8192]⟩
abbrev S128x2 : Shape := ⟨2, ![128, 2]⟩
abbrev S1x1 : Shape := ⟨2, ![1, 1]⟩
abbrev S128x1 : Shape := ⟨2, ![128, 1]⟩
abbrev S128 : Shape := ⟨1, ![128]⟩

abbrev nBuf : Space → Nat
  | .hbm => 100
  | .vmem => 7
  | .smem => 0
  | _ => 0

abbrev bufTy : (tb : Table) → Fin (tcTables nBuf tb) → BufTy
  | .hbm, ⟨0, _⟩ => ⟨S8x512x8192, .f32⟩
  | .hbm, ⟨1, _⟩ => ⟨S8192x8192, .f32⟩
  | .hbm, ⟨2, _⟩ => ⟨S8x512, .i32⟩
  | .hbm, ⟨3, _⟩ => ⟨S8, .i32⟩
  | .hbm, ⟨4, _⟩ => ⟨S4096x8192, .f32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S1, .i32⟩
  | .hbm, ⟨10, _⟩ => ⟨S4095, .i32⟩
  | .hbm, ⟨11, _⟩ => ⟨S4096, .i32⟩
  | .hbm, ⟨12, _⟩ => ⟨S1, .i1⟩
  | .hbm, ⟨13, _⟩ => ⟨S4095, .i1⟩
  | .hbm, ⟨14, _⟩ => ⟨S4096, .i1⟩
  | .hbm, ⟨15, _⟩ => ⟨S_, .i32⟩
  | .hbm, ⟨16, _⟩ => ⟨S1, .i32⟩
  | .hbm, ⟨17, _⟩ => ⟨S_, .i1⟩
  | .hbm, ⟨18, _⟩ => ⟨S4096, .i1⟩
  | .hbm, ⟨19, _⟩ => ⟨S_, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S4096x1, .i32⟩
  | .hbm, ⟨38, _⟩ => ⟨S4096x1, .i32⟩
  | .hbm, ⟨39, _⟩ => ⟨S4096x2, .i32⟩
  | .hbm, ⟨40, _⟩ => ⟨S4096, .f32⟩
  | .hbm, ⟨41, _⟩ => ⟨S_, .i32⟩
  | .hbm, ⟨42, _⟩ => ⟨S8, .i32⟩
  | .hbm, ⟨43, _⟩ => ⟨S8, .i32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S4096, .i32⟩
  | .hbm, ⟨55, _⟩ => ⟨S_, .i32⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S_, .i32⟩
  | .hbm, ⟨60, _⟩ => ⟨S4096, .i32⟩
  | .hbm, ⟨61, _⟩ => ⟨S4096, .i1⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S4096, .i32⟩
  | .hbm, ⟨66, _⟩ => ⟨S4096x1, .i32⟩
  | .hbm, ⟨67, _⟩ => ⟨S4096, .f32⟩
  | .hbm, ⟨68, _⟩ => ⟨S4096, .f32⟩
  | .hbm, ⟨69, _⟩ => ⟨S4096x1, .i32⟩
  | .hbm, ⟨70, _⟩ => ⟨S_, .i32⟩
  | .hbm, ⟨71, _⟩ => ⟨S4096x1, .i32⟩
  | .hbm, ⟨72, _⟩ => ⟨S4096x1, .i1⟩
  | .hbm, ⟨73, _⟩ => ⟨S_, .i32⟩
  | .hbm, ⟨74, _⟩ => ⟨S4096x1, .i32⟩
  | .hbm, ⟨75, _⟩ => ⟨S4096x1, .i32⟩
  | .hbm, ⟨76, _⟩ => ⟨S4096x1, .i32⟩
  | .hbm, ⟨77, _⟩ => ⟨S4096x1x1, .i32⟩
  | .hbm, ⟨78, _⟩ => ⟨S1, .i32⟩
  | .hbm, ⟨79, _⟩ => ⟨S_, .i32⟩
  | .hbm, ⟨80, _⟩ => ⟨S4096x1x1, .i32⟩
  | .hbm, ⟨81, _⟩ => ⟨S4096x1x1, .i1⟩
  | .hbm, ⟨82, _⟩ => ⟨S1x1x1, .i32⟩
  | .hbm, ⟨83, _⟩ => ⟨S4096x1x1, .i32⟩
  | .hbm, ⟨84, _⟩ => ⟨S4096x1x1, .i1⟩
  | .hbm, ⟨85, _⟩ => ⟨S4096x1x1, .i1⟩
  | .hbm, ⟨86, _⟩ => ⟨S_, .i1⟩
  | .hbm, ⟨87, _⟩ => ⟨S4096x1, .i1⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S4096x1, .f32⟩
  | .hbm, ⟨93, _⟩ => ⟨S4096x2, .f32⟩
  | .hbm, ⟨94, _⟩ => ⟨S2x1x1, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x2, .f32⟩
  | .local _ .vmem, ⟨3, _⟩ => ⟨S128x2, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S8x512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_call1_v0 : Ref sig .tc := ⟨.hbm, 12, rfl⟩
abbrev main_call1_v1 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_c_2 : Ref sig .tc := ⟨.hbm, 19, rfl⟩
abbrev main_call2_v0 : Ref sig .tc := ⟨.hbm, 20, rfl⟩
abbrev main_call2_v1 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_v10 : Ref sig .tc := ⟨.hbm, 25, rfl⟩
abbrev main_c_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_5 : Ref sig .tc := ⟨.hbm, 30, rfl⟩
abbrev main_v14 : Ref sig .tc := ⟨.hbm, 31, rfl⟩
abbrev main_v15 : Ref sig .tc := ⟨.hbm, 32, rfl⟩
abbrev main_c_6 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst : Ref sig .tc := ⟨.hbm, 45, rfl⟩
abbrev main_v26 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call3_call0_c : Ref sig .tc := ⟨.hbm, 55, rfl⟩
abbrev main_call3_call0_v0 : Ref sig .tc := ⟨.hbm, 56, rfl⟩
abbrev main_v33 : Ref sig .tc := ⟨.hbm, 57, rfl⟩
abbrev main_v34 : Ref sig .tc := ⟨.hbm, 58, rfl⟩
abbrev main_c_10 : Ref sig .tc := ⟨.hbm, 59, rfl⟩
abbrev main_v35 : Ref sig .tc := ⟨.hbm, 60, rfl⟩
abbrev main_v36 : Ref sig .tc := ⟨.hbm, 61, rfl⟩
abbrev main_c_11 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call4_c : Ref sig .tc := ⟨.hbm, 70, rfl⟩
abbrev main_call4_v0 : Ref sig .tc := ⟨.hbm, 71, rfl⟩
abbrev main_call4_v1 : Ref sig .tc := ⟨.hbm, 72, rfl⟩
abbrev main_call4_c_0 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_v5 : Ref sig .tc := ⟨.hbm, 77, rfl⟩
abbrev main_call4_c_1 : Ref sig .tc := ⟨.hbm, 78, rfl⟩
abbrev main_call4_c_2 : Ref sig .tc := ⟨.hbm, 79, rfl⟩
abbrev main_call4_v6 : Ref sig .tc := ⟨.hbm, 80, rfl⟩
abbrev main_call4_v7 : Ref sig .tc := ⟨.hbm, 81, rfl⟩
abbrev main_call4_v8 : Ref sig .tc := ⟨.hbm, 82, rfl⟩
abbrev main_call4_v9 : Ref sig .tc := ⟨.hbm, 83, rfl⟩
abbrev main_call4_v10 : Ref sig .tc := ⟨.hbm, 84, rfl⟩
abbrev main_call4_v11 : Ref sig .tc := ⟨.hbm, 85, rfl⟩
abbrev main_call4_c_3 : Ref sig .tc := ⟨.hbm, 86, rfl⟩
abbrev main_call4_v12 : Ref sig .tc := ⟨.hbm, 87, rfl⟩
abbrev main_call4_v13 : Ref sig .tc := ⟨.hbm, 88, rfl⟩
abbrev main_call4_cst : Ref sig .tc := ⟨.hbm, 89, rfl⟩
abbrev main_call4_v14 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_cst_12 : Ref sig .tc := ⟨.hbm, 95, rfl⟩
abbrev main_v48 : Ref sig .tc := ⟨.hbm, 96, rfl⟩
abbrev main_cst_13 : Ref sig .tc := ⟨.hbm, 97, rfl⟩
abbrev main_v49 : Ref sig .tc := ⟨.hbm, 98, rfl⟩
abbrev main_v50 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v67 : BitVec 1 := Scalar.cmpi .eq arg1 c15_i32
  let v68 : BitVec 32 := Scalar.extui v67
  let c0_i32_25 : BitVec 32 := 0#32
  let v69 : BitVec 1 := Scalar.cmpi .ne v68 c0_i32_25
  v69

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x512x8192_S4096x8192 : S8x512x8192.ShapeCasts S4096x8192
  shapeCasts_S8x512_S4096 : S8x512.ShapeCasts S4096
  bcast_S_S4096 : S_.BroadcastsInDim S4096 (![] : Fin 0 → Fin S4096.rank)
  slices_S4096_S1_4095 : S4096.Slices ![4095] S1
  slices_S4096_S4095_0 : S4096.Slices ![0] S4095
  concatenates_S1_S4095_S4096_d0 : Shape.Concatenates [S1, S4095] S4096 0
  bcast_S_S1 : S_.BroadcastsInDim S1 (![] : Fin 0 → Fin S1.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S_S8 : S_.BroadcastsInDim S8 (![] : Fin 0 → Fin S8.rank)
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S128x2_S128x2_0_0 : ∀ a, (![0, 0] : Fin 2 → Nat) a + S128x2.size a ≤ S128x2.size a
  h_S128x2 : 0 < S128x2.numel
  shapeCasts_S128x2_S128x2 : S128x2.ShapeCasts S128x2
  slices_S128x2_o0_0_S128x1 : S128x2.Slices ![0, 0] S128x1
  slices_S128x2_o0_1_S128x1 : S128x2.Slices ![0, 1] S128x1
  reduces_S128x8192_S128 : S128x8192.Reduces [1] S128
  shapeCasts_S128_S128x1 : S128.ShapeCasts S128x1
  broadcasts_S128x1_S128x8192 : S128x1.Broadcasts S128x8192
  reduces_S128x1_S1 : S128x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  reducesTo_S8_S_d0 : S8.ReducesTo [0] S_
  scatter_S4096_S1_S__n_0_0_0_wf : ScatterDims.WF S4096 S1 S_ [] [0] [0] 0
  gather_S8192x8192_S4096x2_S4096_n_01_n_n_01_1_11_wf : GatherDims.WF S8192x8192 S4096x2 S4096 [] [0, 1] [] [0, 1] [] 1 ![1, 1]
  gather_S8_S4096x1_S4096_n_0_n_n_0_1_1_wf : GatherDims.WF S8 S4096x1 S4096 [] [0] [] [0] [] 1 ![1]
  gather_S4096x8192_S4096x1x1_S4096x1_n_1_0_0_1_2_11_wf : GatherDims.WF S4096x8192 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2.size a ≤ S4096x2.size a
  hwx0_1 : ∀ i : grid0.Coords, EltTy.bits .f32 = 32 ∨ (Rect.block (s := S4096x2) S128x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

def scatter_S4096_S1_S__n_0_0_0 : ScatterDims S4096 S1 S_ where
  updateWindowDims := []
  insertedWindowDims := [0]
  scatterDimsToOperandDims := [0]
  indexVectorDim := 0
  wf := scatter_S4096_S1_S__n_0_0_0_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf
def gather_S8_S4096x1_S4096_n_0_n_n_0_1_1 : GatherDims S8 S4096x1 S4096 where
  offsetDims := []
  collapsedSliceDims := [0]
  operandBatchingDims := []
  startIndicesBatchingDims := []
  startIndexMap := [0]
  indexVectorDim := 1
  sliceSizes := ![1]
  wf := gather_S8_S4096x1_S4096_n_0_n_n_0_1_1_wf
def gather_S4096x8192_S4096x1x1_S4096x1_n_1_0_0_1_2_11 : GatherDims S4096x8192 S4096x1x1 S4096x1 where
  offsetDims := []
  collapsedSliceDims := [1]
  operandBatchingDims := [0]
  startIndicesBatchingDims := [0]
  startIndexMap := [1]
  indexVectorDim := 2
  sliceSizes := ![1, 1]
  wf := gather_S4096x8192_S4096x1x1_S4096x1_n_1_0_0_1_2_11_wf

abbrev win0_0 : Pipeline.Window sig grid0 :=
  Pipeline.Window.ofSpec (Memref.whole main_v0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S128x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x512x8192 : Shape := ⟨3, ![8, 512, 8192]⟩
abbrev S8192x8192 : Shape := ⟨2, ![8192, 8192]⟩
abbrev S8x512 : Shape := ⟨2, ![8, 512]⟩
abbrev S8 : Shape := ⟨1, ![8]⟩
abbrev S4096x8192 : Shape := ⟨2, ![4096, 8192]⟩
abbrev S4096 : Shape := ⟨1, ![4096]⟩
abbrev S_ : Shape := ⟨0, ![]⟩
abbrev S1 : Shape := ⟨1, ![1]⟩
abbrev S4095 : Shape := ⟨1, ![4095]⟩
abbrev S4096x1 : Shape := ⟨2, ![4096, 1]⟩
abbrev S4096x2 : Shape := ⟨2, ![4096, 2]⟩

abbrev nBuf : Space → Nat
  | .hbm => 132
  | .vmem => 0
  | .smem => 0
  | _ => 0

abbrev hbmTy0_0 (i : Nat) : BufTy := match i % 128 with
  | 0 => ⟨S8x512x8192, .f32⟩
  | 1 => ⟨S8192x8192, .f32⟩
  | 2 => ⟨S8x512, .i32⟩
  | 3 => ⟨S8, .i32⟩
  | 4 => ⟨S4096x8192, .f32⟩
  | 5 => ⟨S4096, .i32⟩
  | 6 => ⟨S_, .i32⟩
  | 7 => ⟨S4096, .i32⟩
  | 8 => ⟨S4096, .i1⟩
  | 9 => ⟨S1, .i32⟩
  | 10 => ⟨S4095, .i32⟩
  | 11 => ⟨S4096, .i32⟩
  | 12 => ⟨S1, .i1⟩
  | 13 => ⟨S4095, .i1⟩
  | 14 => ⟨S4096, .i1⟩
  | 15 => ⟨S_, .i32⟩
  | 16 => ⟨S1, .i32⟩
  | 17 => ⟨S_, .i1⟩
  | 18 => ⟨S4096, .i1⟩
  | 19 => ⟨S_, .i32⟩
  | 20 => ⟨S_, .i32⟩
  | 21 => ⟨S4096, .i32⟩
  | 22 => ⟨S4096, .i32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S_, .i32⟩
  | 31 => ⟨S4096, .i32⟩
  | 32 => ⟨S4096, .i1⟩
  | 33 => ⟨S_, .i32⟩
  | 34 => ⟨S4096, .i32⟩
  | 35 => ⟨S4096, .i32⟩
  | 36 => ⟨S4096, .i32⟩
  | 37 => ⟨S4096x1, .i32⟩
  | 38 => ⟨S4096x1, .i32⟩
  | 39 => ⟨S4096x2, .i32⟩
  | 40 => ⟨S4096, .f32⟩
  | 41 => ⟨S_, .i32⟩
  | 42 => ⟨S8, .i32⟩
  | 43 => ⟨S8, .i32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S4096, .i32⟩
  | 55 => ⟨S_, .i32⟩
  | 56 => ⟨S_, .i32⟩
  | 57 => ⟨S4096, .i32⟩
  | 58 => ⟨S4096, .i32⟩
  | 59 => ⟨S_, .i32⟩
  | 60 => ⟨S4096, .i32⟩
  | 61 => ⟨S4096, .i1⟩
  | 62 => ⟨S_, .i32⟩
  | 63 => ⟨S4096, .i32⟩
  | 64 => ⟨S4096, .i32⟩
  | 65 => ⟨S4096, .i32⟩
  | 66 => ⟨S4096x1, .i32⟩
  | 67 => ⟨S4096, .f32⟩
  | 68 => ⟨S4096, .f32⟩
  | 69 => ⟨S_, .f32⟩
  | 70 => ⟨S4096, .f32⟩
  | 71 => ⟨S4096, .f32⟩
  | 72 => ⟨S_, .f32⟩
  | 73 => ⟨S4096, .f32⟩
  | 74 => ⟨S4096, .f32⟩
  | 75 => ⟨S_, .f32⟩
  | 76 => ⟨S4096, .f32⟩
  | 77 => ⟨S4096, .f32⟩
  | 78 => ⟨S4096x1, .f32⟩
  | 79 => ⟨S4096x8192, .f32⟩
  | 80 => ⟨S4096, .i32⟩
  | 81 => ⟨S_, .i32⟩
  | 82 => ⟨S4096, .i32⟩
  | 83 => ⟨S4096, .i1⟩
  | 84 => ⟨S_, .i32⟩
  | 85 => ⟨S4096, .i32⟩
  | 86 => ⟨S4096, .i32⟩
  | 87 => ⟨S4096, .i32⟩
  | 88 => ⟨S_, .i32⟩
  | 89 => ⟨S4096, .i32⟩
  | 90 => ⟨S4096, .i1⟩
  | 91 => ⟨S_, .i32⟩
  | 92 => ⟨S4096, .i32⟩
  | 93 => ⟨S4096, .i32⟩
  | 94 => ⟨S4096, .i32⟩
  | 95 => ⟨S4096x1, .i32⟩
  | 96 => ⟨S4096x1, .i32⟩
  | 97 => ⟨S4096x2, .i32⟩
  | 98 => ⟨S4096x8192, .f32⟩
  | 99 => ⟨S_, .f32⟩
  | 100 => ⟨S4096, .f32⟩
  | 101 => ⟨S_, .f32⟩
  | 102 => ⟨S4096, .f32⟩
  | 103 => ⟨S4096, .f32⟩
  | 104 => ⟨S4096x1, .f32⟩
  | 105 => ⟨S4096x8192, .f32⟩
  | 106 => ⟨S4096x8192, .f32⟩
  | 107 => ⟨S4096x8192, .f32⟩
  | 108 => ⟨S_, .f32⟩
  | 109 => ⟨S4096, .f32⟩
  | 110 => ⟨S4096x1, .f32⟩
  | 111 => ⟨S4096x1, .f32⟩
  | 112 => ⟨S4096x8192, .f32⟩
  | 113 => ⟨S4096x8192, .f32⟩
  | 114 => ⟨S_, .f32⟩
  | 115 => ⟨S4096x8192, .f32⟩
  | 116 => ⟨S4096x8192, .i1⟩
  | 117 => ⟨S4096x8192, .i1⟩
  | 118 => ⟨S4096x8192, .i1⟩
  | 119 => ⟨S4096x8192, .f32⟩
  | 120 => ⟨S4096x8192, .f32⟩
  | 121 => ⟨S_, .f32⟩
  | 122 => ⟨S4096x8192, .f32⟩
  | 123 => ⟨S4096x8192, .f32⟩
  | 124 => ⟨S4096x8192, .f32⟩
  | 125 => ⟨S4096x8192, .f32⟩
  | 126 => ⟨S_, .f32⟩
  | 127 => ⟨S_, .f32⟩
  | _ => ⟨S8x512x8192, .f32⟩

abbrev hbmTy0_1 (i : Nat) : BufTy := match i % 128 with
  | 0 => ⟨S_, .i32⟩
  | 1 => ⟨S_, .i32⟩
  | 2 => ⟨S_, .f32⟩
  | 3 => ⟨S_, .f32⟩
  | _ => ⟨S8x512x8192, .f32⟩

abbrev hbmTy (i : Nat) : BufTy := match i / 128 with
  | 0 => hbmTy0_0 i
  | 1 => hbmTy0_1 i
  | _ => ⟨S8x512x8192, .f32⟩

abbrev bufTy : (tb : Table) → Fin (tcTables nBuf tb) → BufTy
  | .hbm, ⟨i, _⟩ => hbmTy i
  | _, _ => ⟨S8x512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_call1_v0 : Ref sig .tc := ⟨.hbm, 12, rfl⟩
abbrev main_call1_v1 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_c_2 : Ref sig .tc := ⟨.hbm, 19, rfl⟩
abbrev main_call2_v0 : Ref sig .tc := ⟨.hbm, 20, rfl⟩
abbrev main_call2_v1 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_v10 : Ref sig .tc := ⟨.hbm, 25, rfl⟩
abbrev main_c_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_5 : Ref sig .tc := ⟨.hbm, 30, rfl⟩
abbrev main_v14 : Ref sig .tc := ⟨.hbm, 31, rfl⟩
abbrev main_v15 : Ref sig .tc := ⟨.hbm, 32, rfl⟩
abbrev main_c_6 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst : Ref sig .tc := ⟨.hbm, 45, rfl⟩
abbrev main_v26 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call3_call0_c : Ref sig .tc := ⟨.hbm, 55, rfl⟩
abbrev main_call3_call0_v0 : Ref sig .tc := ⟨.hbm, 56, rfl⟩
abbrev main_v33 : Ref sig .tc := ⟨.hbm, 57, rfl⟩
abbrev main_v34 : Ref sig .tc := ⟨.hbm, 58, rfl⟩
abbrev main_c_10 : Ref sig .tc := ⟨.hbm, 59, rfl⟩
abbrev main_v35 : Ref sig .tc := ⟨.hbm, 60, rfl⟩
abbrev main_v36 : Ref sig .tc := ⟨.hbm, 61, rfl⟩
abbrev main_c_11 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_12 : Ref sig .tc := ⟨.hbm, 69, rfl⟩
abbrev main_v43 : Ref sig .tc := ⟨.hbm, 70, rfl⟩
abbrev main_v44 : Ref sig .tc := ⟨.hbm, 71, rfl⟩
abbrev main_cst_13 : Ref sig .tc := ⟨.hbm, 72, rfl⟩
abbrev main_v45 : Ref sig .tc := ⟨.hbm, 73, rfl⟩
abbrev main_v46 : Ref sig .tc := ⟨.hbm, 74, rfl⟩
abbrev main_cst_14 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_15 : Ref sig .tc := ⟨.hbm, 81, rfl⟩
abbrev main_v52 : Ref sig .tc := ⟨.hbm, 82, rfl⟩
abbrev main_v53 : Ref sig .tc := ⟨.hbm, 83, rfl⟩
abbrev main_c_16 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_17 : Ref sig .tc := ⟨.hbm, 88, rfl⟩
abbrev main_v57 : Ref sig .tc := ⟨.hbm, 89, rfl⟩
abbrev main_v58 : Ref sig .tc := ⟨.hbm, 90, rfl⟩
abbrev main_c_18 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call4_cst : Ref sig .tc := ⟨.hbm, 99, rfl⟩
abbrev main_call4_v0 : Ref sig .tc := ⟨.hbm, 100, rfl⟩
abbrev main_call4_cst_0 : Ref sig .tc := ⟨.hbm, 101, rfl⟩
abbrev main_call4_v1 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_v5 : Ref sig .tc := ⟨.hbm, 106, rfl⟩
abbrev main_call4_v6 : Ref sig .tc := ⟨.hbm, 107, rfl⟩
abbrev main_call4_cst_1 : Ref sig .tc := ⟨.hbm, 108, rfl⟩
abbrev main_call4_v7 : Ref sig .tc := ⟨.hbm, 109, rfl⟩
abbrev main_call4_v8 : Ref sig .tc := ⟨.hbm, 110, rfl⟩
abbrev main_call4_v9 : Ref sig .tc := ⟨.hbm, 111, rfl⟩
abbrev main_call4_v10 : Ref sig .tc := ⟨.hbm, 112, rfl⟩
abbrev main_v66 : Ref sig .tc := ⟨.hbm, 113, rfl⟩
abbrev main_cst_19 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_20 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_21 : Ref sig .tc := ⟨.hbm, 126, rfl⟩
abbrev main_v77 : Ref sig .tc := ⟨.hbm, 127, rfl⟩
abbrev main_c_22 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩

abbrev nD : Nat := 1
abbrev τ : Topo := Topo.v7x

variable {F : FTy → Type} [FloatOps F]

class Facts₀ : Prop where
  shapeCasts_S8x512x8192_S4096x8192 : S8x512x8192.ShapeCasts S4096x8192
  shapeCasts_S8x512_S4096 : S8x512.ShapeCasts S4096
  bcast_S_S4096 : S_.BroadcastsInDim S4096 (![] : Fin 0 → Fin S4096.rank)
  slices_S4096_S1_4095 : S4096.Slices ![4095] S1
  slices_S4096_S4095_0 : S4096.Slices ![0] S4095
  concatenates_S1_S4095_S4096_d0 : Shape.Concatenates [S1, S4095] S4096 0
  bcast_S_S1 : S_.BroadcastsInDim S1 (![] : Fin 0 → Fin S1.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S_S8 : S_.BroadcastsInDim S8 (![] : Fin 0 → Fin S8.rank)
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S4096x1_S4096x8192_0_1 : S4096x1.BroadcastsInDim S4096x8192 (![0, 1] : Fin 2 → Fin S4096x8192.rank)
  reducesTo_S4096x8192_S4096_d1 : S4096x8192.ReducesTo [1] S4096
  bcast_S_S4096x8192 : S_.BroadcastsInDim S4096x8192 (![] : Fin 0 → Fin S4096x8192.rank)
  reducesTo_S4096x8192_S_d0_1 : S4096x8192.ReducesTo [0, 1] S_
  reducesTo_S8_S_d0 : S8.ReducesTo [0] S_
  scatter_S4096_S1_S__n_0_0_0_wf : ScatterDims.WF S4096 S1 S_ [] [0] [0] 0
  gather_S8192x8192_S4096x2_S4096_n_01_n_n_01_1_11_wf : GatherDims.WF S8192x8192 S4096x2 S4096 [] [0, 1] [] [0, 1] [] 1 ![1, 1]
  gather_S8_S4096x1_S4096_n_0_n_n_0_1_1_wf : GatherDims.WF S8 S4096x1 S4096 [] [0] [] [0] [] 1 ![1]
  scatter_S4096x8192_S4096x2_S4096_n_01_01_1_wf : ScatterDims.WF S4096x8192 S4096x2 S4096 [] [0, 1] [0, 1] 1

variable [Facts₀]

def scatter_S4096_S1_S__n_0_0_0 : ScatterDims S4096 S1 S_ where
  updateWindowDims := []
  insertedWindowDims := [0]
  scatterDimsToOperandDims := [0]
  indexVectorDim := 0
  wf := scatter_S4096_S1_S__n_0_0_0_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf
def gather_S8_S4096x1_S4096_n_0_n_n_0_1_1 : GatherDims S8 S4096x1 S4096 where
  offsetDims := []
  collapsedSliceDims := [0]
  operandBatchingDims := []
  startIndicesBatchingDims := []
  startIndexMap := [0]
  indexVectorDim := 1
  sliceSizes := ![1]
  wf := gather_S8_S4096x1_S4096_n_0_n_n_0_1_1_wf
def scatter_S4096x8192_S4096x2_S4096_n_01_01_1 : ScatterDims S4096x8192 S4096x2 S4096 where
  updateWindowDims := []
  insertedWindowDims := [0, 1]
  scatterDimsToOperandDims := [0, 1]
  indexVectorDim := 1
  wf := scatter_S4096x8192_S4096x2_S4096_n_01_01_1_wf

class Facts : Prop extends Facts₀ where

variable [Facts]
-- ==== Proof.KernelBody.lean ====
/-
  What one run of the kernel body leaves in the scratch accumulator and in the output block, as explicit functions
  of the two loaded blocks and of what the accumulator held before.

  The body computes a per-row loss over its 128 rows, sums the 128 values into a 1 x 1 vector (`blk`), and adds that
  to the accumulator. At the first step of a core's sixteen the accumulator is first set to zero; at the last step
  the accumulator's new contents are also copied, reshaped to 1 x 1 x 1, into the output block.
-/
import proofs.«414440_j2113123910203_3_alg».proof.Proof.Gen.KernelIdeal.Frame
import Idealize.ShloMosaic.Lib.Pipeline.Value
import Idealize.ShloMosaic.Lib.Tactic

noncomputable section

namespace Cert.KernelIdeal.Body

open Idealize.ShloMosaic Idealize.ShloMosaic.TcCoe Idealize.SL.Sem
open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The zero accumulator the first step stores: a broadcast of `+0.0`. -/
abbrev zero : FVec F S1x1 .f32 := broadcast S1x1 (Scalar.ofBits .f32 0x00000000#32)

/-- The sum over the block's 128 rows of the per-row loss, from the six per-row vectors the first part of the body
    hands on: `o` (the off-target weight), `r` (the target weight), the sum of the shifted row less 8192 times the
    logarithm of the softmax denominator, the log-softmax at the target, the mask `o = 0`, and `o · log o` (with
    `o` replaced by 1 under the logarithm where it is 0). Per row:
    `((8191 · (o log o) + r log r) - o · sumLogp) - (r - o) · logpT`, each `a log a` selected to 0 at `a = 0`. -/
def blkOf (v10 : FVec F S128x1 .f32) (v16 : FVec F S128x1 .f32) (v29 : FVec F S128x1 .f32) (v31 : FVec F S128x1 .f32) (v37 : IVec S128x1 1) (v39 : FVec F S128x1 .f32) : FVec F S1x1 .f32 :=
  have cst_14 : F .f32 := Scalar.ofBits .f32 0x00000000#32
  have v40 : FVec F S128x1 .f32 := broadcast S128x1 cst_14
  have v41 : FVec F S128x1 .f32 := select v37 v40 v39
  have cst_15 : F .f32 := Scalar.ofBits .f32 0x00000000#32
  have v42 : FVec F S128x1 .f32 := broadcast S128x1 cst_15
  have v43 : IVec S128x1 1 := cmpf .oeq v16 v42
  have cst_16 : F .f32 := Scalar.ofBits .f32 0x3F800000#32
  have v44 : FVec F S128x1 .f32 := broadcast S128x1 cst_16
  have v45 : FVec F S128x1 .f32 := select v43 v44 v16
  have cst_17 : F .f32 := Scalar.ofBits .f32 0x00000000#32
  have v46 : FVec F S128x1 .f32 := broadcast S128x1 cst_17
  have v47 : IVec S128x1 1 := cmpf .oeq v16 v46
  have v48 : FVec F S128x1 .f32 := log v45
  have v49 : FVec F S128x1 .f32 := mulf v16 v48
  have cst_18 : F .f32 := Scalar.ofBits .f32 0x00000000#32
  have v50 : FVec F S128x1 .f32 := broadcast S128x1 cst_18
  have v51 : FVec F S128x1 .f32 := select v47 v50 v49
  have cst_19 : F .f32 := Scalar.ofBits .f32 0x45FFF800#32
  have v52 : FVec F S128x1 .f32 := broadcast S128x1 cst_19
  have v53 : FVec F S128x1 .f32 := mulf v52 v41
  have v54 : FVec F S128x1 .f32 := addf v53 v51
  have v55 : FVec F S128x1 .f32 := mulf v10 v29
  have v56 : FVec F S128x1 .f32 := subf v54 v55
  have v57 : FVec F S128x1 .f32 := subf v16 v10
  have v58 : FVec F S128x1 .f32 := mulf v57 v31
  have v59 : FVec F S128x1 .f32 := subf v56 v58
  have v60 : FVec F S1 .f32 := multiReduction .add [0] S1 v59 0x00000000#32 reduces_S128x1_S1 (.inl rfl) rfl
  have v61 : FVec F S1x1 .f32 := shapeCast S1x1 v60 shapeCasts_S1_S1x1
  v61

/-- The value the body adds to the accumulator, as a function of the two loaded blocks: `blkOf` at the six per-row
    vectors computed from the logits block `x0` and the packed block `x1` (column 0 the target logit, column 1 the
    smoothing value). -/
def blk (x0 : Vec F S128x8192 .f32) (x1 : Vec F S128x2 .f32) : FVec F S1x1 .f32 :=
  blkOf (k0_pay6 x1) (k0_pay7 x1) (k0_pay11 x0) (k0_pay12 x0 x1) (k0_pay13 x1) (k0_pay14 x1)

/-- The accumulator's store: what it held plus the block sum (the closing reshape to the same shape is the identity). -/
theorem pay1_eq (v10 : FVec F S128x1 .f32) (v16 : FVec F S128x1 .f32) (v29 : FVec F S128x1 .f32) (v31 : FVec F S128x1 .f32) (v37 : IVec S128x1 1) (v39 : FVec F S128x1 .f32) (v62 : Vec F S1x1 .f32) :
    k0_pay1 v10 v16 v29 v31 v37 v39 v62 = addf v62 (blkOf v10 v16 v29 v31 v37 v39) := by
  unfold k0_pay1 blkOf
  exact shapeCast_self _ _

/-- The first step's reset stores the zero vector. -/
theorem pay3_eq : k0_pay3 (F := F) = zero := by
  unfold k0_pay3
  exact shapeCast_self _ _

/-- A middle step (neither first nor last of a core's sixteen): the accumulator ends at what it held plus the block sum. -/
theorem sout_B (c : Dev nD) (i : grid0.Coords) (arg2 : Memref sig .tc .vmem S128x8192 .f32) (harg2 : arg2.IsWhole) (arg3 : Memref sig .tc .vmem S128x2 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : ¬cond0_1 i)
    (x0 : Vec F S128x8192 .f32) (x1 : Vec F S128x2 .f32) (xs0 : Vec F S1x1 .f32) :
    sout0_B_0 c i arg2 harg2 arg3 harg3 arg4 harg4 arg5 harg5 hc0 hc1 x0 x1 xs0 = addf xs0 (blk x0 x1) := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S128x8192) hz2, View.ld_unit_zero (S := S128x2) hz2, View.ld_unit_zero (S := S1x1) hz2]
  exact pay1_eq _ _ _ _ _ _ _

/-- The first step: the accumulator is set to zero, then the block sum is added. -/
theorem sout_A (c : Dev nD) (i : grid0.Coords) (arg2 : Memref sig .tc .vmem S128x8192 .f32) (harg2 : arg2.IsWhole) (arg3 : Memref sig .tc .vmem S128x2 .f32) (harg3 : arg3.IsWhole) (arg4 : Memref sig .tc .vmem S1x1x1 .f32) (harg4 : arg4.IsWhole) (arg5 : Memref sig .tc .vmem S1x1 .f32) (harg5 : arg5.IsWhole) (hc0 : cond0_0 i) (hc1 : ¬cond0_1 i)
    (x0 : Vec F S128x8192 .f32) (x1 : Vec F S128x2 .f32) :
    sout0_A_0 c i arg2 harg2 arg3 harg3 arg4 harg4 arg5 harg5 hc0 hc1 x0 x1 = addf zero (blk x0 x1) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz2]
  simp only [View.readAt_eq_ld, harg2.read_unread, harg3.read_unread, harg5.read_unread,
    View.ld_unit_zero (S := S128x8192) hz2, View.ld_unit_zero (S := S128x2) hz2, View.ld_unit_zero (S := S1x1) hz2,
    View.readCov_unit_zero (S := S1x1) _ hz2]
  exact (pay1_eq _ _ _ _ _ _ _).trans (congrArg (fun z => addf z (blk x0 x1)) pay3_eq)

/-- The last step: the accumulator ends at what it held plus the block sum, -/
theorem sout_C (c : Dev nD) (i : grid0.Coords) (arg2 : Memref sig .tc .vmem S128x8192 .f32) (harg2 : arg2.IsWhole) (arg3 : Memref sig .tc .vmem S128x2 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S128x8192 .f32) (x1 : Vec F S128x2 .f32) (xs0 : Vec F S1x1 .f32) :
    sout0_C_0 c i arg2 harg2 arg3 harg3 arg4 harg4 arg5 harg5 hc0 hc1 x0 x1 xs0 = addf xs0 (blk x0 x1) := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S128x8192) hz2, View.ld_unit_zero (S := S128x2) hz2, View.ld_unit_zero (S := S1x1) hz2]
  exact pay1_eq _ _ _ _ _ _ _

/-- and the output block at the same value, reshaped to 1 x 1 x 1. -/
theorem out_C (c : Dev nD) (i : grid0.Coords) (arg2 : Memref sig .tc .vmem S128x8192 .f32) (harg2 : arg2.IsWhole) (arg3 : Memref sig .tc .vmem S128x2 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S128x8192 .f32) (x1 : Vec F S128x2 .f32) (xs0 : Vec F S1x1 .f32) :
    out0_C_2 c i arg2 harg2 arg3 harg3 arg4 harg4 arg5 harg5 hc0 hc1 x0 x1 xs0 = shapeCast S1x1x1 (addf xs0 (blk x0 x1)) shapeCasts_S1x1_S1x1x1 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3]
  unfold k0_pay2
  simp only [View.readAt_eq_ld, harg2.read_unread, harg3.read_unread, harg5.read_unread,
    View.ld_unit_zero (S := S128x8192) hz2, View.ld_unit_zero (S := S128x2) hz2, View.ld_unit_zero (S := S1x1) hz2,
    View.readCov_unit_zero (S := S1x1) _ hz2]
  exact congrArg (fun v => shapeCast S1x1x1 v shapeCasts_S1x1_S1x1x1) (pay1_eq _ _ _ _ _ _ _)

end Cert.KernelIdeal.Body

end
-- ==== Proof.KernelAccum.lean ====
/-
  The accumulation over the grid and the output array.

  The grid has 2 x 16 points; point `t = 16 · core + step` loads block `t` of the logits (rows `128 t … 128 t + 127`)
  and block `t` of the packed per-row pairs. Within a core's sixteen steps the 1 x 1 accumulator is set to zero at the
  first step and each step adds its block's sum; the last step copies the accumulator into entry `core` of the
  [2, 1, 1] output. So after step `j` of a core the accumulator holds the sum of the block sums of the core's steps
  `0 … j`, and the output's entry `core` ends at the sum over the core's sixteen blocks.
-/
import proofs.«414440_j2113123910203_3_alg».proof.Proof.Gen.KernelIdeal.Frame
import proofs.«414440_j2113123910203_3_alg».proof.Proof.KernelBody
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Accum

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The logits block point `t` loads, at its literal type. -/
abbrev xblk (c : Dev nD) (t : Fin cfg0.N) : Vec Ideal S128x8192 .f32 := iblk m c 0 t
/-- The block of packed pairs point `t` loads, at its literal type. -/
abbrev ablk (c : Dev nD) (t : Fin cfg0.N) : Vec Ideal S128x2 .f32 := iblk m c 1 t

/-- The sum of block `n`'s per-row losses, as an extended real (zero past the grid's 32 points). -/
def bsum (c : Dev nD) (n : ℕ) : EReal :=
  if h : n < cfg0.N then Body.blk (F := Ideal) (xblk m c ⟨n, h⟩) (ablk m c ⟨n, h⟩) (ix2 0 0) else 0

theorem bsum_of_lt (c : Dev nD) (t : Fin cfg0.N) :
    bsum m c t.val = Body.blk (F := Ideal) (iblk m c 0 t) (iblk m c 1 t) (ix2 0 0) := by
  unfold bsum
  rw [dif_pos t.isLt]

/-- A 1 x 1 vector has the one index `(0, 0)`. -/
theorem idx11 (i : S1x1.Idx) : i = ix2 0 0 := by
  funext a
  match a with
  | ⟨0, _⟩ => exact Fin.ext (by show (i 0).val = 0; have := idx2_lt0 i; omega)
  | ⟨1, _⟩ => exact Fin.ext (by show (i 1).val = 0; have := idx2_lt1 i; omega)

/-- At the first step of a core's sixteen the accumulator is left at zero plus the block's sum. -/
theorem acc_first (c : Dev nD) (t : Fin cfg0.N) (h0 : t.val % 16 = 0) :
    (outsAt0 m c t.val t.isLt).2 = fun _ => bsum m c t.val := by
  have h1 : ¬t.val % 16 = 15 := by omega
  rw [outsAt0_A m c t h0 h1]
  dsimp only
  refine (Body.sout_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)).trans ?_
  funext i
  obtain rfl : i = ix2 0 0 := idx11 i
  rw [addf_apply, bsum_of_lt]
  show Ideal.ofBits .f32 0x00000000#32 + _ = _
  rw [Ideal.ofBits_zero_f32, zero_add]

/-- At every later step it is left at what the step before left plus the block's sum. -/
theorem acc_next (c : Dev nD) (t : Fin cfg0.N) (h0 : ¬t.val % 16 = 0) :
    (outsAt0 m c t.val t.isLt).2 = fun _ =>
      (outsAt0 m c (t.val - 1) (Nat.lt_of_le_of_lt (Nat.sub_le _ _) t.isLt)).2 (ix2 0 0) + bsum m c t.val := by
  by_cases h1 : t.val % 16 = 15
  · rw [outsAt0_C m c t h0 h1]
    dsimp only
    refine (Body.sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans ?_
    funext i
    obtain rfl : i = ix2 0 0 := idx11 i
    rw [addf_apply, bsum_of_lt]
  · rw [outsAt0_B m c t h0 h1]
    dsimp only
    refine (Body.sout_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2).trans ?_
    funext i
    obtain rfl : i = ix2 0 0 := idx11 i
    rw [addf_apply, bsum_of_lt]

/-- After point `n` the accumulator holds the block sums of the core's steps up to this one: the points
    `16 (n / 16) … n`. -/
theorem scratch_nat (c : Dev nD) : ∀ (n : ℕ) (h : n < cfg0.N),
    (outsAt0 m c n h).2 = fun _ => ∑ j ∈ Finset.range (n % 16 + 1), bsum m c (n / 16 * 16 + j) := by
  intro n
  induction n with
  | zero =>
    intro h
    rw [acc_first m c ⟨0, h⟩ rfl]
    funext _
    rw [Finset.sum_range_one]
  | succ n ih =>
    intro h
    by_cases h0 : (n + 1) % 16 = 0
    · rw [acc_first m c ⟨n + 1, h⟩ h0]
      funext _
      rw [h0, Finset.sum_range_one]
      show bsum m c (n + 1) = _
      congr 1
      omega
    · rw [acc_next m c ⟨n + 1, h⟩ h0]
      funext _
      show (outsAt0 m c n _).2 (ix2 0 0) + bsum m c (n + 1) = _
      rw [ih]
      rw [Finset.sum_range_succ (fun j => bsum m c ((n + 1) / 16 * 16 + j)) ((n + 1) % 16)]
      have e1 : n % 16 + 1 = (n + 1) % 16 := by omega
      have e2 : n / 16 = (n + 1) / 16 := by omega
      have e3 : (n + 1) / 16 * 16 + (n + 1) % 16 = n + 1 := by omega
      rw [e1, e2, e3]

/-- The same at a point of the grid. -/
theorem scratch_at (c : Dev nD) (t : Fin cfg0.N) :
    (outsAt0 m c t.val t.isLt).2 = fun _ => ∑ j ∈ Finset.range (t.val % 16 + 1), bsum m c (t.val / 16 * 16 + j) :=
  scratch_nat m c t.val t.isLt

/-- The grid point of core `a`'s step `j`. -/
abbrev pt (a : Fin 2) (j : Fin 16) : Fin cfg0.N :=
  ⟨a.val * 16 + j.val, by have := a.isLt; have := j.isLt; have hN : cfg0.N = 32 := N_0; omega⟩

/-- What the output array ends holding: entry `(core, 0, 0)` is the sum of the core's sixteen block sums. -/
abbrev outG (c : Dev nD) : Vec Ideal S2x1x1 .f32 := fun i =>
  ∑ j : Fin 16, Body.blk (F := Ideal) (iblk m c 0 (pt (i 0) j)) (iblk m c 1 (pt (i 0) j)) (ix2 0 0)

/-- The index map of the output window, decided over the grid: a point of core `a` addresses entry `(a, 0, 0)`. -/
theorem idx_out : ∀ t : Fin cfg0.N, win0_2.index t (0 : Fin 3) = t.val / 16 ∧ win0_2.index t (1 : Fin 3) = 0
    ∧ win0_2.index t (2 : Fin 3) = 0 :=
  (by decide +kernel : ∀ t : Fin grid0.N, _)

/-- At the last step of a core's sixteen the output block is left at the accumulator's new contents, reshaped. -/
theorem out_last (c : Dev nD) (t : Fin cfg0.N) (h0 : ¬t.val % 16 = 0) (h1 : t.val % 16 = 15) :
    (outsAt0 m c t.val t.isLt).1 = shapeCast S1x1x1 (outsAt0 m c t.val t.isLt).2 shapeCasts_S1x1_S1x1x1 := by
  rw [outsAt0_C m c t h0 h1]
  dsimp only
  refine (Body.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans ?_
  exact congrArg (fun v => shapeCast S1x1x1 v shapeCasts_S1x1_S1x1x1)
    (Body.sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).symm

/-- The sum of a core's sixteen block sums, over the points' numbers and over the points. -/
theorem sum_core (c : Dev nD) (a : Fin 2) :
    ∑ j ∈ Finset.range 16, bsum m c (a.val * 16 + j)
      = ∑ j : Fin 16, Body.blk (F := Ideal) (iblk m c 0 (pt a j)) (iblk m c 1 (pt a j)) (ix2 0 0) := by
  rw [Finset.sum_range]
  exact Finset.sum_congr rfl fun j _ => bsum_of_lt m c (pt a j)

/-- What a writing point writes back is its entry of `outG`. -/
theorem flushed_eq (c : Dev nD) (t : Fin cfg0.N) (hf : (cfg0.win 2).flush t = true) :
    (dats m 0 c).flushed 2 t = ((cfg0.win 2).blk t).view.read (Elt Ideal) (outG m c) := by
  have h1 : t.val % 16 = 15 := (flush0_2 t).mp hf
  have h0 : ¬t.val % 16 = 0 := by omega
  have hN : t.val < 32 := lt_of_lt_of_eq t.isLt (show cfg0.N = 32 from N_0)
  obtain ⟨e0, e1, e2⟩ := idx_out t
  show (cfg0.win 2).cut (grid0.coords t) ((dats m 0 c).after 2 t) = _
  rw [after0_2, out_last m c t h0 h1, scratch_at m c t]
  funext j
  have hj0 : (j 0).val < 1 := (j 0).isLt
  have hj1 : (j 1).val < 1 := (j 1).isLt
  have hj2 : (j 2).val < 1 := (j 2).isLt
  have hemb : ((cfg0.win 2).blk t).view.emb j = ix3 (⟨t.val / 16, by omega⟩ : Fin 2) (0 : Fin 1) (0 : Fin 1) := by
    funext a
    apply Fin.ext
    match a with
    | ⟨0, _⟩ => show win0_2.index t 0 * 1 + 1 * (j 0).val = t.val / 16; rw [e0]; omega
    | ⟨1, _⟩ => show win0_2.index t 1 * 1 + 1 * (j 1).val = 0; rw [e1]; omega
    | ⟨2, _⟩ => show win0_2.index t 2 * 1 + 1 * (j 2).val = 0; rw [e2]; omega
  rw [View.read_apply, hemb]
  show shapeCast S1x1x1 (fun _ => ∑ k ∈ Finset.range (t.val % 16 + 1), bsum m c (t.val / 16 * 16 + k)) shapeCasts_S1x1_S1x1x1 _
    = ∑ k : Fin 16, Body.blk (F := Ideal) (iblk m c 0 (pt ⟨t.val / 16, by omega⟩ k)) (iblk m c 1 (pt ⟨t.val / 16, by omega⟩ k)) (ix2 0 0)
  rw [← sum_core m c ⟨t.val / 16, by omega⟩, h1]
  exact shapeCast_apply _ _ _ (ix2 0 0) (by rw [Shape.rowMajor_val_two, Shape.rowMajor_val_three]; simp; omega)

/-- An index of the output array is in point `t`'s block iff each coordinate is in the block's range on its axis. -/
theorem mem_blk (t : Fin cfg0.N) (i : S2x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v47).slice (win0_2.rect t)).set ↔ _
  rw [View.set_slice_whole, Rect.mem_set_unit]
  exact Iff.rfl

/-- The output array after the run: each core's entry is written once, at the core's last step. -/
theorem out_array (c : Dev nD) : (dats m 0 c).arrAt 2 cfg0.N = outG m c :=
  (dats m 0 c).arrAt_eq_of_cover 2 (outG m c) (flushed_eq m c) fun i => by
    have hi0 : (i 0).val < 2 := (i 0).isLt
    have hi1 : (i 1).val < 1 := (i 1).isLt
    have hi2 : (i 2).val < 1 := (i 2).isLt
    obtain ⟨t, ht⟩ : ∃ t : Fin cfg0.N, t.val = (i 0).val * 16 + 15 :=
      ⟨⟨(i 0).val * 16 + 15, by have hN : cfg0.N = 32 := N_0; omega⟩, rfl⟩
    obtain ⟨e0, e1, e2⟩ := idx_out t
    refine ⟨t, (flush0_2 t).mpr (by omega), ?_⟩
    rw [mem_blk]
    intro a
    match a with
    | ⟨0, _⟩ => show win0_2.index t 0 * 1 ≤ (i 0).val ∧ (i 0).val < win0_2.index t 0 * 1 + 1; rw [e0]; omega
    | ⟨1, _⟩ => show win0_2.index t 1 * 1 ≤ (i 1).val ∧ (i 1).val < win0_2.index t 1 * 1 + 1; rw [e1]; omega
    | ⟨2, _⟩ => show win0_2.index t 2 * 1 ≤ (i 2).val ∧ (i 2).val < win0_2.index t 2 * 1 + 1; rw [e2]; omega

/-- The index maps of the two input windows, decided over the grid: point `t` loads block row `t`, block column 0. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Block `t` of the logits is rows `128 t … 128 t + 127` of the [4096, 8192] array. -/
theorem iblk0 (c : Dev nD) (t : Fin cfg0.N) (r : Fin 128) (v : Fin 8192) :
    (iblk m c 0 t : Vec Ideal S128x8192 .f32) (ix2 r v)
      = (V m c main_v0 : Vec Ideal S4096x8192 .f32) (ix2 ⟨t.val * 128 + r.val, by have := t.isLt; have := r.isLt; have hN : cfg0.N = 32 := N_0; omega⟩ v) := by
  obtain ⟨e0, e1, -, -⟩ := idx_in t
  unfold iblk
  rw [View.read_apply]
  show V m c main_v0 _ = V m c main_v0 _
  congr 1
  funext a
  apply Fin.ext
  match a with
  | ⟨0, _⟩ => show win0_0.index t 0 * 128 + 1 * r.val = t.val * 128 + r.val; rw [e0]; omega
  | ⟨1, _⟩ => show win0_0.index t 1 * 8192 + 1 * v.val = v.val; rw [e1]; omega

/-- Block `t` of the packed pairs is rows `128 t … 128 t + 127` of the [4096, 2] array. -/
theorem iblk1 (c : Dev nD) (t : Fin cfg0.N) (r : Fin 128) (v : Fin 2) :
    (iblk m c 1 t : Vec Ideal S128x2 .f32) (ix2 r v)
      = (V m c main_v46 : Vec Ideal S4096x2 .f32) (ix2 ⟨t.val * 128 + r.val, by have := t.isLt; have := r.isLt; have hN : cfg0.N = 32 := N_0; omega⟩ v) := by
  obtain ⟨-, -, e0, e1⟩ := idx_in t
  unfold iblk
  rw [View.read_apply]
  show V m c main_v46 _ = V m c main_v46 _
  congr 1
  funext a
  apply Fin.ext
  match a with
  | ⟨0, _⟩ => show win0_1.index t 0 * 128 + 1 * r.val = t.val * 128 + r.val; rw [e0]; omega
  | ⟨1, _⟩ => show win0_1.index t 1 * 2 + 1 * v.val = v.val; rw [e1]; omega

end Cert.KernelIdeal.Accum

end
-- ==== Proof.Spec.lean ====
/-
  The mathematics both programs compute, stated once over the extended reals.

  A row of logits `xr : Fin 8192 → EReal`, its target column `t` and its smoothing value `s` give a target
  distribution with the weight `off = s / 8191` on every column but `t` and `src = 1 - 8192 · off` on `t`. The
  loss of the row is `∑ v, (w v · log (w v) - w v · logp v)` with `logp` the row's log-softmax and the convention
  `0 · log 0 = 0`. Since the weights take two values the sum over the 8192 columns has the closed form `kerRow`.
-/
import Idealize.ShloMosaic.PureOps.Ideal
import Mathlib.Algebra.BigOperators.Group.Finset.Basic

noncomputable section

namespace Cert.Spec

open Idealize.ShloMosaic

/-- A row of logits. -/
abbrev Row := Fin 8192 → EReal

/-- `a · log a`, with the value `0` at `a = 0`. -/
def xlx (a : EReal) : EReal := if a = 0 then 0 else a * Ideal.log a

/-- The largest entry of a row: the fold of `max` from `-∞`. -/
def rowMax (xr : Row) : EReal := Finset.univ.fold max ⊥ xr

/-- The logarithm of the row's softmax denominator, the row shifted by its largest entry. -/
def rowLse (xr : Row) : EReal := Ideal.log (∑ v, Ideal.exp (xr v - rowMax xr))

/-- The row's log-softmax at column `v`. -/
def logp (xr : Row) (v : Fin 8192) : EReal := (xr v - rowMax xr) - rowLse xr

/-- The weight of a column that is not the target: the smoothing value shared among the other 8191 columns. -/
def off (s : EReal) : EReal := Ideal.div s ((8191 : ℝ) : EReal)

/-- The weight of the target column: what the other columns leave of the unit mass. -/
def src (s : EReal) : EReal := 1 - off s * ((8192 : ℝ) : EReal)

/-- The weight of column `v` in a row whose target column is `t`. -/
def weight (t : Fin 8192) (s : EReal) (v : Fin 8192) : EReal := if v = t then src s else off s

/-- One entry of the divergence: `w log w - w · logp`. -/
def entry (xr : Row) (t : Fin 8192) (s : EReal) (v : Fin 8192) : EReal :=
  xlx (weight t s v) - weight t s v * logp xr v

/-- The closed form of a row's sum of entries, from the row's target logit `xt`: the 8191 equal off-target terms,
    the target term, and the two weights against the sum of the log-softmax and its value at the target. The
    target weight is taken through `max · 0`, which changes nothing where it is not negative. -/
def kerRow (xr : Row) (xt s : EReal) : EReal :=
  let o := s * (((1 : ℝ) / 8191 : ℝ) : EReal)
  let r := max (1 - o * ((8192 : ℝ) : EReal)) 0
  ((((8191 : ℝ) : EReal) * xlx o + xlx r)
    - o * ((∑ v, (xr v - rowMax xr)) - ((8192 : ℝ) : EReal) * rowLse xr))
    - (r - o) * ((xt - rowMax xr) - rowLse xr)

end Cert.Spec

end
-- ==== Proof.Consts.lean ====
/-
  The float words this certificate's programs spell, as the extended reals their patterns denote.
-/
import Idealize.ShloMosaic.PureOps.Ideal

noncomputable section

namespace Cert.Consts

open Idealize.ShloMosaic

/-- `1.0` denotes the real `1`. -/
theorem ofBits_one : Ideal.ofBits .f32 0x3F800000#32 = ((1 : ℝ) : EReal) := by
  simp [Ideal.ofBits, Ideal.ieee, -EReal.coe_mul]; norm_num

/-- `8191.0` denotes the real `8191`. -/
theorem ofBits_8191 : Ideal.ofBits .f32 0x45FFF800#32 = ((8191 : ℝ) : EReal) := by
  simp [Ideal.ofBits, Ideal.ieee, -EReal.coe_mul]; norm_num

/-- `8192.0` denotes the real `8192`. -/
theorem ofBits_8192 : Ideal.ofBits .f32 0x46000000#32 = ((8192 : ℝ) : EReal) := by
  simp [Ideal.ofBits, Ideal.ieee, -EReal.coe_mul]; norm_num

/-- The pattern of `-∞` denotes the bottom. -/
theorem ofBits_neg_inf : Ideal.ofBits .f32 0xFF800000#32 = ⊥ := by
  simp [Ideal.ofBits, Ideal.ieee]

/-- The pattern of `+∞` denotes the top. -/
theorem ofBits_pos_inf : Ideal.ofBits .f32 0x7F800000#32 = ⊤ := by
  simp [Ideal.ofBits, Ideal.ieee]

/-- The quiet not-a-number pattern denotes the bottom (the documented junk value). -/
theorem ofBits_nan : Ideal.ofBits .f32 0x7FC00000#32 = ⊥ := by
  simp [Ideal.ofBits, Ideal.ieee]

/-- The word nearest `0.9` denotes a positive real. -/
theorem ofBits_09 : ∃ r : ℝ, 0 < r ∧ Ideal.ofBits .f32 0x3F666666#32 = (r : EReal) := by
  refine ⟨_, ?_, by simp [Ideal.ofBits, Ideal.ieee, -EReal.coe_mul]; rfl⟩
  norm_num

end Cert.Consts

end
-- ==== Proof.KernelRow.lean ====
/-
  The value the kernel body adds to its accumulator, read at the extended reals: the sum over the block's 128 rows
  of the closed form `Spec.kerRow` of each row's loss.

  Per row: the off-target weight is the smoothing value times 1/8191, the target weight is the rest of the unit mass
  (not below zero); the row's largest entry, the logarithm of its softmax denominator, the sum of its log-softmax
  and its log-softmax at the target are read off the block's reductions along the row; `a log a` with a select to
  `0` at `a = 0` is `Spec.xlx a`.
-/
import proofs.«414440_j2113123910203_3_alg».proof.Proof.KernelBody
import proofs.«414440_j2113123910203_3_alg».proof.Proof.Spec
import proofs.«414440_j2113123910203_3_alg».proof.Proof.Consts
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.RowVal

open Idealize.ShloMosaic Idealize.ShloMosaic.ValueIdx
open Cert.KernelIdeal Cert.KernelIdeal.Gen

/-! ## Constants -/

/-- The named reciprocal denotes the rational 1/8191. -/
theorem inv_vm1 : Named.named (F := Ideal) κ "inv_vm1" (φ := .f32) 0x39000400#32 = ((1 / 8191 : ℝ) : EReal) :=
  IdealRules.named_const.ideal_named_scalar _ _ _ _ rfl

/-! ## Column layouts read at an index -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of the block over row `r` with column `v` inserted. -/
theorem lift_row (r : Fin 128) (v : Fin 8192) : reduces_S128x8192_S128.lift (ix1 r) v = ix2 r v := by
  funext c; apply Fin.ext
  match c with
  | ⟨0, _⟩ => rfl
  | ⟨1, _⟩ => rfl

/-- The index of the column vector over the one result index with row `r` inserted. -/
theorem lift_col (u : Fin 1) (r : Fin 128) : reduces_S128x1_S1.lift (ix1 u) r = ix2 r (0 : Fin 1) := by
  funext c; apply Fin.ext
  match c with
  | ⟨0, _⟩ => rfl
  | ⟨1, _⟩ => show (u : ℕ) = 0; omega

/-! ## The block's reductions along a row -/

/-- A lane sum of the block at row `r`: the sum over the row's 8192 columns. -/
theorem rowSum (src : FVec Ideal S128x8192 .f32) (r : Fin 128) :
    multiReduction .add [1] S128 src 0x00000000#32 reduces_S128x8192_S128 (.inl rfl) rfl (ix1 r)
      = ∑ v : Fin 8192, src (ix2 r v) := by
  refine (Ideal.multiReduction_add_single src 0x00000000#32 reduces_S128x8192_S128 (.inl rfl) rfl (ix1 r)).trans ?_
  exact Finset.sum_congr rfl fun v _ => congrArg src (lift_row r v)

/-- A lane maximum of the block at row `r`: the fold of `max` from `-∞` over the row's 8192 columns. -/
theorem rowMaxRed (src : FVec Ideal S128x8192 .f32) (r : Fin 128) :
    multiReduction .maximumf [1] S128 src 0xFF800000#32 reduces_S128x8192_S128 (.inl rfl) rfl (ix1 r)
      = Spec.rowMax (fun v => src (ix2 r v)) := by
  refine (Ideal.multiReduction_maximumf_single src 0xFF800000#32 reduces_S128x8192_S128 (.inl rfl) rfl (ix1 r)).trans ?_
  unfold Spec.rowMax
  rw [show (FloatOps.ofBits (F := Ideal) .f32 0xFF800000#32) = ⊥ from Consts.ofBits_neg_inf]
  exact congrArg (fun f => Finset.fold max ⊥ f Finset.univ) (funext fun v => congrArg src (lift_row r v))

/-- The sum of a column vector over its 128 rows. -/
theorem colSum (src : FVec Ideal S128x1 .f32) (u : Fin 1) :
    multiReduction .add [0] S1 src 0x00000000#32 reduces_S128x1_S1 (.inl rfl) rfl (ix1 u)
      = ∑ r : Fin 128, src (ix2 r (0 : Fin 1)) := by
  refine (Ideal.multiReduction_add_single src 0x00000000#32 reduces_S128x1_S1 (.inl rfl) rfl (ix1 u)).trans ?_
  exact Finset.sum_congr rfl fun r _ => congrArg src (lift_col u r)

/-! ## The per-row vectors, read at row `r` -/

section Rows
variable (x0 : FVec Ideal S128x8192 .f32) (x1 : FVec Ideal S128x2 .f32) (r : Fin 128)

/-- The off-target weight: the smoothing value times 1/8191. -/
theorem pay6_row : k0_pay6 (F := Ideal) x1 (ix2 r (0 : Fin 1)) = x1 (ix2 r (1 : Fin 2)) * ((1 / 8191 : ℝ) : EReal) := by
  unfold k0_pay6 k0_pay5
  show extractStridedSlice S128x1 ![0, 1] (shapeCast S128x2 x1 shapeCasts_S128x2_S128x2) slices_S128x2_o0_1_S128x1 (ix2 r (0 : Fin 1))
      * Named.named (F := Ideal) κ "inv_vm1" (φ := .f32) 0x39000400#32 = _
  rw [inv_vm1, shapeCast_self]
  exact congrArg (· * _) (slice2_axis1_apply 1 x1 slices_S128x2_o0_1_S128x1 r (0 : Fin 1) (1 : Fin 2) rfl)

/-- The target weight: the rest of the unit mass, not below zero. -/
theorem pay7_row : k0_pay7 (F := Ideal) x1 (ix2 r (0 : Fin 1))
    = max (1 - k0_pay6 (F := Ideal) x1 (ix2 r (0 : Fin 1)) * ((8192 : ℝ) : EReal)) 0 := by
  unfold k0_pay7
  show max (Ideal.ofBits .f32 0x3F800000#32 - k0_pay6 (F := Ideal) x1 (ix2 r (0 : Fin 1)) * Ideal.ofBits .f32 0x46000000#32)
      (Ideal.ofBits .f32 0x00000000#32) = _
  rw [Consts.ofBits_one, Consts.ofBits_8192, Ideal.ofBits_zero_f32]
  rfl

/-- The row's largest entry. -/
theorem pay8_row : k0_pay8 (F := Ideal) x0 (ix2 r (0 : Fin 1)) = Spec.rowMax (fun v => x0 (ix2 r v)) := by
  unfold k0_pay8 k0_pay4
  refine (shapeCast_a_a1_apply _ shapeCasts_S128_S128x1 r (0 : Fin 1)).trans ?_
  rw [shapeCast_self]
  exact rowMaxRed x0 r

/-- The row shifted by its largest entry. -/
theorem pay9_row (v : Fin 8192) : k0_pay9 (F := Ideal) x0 (ix2 r v) = x0 (ix2 r v) - Spec.rowMax (fun v => x0 (ix2 r v)) := by
  unfold k0_pay9 k0_pay4
  rw [shapeCast_self]
  show x0 (ix2 r v) - broadcastTo S128x8192 (k0_pay8 (F := Ideal) x0) broadcasts_S128x1_S128x8192 (ix2 r v) = _
  rw [broadcastTo_a1_ab_apply (k0_pay8 (F := Ideal) x0) broadcasts_S128x1_S128x8192 r v, pay8_row]

/-- The logarithm of the row's softmax denominator. -/
theorem pay10_row : k0_pay10 (F := Ideal) x0 (ix2 r (0 : Fin 1)) = Spec.rowLse (fun v => x0 (ix2 r v)) := by
  unfold k0_pay10
  show Ideal.log (shapeCast S128x1 (multiReduction .add [1] S128 (exp (k0_pay9 (F := Ideal) x0)) 0x00000000#32 reduces_S128x8192_S128 (.inl rfl) rfl)
      shapeCasts_S128_S128x1 (ix2 r (0 : Fin 1))) = _
  rw [shapeCast_a_a1_apply _ shapeCasts_S128_S128x1 r (0 : Fin 1), rowSum]
  unfold Spec.rowLse
  exact congrArg Ideal.log (Finset.sum_congr rfl fun v _ => congrArg Ideal.exp (pay9_row x0 r v))

/-- The sum of the row's log-softmax: the shifted row's sum less 8192 times the logarithm of the denominator. -/
theorem pay11_row : k0_pay11 (F := Ideal) x0 (ix2 r (0 : Fin 1))
    = (∑ v : Fin 8192, (x0 (ix2 r v) - Spec.rowMax (fun v => x0 (ix2 r v))))
      - ((8192 : ℝ) : EReal) * Spec.rowLse (fun v => x0 (ix2 r v)) := by
  unfold k0_pay11
  show shapeCast S128x1 (multiReduction .add [1] S128 (k0_pay9 (F := Ideal) x0) 0x00000000#32 reduces_S128x8192_S128 (.inl rfl) rfl)
      shapeCasts_S128_S128x1 (ix2 r (0 : Fin 1)) - Ideal.ofBits .f32 0x46000000#32 * k0_pay10 (F := Ideal) x0 (ix2 r (0 : Fin 1)) = _
  rw [shapeCast_a_a1_apply _ shapeCasts_S128_S128x1 r (0 : Fin 1), rowSum, Consts.ofBits_8192, pay10_row]
  exact congrArg (· - _) (Finset.sum_congr rfl fun v _ => pay9_row x0 r v)

/-- The row's log-softmax at the target. -/
theorem pay12_row : k0_pay12 (F := Ideal) x0 x1 (ix2 r (0 : Fin 1))
    = (x1 (ix2 r (0 : Fin 2)) - Spec.rowMax (fun v => x0 (ix2 r v))) - Spec.rowLse (fun v => x0 (ix2 r v)) := by
  unfold k0_pay12 k0_pay5
  show (extractStridedSlice S128x1 ![0, 0] (shapeCast S128x2 x1 shapeCasts_S128x2_S128x2) slices_S128x2_o0_0_S128x1 (ix2 r (0 : Fin 1))
      - k0_pay8 (F := Ideal) x0 (ix2 r (0 : Fin 1))) - k0_pay10 (F := Ideal) x0 (ix2 r (0 : Fin 1)) = _
  rw [shapeCast_self, pay8_row, pay10_row,
    slice2_axis1_apply 0 x1 slices_S128x2_o0_0_S128x1 r (0 : Fin 1) (0 : Fin 2) rfl]

end Rows

section Rows2
variable (x1 : FVec Ideal S128x2 .f32) (r : Fin 128)

/-- The mask "the off-target weight is zero". -/
theorem pay13_row : k0_pay13 (F := Ideal) x1 (ix2 r (0 : Fin 1)) = Ideal.cmp .oeq (k0_pay6 (F := Ideal) x1 (ix2 r (0 : Fin 1))) 0 := by
  unfold k0_pay13
  show Ideal.cmp .oeq (k0_pay6 (F := Ideal) x1 (ix2 r (0 : Fin 1))) (Ideal.ofBits .f32 0x00000000#32) = _
  rw [Ideal.ofBits_zero_f32]

/-- The off-target weight times its logarithm, the weight replaced by 1 under the logarithm where it is zero. -/
theorem pay14_row : k0_pay14 (F := Ideal) x1 (ix2 r (0 : Fin 1))
    = k0_pay6 (F := Ideal) x1 (ix2 r (0 : Fin 1))
      * Ideal.log (Scalar.select (Ideal.cmp .oeq (k0_pay6 (F := Ideal) x1 (ix2 r (0 : Fin 1))) 0) 1 (k0_pay6 (F := Ideal) x1 (ix2 r (0 : Fin 1)))) := by
  unfold k0_pay14
  show k0_pay6 (F := Ideal) x1 (ix2 r (0 : Fin 1))
      * Ideal.log (Scalar.select (Ideal.cmp .oeq (k0_pay6 (F := Ideal) x1 (ix2 r (0 : Fin 1))) (Ideal.ofBits .f32 0x00000000#32))
          (Ideal.ofBits .f32 0x3F800000#32) (k0_pay6 (F := Ideal) x1 (ix2 r (0 : Fin 1)))) = _
  rw [Ideal.ofBits_zero_f32, Consts.ofBits_one]
  rfl

end Rows2

/-! ## `a log a` with its select -/

/-- `a · log a` selected to `0` at `a = 0`, the argument of the logarithm selected to `1` there, is `Spec.xlx a`. -/
theorem xlx_select (a : EReal) :
    Scalar.select (Ideal.cmp .oeq a 0) 0 (a * Ideal.log (Scalar.select (Ideal.cmp .oeq a 0) 1 a)) = Spec.xlx a := by
  unfold Spec.xlx
  by_cases h : a = 0
  · subst h; simp [Scalar.select, Ideal.cmp]
  · simp [Scalar.select, Ideal.cmp, h]

/-! ## The block sum -/

/-- One row's term of the block sum, from the six per-row values. -/
def rowTerm (o rr sl lt : EReal) (m : BitVec 1) (ol : EReal) : EReal :=
  ((((8191 : ℝ) : EReal) * Scalar.select m 0 ol
      + Scalar.select (Ideal.cmp .oeq rr 0) 0 (rr * Ideal.log (Scalar.select (Ideal.cmp .oeq rr 0) 1 rr)))
    - o * sl) - (rr - o) * lt

/-- The block sum at its one index: the sum of the rows' terms. -/
theorem blkOf_apply (v10 v16 v29 v31 : FVec Ideal S128x1 .f32) (v37 : IVec S128x1 1) (v39 : FVec Ideal S128x1 .f32)
    (j : S1x1.Idx) :
    Body.blkOf (F := Ideal) v10 v16 v29 v31 v37 v39 j
      = ∑ r : Fin 128, rowTerm (v10 (ix2 r (0 : Fin 1))) (v16 (ix2 r (0 : Fin 1))) (v29 (ix2 r (0 : Fin 1)))
          (v31 (ix2 r (0 : Fin 1))) (v37 (ix2 r (0 : Fin 1))) (v39 (ix2 r (0 : Fin 1))) := by
  obtain ⟨u, w, rfl⟩ : ∃ (u : Fin 1) (w : Fin 1), j = ix2 u w := ⟨j 0, j 1, eq_ix2 j⟩
  unfold Body.blkOf
  refine (shapeCast_a_1a_apply _ shapeCasts_S1_S1x1 u w).trans ?_
  refine (colSum _ w).trans ?_
  refine Finset.sum_congr rfl fun r _ => ?_
  show ((Ideal.ofBits .f32 0x45FFF800#32 * Scalar.select (v37 (ix2 r (0 : Fin 1))) (Ideal.ofBits .f32 0x00000000#32) (v39 (ix2 r (0 : Fin 1)))
      + Scalar.select (Ideal.cmp .oeq (v16 (ix2 r (0 : Fin 1))) (Ideal.ofBits .f32 0x00000000#32)) (Ideal.ofBits .f32 0x00000000#32)
          (v16 (ix2 r (0 : Fin 1)) * Ideal.log (Scalar.select (Ideal.cmp .oeq (v16 (ix2 r (0 : Fin 1))) (Ideal.ofBits .f32 0x00000000#32))
            (Ideal.ofBits .f32 0x3F800000#32) (v16 (ix2 r (0 : Fin 1))))))
      - v10 (ix2 r (0 : Fin 1)) * v29 (ix2 r (0 : Fin 1)))
      - (v16 (ix2 r (0 : Fin 1)) - v10 (ix2 r (0 : Fin 1))) * v31 (ix2 r (0 : Fin 1)) = _
  rw [Consts.ofBits_8191, Consts.ofBits_one, Ideal.ofBits_zero_f32]
  rfl

/-- THE BLOCK SUM: the value the body adds to its accumulator is, at its one index, the sum over the block's 128 rows
    of the closed form of the row's loss — the row of logits, the target logit (column 0 of the packed block) and the
    smoothing value (column 1). -/
theorem blk_eq (x0 : Vec Ideal S128x8192 .f32) (x1 : Vec Ideal S128x2 .f32) :
    Body.blk (F := Ideal) x0 x1
      = fun _ => ∑ r : Fin 128, Cert.Spec.kerRow (fun v => x0 (ix2 r v)) (x1 (ix2 r (0 : Fin 2))) (x1 (ix2 r (1 : Fin 2))) := by
  funext j
  unfold Body.blk
  refine (blkOf_apply _ _ _ _ _ _ j).trans ?_
  refine Finset.sum_congr rfl fun r _ => ?_
  rw [pay13_row, pay14_row, pay7_row, pay11_row, pay12_row, pay6_row]
  unfold rowTerm Cert.Spec.kerRow
  rw [xlx_select, xlx_select]

end Cert.KernelIdeal.RowVal

end
-- ==== Proof.KerChain.lean ====
/-
  The smoothing value of every row, as the kernel program's host side computes it before the launch.

  Row `n` of the 4096 has the target `t n`; a row is the end of a sequence when its target is 1. The confusion
  matrix is read at (the target of the row before, `t n`), the row before replaced by the index 4095 for row 0 and
  for a row that follows an end of sequence; the segment of a row is the number of ends of sequence strictly before
  it, and the segment's coefficient is `1 - 0.9 ^ (1 / (length + 1))`. The smoothing value is the product.
-/
import proofs.«414440_j2113123910203_3_alg».proof.KernelIdeal
import proofs.«414440_j2113123910203_3_alg».proof.Proof.Gen.KernelIdeal

noncomputable section

namespace Cert.KernelIdeal.HostVal

open Idealize.ShloMosaic
open Cert.KernelIdeal Cert.KernelIdeal.Facts₀ Cert.KernelIdeal.Facts

/-- The targets, one per row. -/
def chainT (a2 : IVec S8x512 32) : IVec S4096 32 :=
  shapeCast S4096 a2 shapeCasts_S8x512_S4096

/-- Whether a row ends a sequence: its target is 1. -/
def chainEos (a2 : IVec S8x512 32) : IVec S4096 1 :=
  let v1 : IVec S4096 32 := chainT a2
  let c : IVec S_ 32 := constantI S_ 32 1#32
  let v2 : IVec S4096 32 := broadcastInDim S4096 ![] bcast_S_S4096 c
  let v3 : IVec S4096 1 := cmpi .eq v1 v2
  v3

/-- The row index the confusion matrix is read at: the target of the row before, and 4095 for row 0 and for a row
    that follows an end of sequence. -/
def chainPrev (a2 : IVec S8x512 32) : IVec S4096 32 :=
  let v1 : IVec S4096 32 := chainT a2
  let v3 : IVec S4096 1 := chainEos a2
  let r0_v0 : IVec S1 32 := (extractStridedSlice S1 ![4095] · slices_S4096_S1_4095) v1
  let r0_v1 : IVec S4095 32 := (extractStridedSlice S4095 ![0] · slices_S4096_S4095_0) v1
  let v4 : IVec S4096 32 := (fun a b => concatenate S4096 0 [⟨S1, a⟩, ⟨S4095, b⟩] concatenates_S1_S4095_S4096_d0) r0_v0 r0_v1
  let r1_v0 : IVec S1 1 := (extractStridedSlice S1 ![4095] · slices_S4096_S1_4095) v3
  let r1_v1 : IVec S4095 1 := (extractStridedSlice S4095 ![0] · slices_S4096_S4095_0) v3
  let v5 : IVec S4096 1 := (fun a b => concatenate S4096 0 [⟨S1, a⟩, ⟨S4095, b⟩] concatenates_S1_S4095_S4096_d0) r1_v0 r1_v1
  let c_0 : IVec S_ 32 := constantI S_ 32 0#32
  let v6 : IVec S1 32 := broadcastInDim S1 ![] bcast_S_S1 c_0
  let c_1 : IVec S_ 1 := constantI S_ 1 1#1
  let v7 : IVec S4096 1 := (fun x i u => Host.scatter scatter_S4096_S1_S__n_0_0_0 (fun _ b => b) x i u) v5 v6 c_1
  let c_2 : IVec S_ 32 := constantI S_ 32 4095#32
  let w_v0 : IVec S_ 32 := id c_2
  let w_v1 : IVec S4096 32 := broadcastInDim S4096 ![] bcast_S_S4096 w_v0
  let v8 : IVec S4096 32 := select v7 w_v1 v4
  v8

/-- The confusion matrix read at (`chainPrev`, target), each index below zero wrapped by 8192. -/
def chainConf (a1 : FVec Ideal S8192x8192 .f32) (a2 : IVec S8x512 32) : FVec Ideal S4096 .f32 :=
  let v1 : IVec S4096 32 := chainT a2
  let v8 : IVec S4096 32 := chainPrev a2
  let c_3 : IVec S_ 32 := constantI S_ 32 0#32
  let v9 : IVec S4096 32 := broadcastInDim S4096 ![] bcast_S_S4096 c_3
  let v10 : IVec S4096 1 := cmpi .slt v8 v9
  let c_4 : IVec S_ 32 := constantI S_ 32 8192#32
  let v11 : IVec S4096 32 := broadcastInDim S4096 ![] bcast_S_S4096 c_4
  let v12 : IVec S4096 32 := addi v8 v11
  let v13 : IVec S4096 32 := select v10 v12 v8
  let c_5 : IVec S_ 32 := constantI S_ 32 0#32
  let v14 : IVec S4096 32 := broadcastInDim S4096 ![] bcast_S_S4096 c_5
  let v15 : IVec S4096 1 := cmpi .slt v1 v14
  let c_6 : IVec S_ 32 := constantI S_ 32 8192#32
  let v16 : IVec S4096 32 := broadcastInDim S4096 ![] bcast_S_S4096 c_6
  let v17 : IVec S4096 32 := addi v1 v16
  let v18 : IVec S4096 32 := select v15 v17 v1
  let v19 : IVec S4096x1 32 := broadcastInDim S4096x1 ![0] bcast_S4096_S4096x1_0 v13
  let v20 : IVec S4096x1 32 := broadcastInDim S4096x1 ![0] bcast_S4096_S4096x1_0 v18
  let v21 : IVec S4096x2 32 := (fun a b => concatenate S4096x2 1 [⟨S4096x1, a⟩, ⟨S4096x1, b⟩] concatenates_S4096x1_S4096x1_S4096x2_d1) v19 v20
  let v22 : FVec Ideal S4096 .f32 := (fun x i => Host.gather gather_S8192x8192_S4096x2_S4096_n_01_n_n_01_1_11 x i) a1 v21
  v22

/-- The coefficient of each of the 8 segments: `1 - 0.9 ^ (1 / (length + 1))`. -/
def chainCoef (a3 : IVec S8 32) : FVec Ideal S8 .f32 :=
  let c_7 : IVec S_ 32 := constantI S_ 32 1#32
  let v23 : IVec S8 32 := broadcastInDim S8 ![] bcast_S_S8 c_7
  let v24 : IVec S8 32 := addi a3 v23
  let v25 : FVec Ideal S8 .f32 := sitofp .f32 v24
  let cst : FVec Ideal S_ .f32 := constant S_ .f32 0x3F800000#32
  let v26 : FVec Ideal S8 .f32 := broadcastInDim S8 ![] bcast_S_S8 cst
  let v27 : FVec Ideal S8 .f32 := Host.divf v26 v25
  let cst_8 : FVec Ideal S_ .f32 := constant S_ .f32 0x3F666666#32
  let v28 : FVec Ideal S8 .f32 := broadcastInDim S8 ![] bcast_S_S8 cst_8
  let v29 : FVec Ideal S8 .f32 := Host.powf v28 v27
  let cst_9 : FVec Ideal S_ .f32 := constant S_ .f32 0x3F800000#32
  let v30 : FVec Ideal S8 .f32 := broadcastInDim S8 ![] bcast_S_S8 cst_9
  let v31 : FVec Ideal S8 .f32 := subf v30 v29
  v31

/-- The segment of each row — the number of ends of sequence strictly before it, an index below zero wrapped by 8 —
    as a column of start indices. -/
def chainSeg (a2 : IVec S8x512 32) : IVec S4096x1 32 :=
  let v3 : IVec S4096 1 := chainEos a2
  let v32 : IVec S4096 32 := (extui 32 · natLt_1_32) v3
  let s_c : IVec S_ 32 := constantI S_ 32 0#32
  let s_v0 : IVec S_ 32 := broadcastInDim S_ ![] bcast_S_S_ s_c
  let v33 : IVec S4096 32 := (fun x v => Host.reduceWindow IntOp.addi ![4096] ![1] ![4095] ![0] x v reduceWindows_S4096_S4096_w4096s1p4095_0 h_S_) v32 s_v0
  let v34 : IVec S4096 32 := subi v33 v32
  let c_10 : IVec S_ 32 := constantI S_ 32 0#32
  let v35 : IVec S4096 32 := broadcastInDim S4096 ![] bcast_S_S4096 c_10
  let v36 : IVec S4096 1 := cmpi .slt v34 v35
  let c_11 : IVec S_ 32 := constantI S_ 32 8#32
  let v37 : IVec S4096 32 := broadcastInDim S4096 ![] bcast_S_S4096 c_11
  let v38 : IVec S4096 32 := addi v34 v37
  let v39 : IVec S4096 32 := select v36 v38 v34
  let v40 : IVec S4096x1 32 := broadcastInDim S4096x1 ![0] bcast_S4096_S4096x1_0 v39
  v40

/-- The smoothing value of every row: its segment's coefficient times its confusion entry. -/
def kerChain (a1 : FVec Ideal S8192x8192 .f32) (a2 : IVec S8x512 32) (a3 : IVec S8 32) : FVec Ideal S4096 .f32 :=
  let v22 : FVec Ideal S4096 .f32 := chainConf a1 a2
  let v31 : FVec Ideal S8 .f32 := chainCoef a3
  let v40 : IVec S4096x1 32 := chainSeg a2
  let v41 : FVec Ideal S4096 .f32 := (fun x i => Host.gather gather_S8_S4096x1_S4096_n_0_n_n_0_1_1 x i) v31 v40
  let v42 : FVec Ideal S4096 .f32 := mulf v41 v22
  v42

end Cert.KernelIdeal.HostVal

end
-- ==== Proof.KerAux.lean ====
/-
  The packed per-row pair the launch reads, as the kernel program's host side computes it: column 0 the logit at the
  row's target (a read along the columns at one index per row), column 1 the row's smoothing value.
-/
import proofs.«414440_j2113123910203_3_alg».proof.Proof.KerChain

noncomputable section

namespace Cert.KernelIdeal.HostVal

open Idealize.ShloMosaic
open Cert.KernelIdeal Cert.KernelIdeal.Facts₀ Cert.KernelIdeal.Facts

/-- The logits read along the columns at an index per row: the index below zero wrapped by 8192, the entry kept where
    the wrapped index lies in `[0, 8191]` and a NaN written elsewhere. -/
def takeAlong (x : FVec Ideal S4096x8192 .f32) (i : IVec S4096x1 32) : FVec Ideal S4096x1 .f32 :=
  let c : IVec S_ 32 := constantI S_ 32 0#32
  let v0 : IVec S4096x1 32 := broadcastInDim S4096x1 ![] bcast_S_S4096x1 c
  let v1 : IVec S4096x1 1 := cmpi .slt i v0
  let c_0 : IVec S_ 32 := constantI S_ 32 8192#32
  let v2 : IVec S4096x1 32 := broadcastInDim S4096x1 ![] bcast_S_S4096x1 c_0
  let v3 : IVec S4096x1 32 := addi i v2
  let v4 : IVec S4096x1 32 := select v1 v3 i
  let v5 : IVec S4096x1x1 32 := shapeCast S4096x1x1 v4 shapeCasts_S4096x1_S4096x1x1
  let c_1 : IVec S1 32 := constantI S1 32 8191#32
  let c_2 : IVec S_ 32 := constantI S_ 32 0#32
  let v6 : IVec S4096x1x1 32 := broadcastInDim S4096x1x1 ![] bcast_S_S4096x1x1 c_2
  let v7 : IVec S4096x1x1 1 := cmpi .sge v5 v6
  let v8 : IVec S1x1x1 32 := broadcastInDim S1x1x1 ![2] bcast_S1_S1x1x1_2 c_1
  let v9 : IVec S4096x1x1 32 := broadcastInDim S4096x1x1 ![0, 1, 2] bcast_S1x1x1_S4096x1x1_0_1_2 v8
  let v10 : IVec S4096x1x1 1 := cmpi .sle v5 v9
  let v11 : IVec S4096x1x1 1 := andi v7 v10
  let c_3 : IVec S_ 1 := constantI S_ 1 1#1
  let v12 : IVec S4096x1 1 := (fun x v => Host.reduce IntOp.andi x v reducesTo_S4096x1x1_S4096x1_d2 h_S_) v11 c_3
  let v13 : FVec Ideal S4096x1 .f32 := (fun x i => Host.gather gather_S4096x8192_S4096x1x1_S4096x1_n_1_0_0_1_2_11 x i) x v5
  let cst : FVec Ideal S_ .f32 := constant S_ .f32 0x7FC00000#32
  let v14 : FVec Ideal S4096x1 .f32 := broadcastInDim S4096x1 ![] bcast_S_S4096x1 cst
  let v15 : FVec Ideal S4096x1 .f32 := select v12 v13 v14
  v15

/-- The packed per-row pair the launch reads: column 0 the logit at the row's target, column 1 the row's smoothing value. -/
def aux (a0 : FVec Ideal S8x512x8192 .f32) (a1 : FVec Ideal S8192x8192 .f32) (a2 : IVec S8x512 32) (a3 : IVec S8 32) :
    FVec Ideal S4096x2 .f32 :=
  let v0 : FVec Ideal S4096x8192 .f32 := shapeCast S4096x8192 a0 shapeCasts_S8x512x8192_S4096x8192
  let v1 : IVec S4096 32 := shapeCast S4096 a2 shapeCasts_S8x512_S4096
  let v42 : FVec Ideal S4096 .f32 := kerChain a1 a2 a3
  let v43 : IVec S4096x1 32 := broadcastInDim S4096x1 ![0] bcast_S4096_S4096x1_0 v1
  let v44 : FVec Ideal S4096x1 .f32 := takeAlong v0 v43
  let v45 : FVec Ideal S4096x1 .f32 := broadcastInDim S4096x1 ![0] bcast_S4096_S4096x1_0 v42
  (fun a b => concatenate S4096x2 1 [⟨S4096x1, a⟩, ⟨S4096x1, b⟩] concatenates_S4096x1_S4096x1_S4096x2_d1) v44 v45

end Cert.KernelIdeal.HostVal

end
-- ==== Proof.HostStagesEarly.lean ====
/-
  The host operations of the kernel program before the launch, read stage by stage at the ideal instance: the early
  stages.

  The valuation after each stretch of operations is named, and each buffer a later stretch reads is given its
  contents as a function of the argument arrays: the logits reshaped to rows, the targets per row, the end-of-sequence
  flags, the previous targets, the confusion entries and the segments' coefficients.
-/
import proofs.«414440_j2113123910203_3_alg».proof.Proof.Gen.KernelIdeal.Frame
import proofs.«414440_j2113123910203_3_alg».proof.Proof.Spec
import proofs.«414440_j2113123910203_3_alg».proof.Proof.KerAux
import Idealize.ShloMosaic.Lib.ValueIdx
import Idealize.ShloMosaic.Lib.ValueLayout
import Idealize.ShloMosaic.Lib.Pipeline.Value

set_option maxRecDepth 16384

noncomputable section

namespace Cert.KernelIdeal.HostVal

open Idealize.ShloMosaic Idealize.ShloMosaic.TcCoe Idealize.ShloMosaic.ValueIdx
open Idealize.SL.Sem
open Cert.KernelIdeal Cert.KernelIdeal.Facts₀ Cert.KernelIdeal.Facts

variable (m : (ℓ : Loc nD τ sig) → Buf (Elt Ideal) ℓ)

/-! ## The host operations before the launch, stage by stage -/

/-- The buffers at the program's start. -/
def WZ (c : Dev nD) : Valuation τ sig (Elt Ideal) := fun b => m (c, b)
/-- After the reshapes and the end-of-sequence flags. -/
def WA (c : Dev nD) : Valuation τ sig (Elt Ideal) := StableHlo.after Gen.hostOps0 (WZ m c)
/-- After the previous targets. -/
def WB (c : Dev nD) : Valuation τ sig (Elt Ideal) :=
  StableHlo.after Gen.hostOps0_4 (StableHlo.after Gen.hostOps0_3 (StableHlo.after Gen.hostOps0_2 (StableHlo.after Gen.hostOps0_1 (WA m c))))
/-- After the confusion entries and the segments' coefficients. -/
def WC (c : Dev nD) : Valuation τ sig (Elt Ideal) := StableHlo.after Gen.hostOps0_5 (WB m c)
/-- After the smoothing values. -/
def WD (c : Dev nD) : Valuation τ sig (Elt Ideal) := StableHlo.after Gen.hostOps0_7 (StableHlo.after Gen.hostOps0_6 (WC m c))
/-- After the target logits. -/
def WE (c : Dev nD) : Valuation τ sig (Elt Ideal) := StableHlo.after Gen.hostOps0_8 (WD m c)
/-- After the packing: what the launch finds. -/
def WF (c : Dev nD) : Valuation τ sig (Elt Ideal) := StableHlo.after Gen.hostOps0_9 (WE m c)

theorem V0_eq (c : Dev nD) : Gen.V0 m c = WF m c := by
  unfold WF WE WD WC WB WA WZ
  dsimp only [Gen.V0]
  simp only [List.flatten_cons, List.flatten_nil, List.append_nil, StableHlo.after_append]

/-- Contents carried to a typed reference's buffer and back are the contents. -/
theorem ofBuf_toBuf {T : BufTy} (x : StableHlo.TRef sig T) (v : T.Contents (Elt Ideal)) : x.ofBuf (x.toBuf v) = v := by
  obtain ⟨r, h, _, _⟩ := x
  subst h
  rfl

theorem sZ_arg0 (c : Dev nD) : (WZ m c (Proc.devRef .tc main_arg0) : FVec Ideal S8x512x8192 .f32) = (m ((c : Thread nD τ).loc main_arg0)) := rfl
theorem sZ_arg1 (c : Dev nD) : (WZ m c (Proc.devRef .tc main_arg1) : FVec Ideal S8192x8192 .f32) = (m ((c : Thread nD τ).loc main_arg1)) := rfl
theorem sZ_arg2 (c : Dev nD) : (WZ m c (Proc.devRef .tc main_arg2) : IVec S8x512 32) = (m ((c : Thread nD τ).loc main_arg2)) := rfl
theorem sZ_arg3 (c : Dev nD) : (WZ m c (Proc.devRef .tc main_arg3) : IVec S8 32) = (m ((c : Thread nD τ).loc main_arg3)) := rfl

set_option maxHeartbeats 4000000 in
theorem sA_v0 (c : Dev nD) : (WA m c (Proc.devRef .tc main_v0) : FVec Ideal S4096x8192 .f32) = (shapeCast S4096x8192 (m ((c : Thread nD τ).loc main_arg0)) shapeCasts_S8x512x8192_S4096x8192 : FVec Ideal S4096x8192 .f32) := by
  unfold WA
  after_results
  rw [sZ_arg0 m c]
  rfl

set_option maxHeartbeats 4000000 in
theorem sA_v1 (c : Dev nD) : (WA m c (Proc.devRef .tc main_v1) : IVec S4096 32) = (chainT (m ((c : Thread nD τ).loc main_arg2))) := by
  unfold WA
  after_results
  rw [sZ_arg2 m c]
  rfl

set_option maxHeartbeats 4000000 in
theorem sA_v3 (c : Dev nD) : (WA m c (Proc.devRef .tc main_v3) : IVec S4096 1) = (chainEos (m ((c : Thread nD τ).loc main_arg2))) := by
  unfold WA
  after_results
  rw [sZ_arg2 m c]
  rfl

set_option maxHeartbeats 4000000 in
theorem sA_arg1 (c : Dev nD) : (WA m c (Proc.devRef .tc main_arg1) : FVec Ideal S8192x8192 .f32) = (m ((c : Thread nD τ).loc main_arg1)) := by
  unfold WA
  after_results
  rw [sZ_arg1 m c]

set_option maxHeartbeats 4000000 in
theorem sA_arg3 (c : Dev nD) : (WA m c (Proc.devRef .tc main_arg3) : IVec S8 32) = (m ((c : Thread nD τ).loc main_arg3)) := by
  unfold WA
  after_results
  rw [sZ_arg3 m c]

set_option maxRecDepth 100000 in
set_option maxHeartbeats 4000000 in
theorem sB_v8 (c : Dev nD) : (WB m c (Proc.devRef .tc main_v8) : IVec S4096 32) = chainPrev (m ((c : Thread nD τ).loc main_arg2)) := by
  unfold WB
  after_results
  rw [sA_v1 m c, sA_v3 m c]
  simp only [ofBuf_toBuf]
  rfl

set_option maxHeartbeats 4000000 in
theorem sB_v0 (c : Dev nD) : (WB m c (Proc.devRef .tc main_v0) : FVec Ideal S4096x8192 .f32) = (shapeCast S4096x8192 (m ((c : Thread nD τ).loc main_arg0)) shapeCasts_S8x512x8192_S4096x8192 : FVec Ideal S4096x8192 .f32) := by
  unfold WB
  after_results
  rw [sA_v0 m c]

set_option maxHeartbeats 4000000 in
theorem sB_v1 (c : Dev nD) : (WB m c (Proc.devRef .tc main_v1) : IVec S4096 32) = (chainT (m ((c : Thread nD τ).loc main_arg2))) := by
  unfold WB
  after_results
  rw [sA_v1 m c]

set_option maxHeartbeats 4000000 in
theorem sB_v3 (c : Dev nD) : (WB m c (Proc.devRef .tc main_v3) : IVec S4096 1) = (chainEos (m ((c : Thread nD τ).loc main_arg2))) := by
  unfold WB
  after_results
  rw [sA_v3 m c]

set_option maxHeartbeats 4000000 in
theorem sB_arg1 (c : Dev nD) : (WB m c (Proc.devRef .tc main_arg1) : FVec Ideal S8192x8192 .f32) = (m ((c : Thread nD τ).loc main_arg1)) := by
  unfold WB
  after_results
  rw [sA_arg1 m c]

set_option maxHeartbeats 4000000 in
theorem sB_arg3 (c : Dev nD) : (WB m c (Proc.devRef .tc main_arg3) : IVec S8 32) = (m ((c : Thread nD τ).loc main_arg3)) := by
  unfold WB
  after_results
  rw [sA_arg3 m c]

set_option maxRecDepth 100000 in
set_option maxHeartbeats 4000000 in
theorem sC_v22 (c : Dev nD) : (WC m c (Proc.devRef .tc main_v22) : FVec Ideal S4096 .f32) = chainConf (m ((c : Thread nD τ).loc main_arg1)) (m ((c : Thread nD τ).loc main_arg2)) := by
  unfold WC
  after_results
  rw [sB_v8 m c, sB_v1 m c, sB_arg1 m c]
  rfl

set_option maxRecDepth 100000 in
set_option maxHeartbeats 4000000 in
theorem sC_v31 (c : Dev nD) : (WC m c (Proc.devRef .tc main_v31) : FVec Ideal S8 .f32) = chainCoef (m ((c : Thread nD τ).loc main_arg3)) := by
  unfold WC
  after_results
  rw [sB_arg3 m c]
  rfl

set_option maxHeartbeats 4000000 in
theorem sC_v32 (c : Dev nD) : (WC m c (Proc.devRef .tc main_v32) : IVec S4096 32) = ((extui 32 · natLt_1_32) (chainEos (m ((c : Thread nD τ).loc main_arg2))) : IVec S4096 32) := by
  unfold WC
  after_results
  rw [sB_v3 m c]

set_option maxHeartbeats 4000000 in
theorem sC_v0 (c : Dev nD) : (WC m c (Proc.devRef .tc main_v0) : FVec Ideal S4096x8192 .f32) = (shapeCast S4096x8192 (m ((c : Thread nD τ).loc main_arg0)) shapeCasts_S8x512x8192_S4096x8192 : FVec Ideal S4096x8192 .f32) := by
  unfold WC
  after_results
  rw [sB_v0 m c]

set_option maxHeartbeats 4000000 in
theorem sC_v1 (c : Dev nD) : (WC m c (Proc.devRef .tc main_v1) : IVec S4096 32) = (chainT (m ((c : Thread nD τ).loc main_arg2))) := by
  unfold WC
  after_results
  rw [sB_v1 m c]

end Cert.KernelIdeal.HostVal

end
-- ==== Proof.HostStagesLate.lean ====
/-
  The host operations of the kernel program before the launch, read stage by stage at the ideal instance: the late
  stages.

  From the confusion entries, the coefficients and the flags come the smoothing values (a row's segment is the number
  of ends of sequence strictly before it, read off a running sum); from the reshaped logits and the targets the logit
  at each row's target; the two columns are packed side by side into the array the launch reads.
-/
import proofs.«414440_j2113123910203_3_alg».proof.Proof.HostStagesEarly

set_option maxRecDepth 16384

noncomputable section

namespace Cert.KernelIdeal.HostVal

open Idealize.ShloMosaic Idealize.ShloMosaic.TcCoe Idealize.ShloMosaic.ValueIdx
open Idealize.SL.Sem
open Cert.KernelIdeal Cert.KernelIdeal.Facts₀ Cert.KernelIdeal.Facts

variable (m : (ℓ : Loc nD τ sig) → Buf (Elt Ideal) ℓ)

/-- Contents carried to the buffer of the running sum's result are the contents: the transport is along an equation
    of a type with itself. -/
theorem toBuf_v33 (h1 h2 h3) (v : (⟨S4096, .i32⟩ : BufTy).Contents (Elt Ideal)) :
    ((StableHlo.TRef.of main_v33 h1 h2 h3 : StableHlo.TRef sig ⟨S4096, .i32⟩).toBuf v) = v := rfl

/-- Contents read back from the buffer of the widened flags are the contents. -/
theorem ofBuf_v32 (h1 h2 h3) (v : (⟨S4096, .i32⟩ : BufTy).Contents (Elt Ideal)) :
    ((StableHlo.TRef.of main_v32 h1 h2 h3 : StableHlo.TRef sig ⟨S4096, .i32⟩).ofBuf v) = v := rfl

set_option maxRecDepth 100000 in
set_option maxHeartbeats 4000000 in
theorem sD_v42 (c : Dev nD) : (WD m c (Proc.devRef .tc main_v42) : FVec Ideal S4096 .f32) = kerChain (m ((c : Thread nD τ).loc main_arg1)) (m ((c : Thread nD τ).loc main_arg2)) (m ((c : Thread nD τ).loc main_arg3)) := by
  unfold WD
  after_results_simp
  rw [sC_v31 m c, sC_v32 m c, sC_v22 m c]
  simp only [ofBuf_toBuf, toBuf_v33, ofBuf_v32]
  rfl

set_option maxHeartbeats 4000000 in
theorem sD_v43 (c : Dev nD) : (WD m c (Proc.devRef .tc main_v43) : IVec S4096x1 32) = (broadcastInDim S4096x1 ![0] bcast_S4096_S4096x1_0 (chainT (m ((c : Thread nD τ).loc main_arg2))) : IVec S4096x1 32) := by
  unfold WD
  after_results_simp
  rw [sC_v1 m c]

set_option maxHeartbeats 4000000 in
theorem sD_v0 (c : Dev nD) : (WD m c (Proc.devRef .tc main_v0) : FVec Ideal S4096x8192 .f32) = (shapeCast S4096x8192 (m ((c : Thread nD τ).loc main_arg0)) shapeCasts_S8x512x8192_S4096x8192 : FVec Ideal S4096x8192 .f32) := by
  unfold WD
  after_results_simp
  rw [sC_v0 m c]

set_option maxRecDepth 100000 in
set_option maxHeartbeats 40000000 in
theorem sE_v44 (c : Dev nD) : (WE m c (Proc.devRef .tc main_v44) : FVec Ideal S4096x1 .f32) = takeAlong (shapeCast S4096x8192 (m ((c : Thread nD τ).loc main_arg0)) shapeCasts_S8x512x8192_S4096x8192 : FVec Ideal S4096x8192 .f32) (broadcastInDim S4096x1 ![0] bcast_S4096_S4096x1_0 (chainT (m ((c : Thread nD τ).loc main_arg2)))) := by
  unfold WE
  after_results_simp
  rw [sD_v43 m c, sD_v0 m c]
  simp only [ofBuf_toBuf]
  rfl

set_option maxHeartbeats 4000000 in
theorem sE_v42 (c : Dev nD) : (WE m c (Proc.devRef .tc main_v42) : FVec Ideal S4096 .f32) = kerChain (m ((c : Thread nD τ).loc main_arg1)) (m ((c : Thread nD τ).loc main_arg2)) (m ((c : Thread nD τ).loc main_arg3)) := by
  unfold WE
  after_results_simp
  rw [sD_v42 m c]

set_option maxRecDepth 100000 in
set_option maxHeartbeats 4000000 in
theorem sF_v46 (c : Dev nD) : (WF m c (Proc.devRef .tc main_v46) : FVec Ideal S4096x2 .f32) = aux (m ((c : Thread nD τ).loc main_arg0)) (m ((c : Thread nD τ).loc main_arg1)) (m ((c : Thread nD τ).loc main_arg2)) (m ((c : Thread nD τ).loc main_arg3)) := by
  unfold WF
  after_results
  rw [sE_v44 m c, sE_v42 m c]
  rfl

end Cert.KernelIdeal.HostVal

end
-- ==== Proof.KernelHost.lean ====
/-
  The host side of the kernel program at the ideal instance.

  Before the launch the program reshapes the logits to 4096 rows of 8192 columns and packs, per row, two numbers:
  the logit at the row's target column (a gather along the columns at the target, whose in-range mask is all ones for
  targets in `[0, 8192)`) and the row's smoothing value (the chain `kerChain`: the confusion entry at the previous
  and the current target, times `1 - 0.9 ^ (1 / (length + 1))` of the row's segment). After the launch it adds the two
  per-core sums and divides by the sum of the lengths plus one.
-/
import proofs.«414440_j2113123910203_3_alg».proof.Proof.HostStagesLate

set_option maxRecDepth 16384

noncomputable section

namespace Cert.KernelIdeal.HostVal

open Idealize.ShloMosaic Idealize.ShloMosaic.TcCoe Idealize.ShloMosaic.ValueIdx
open Idealize.SL.Sem
open Cert.KernelIdeal Cert.KernelIdeal.Facts₀ Cert.KernelIdeal.Facts

/-! ## What the launch finds -/

variable (m : (ℓ : Loc nD τ sig) → Buf (Elt Ideal) ℓ)

/-- The first operand of the launch is the logits reshaped to rows. -/
theorem V_v0 (c : Dev nD) :
    (Gen.V m c main_v0 : FVec Ideal S4096x8192 .f32)
      = shapeCast S4096x8192 (m ((c : Thread nD τ).loc main_arg0)) shapeCasts_S8x512x8192_S4096x8192 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, List.flatten_cons, List.flatten_nil, List.append_nil, List.cons_append,
    List.nil_append]
  after_results
  rfl

set_option maxHeartbeats 4000000 in
/-- The lengths plus one, as floats: what the host tail sums. -/
theorem V_v25 (c : Dev nD) :
    (Gen.V m c main_v25 : FVec Ideal S8 .f32)
      = sitofp (F := Ideal) .f32
          (addi (m ((c : Thread nD τ).loc main_arg3)) (broadcastInDim S8 ![] bcast_S_S8 (constantI S_ 32 1#32))) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, List.flatten_cons, List.flatten_nil, List.append_nil, List.cons_append,
    List.nil_append]
  after_results

/-- The second operand of the launch is the packed pair of the argument arrays. -/
theorem V_v46 (c : Dev nD) :
    (Gen.V m c main_v46 : FVec Ideal S4096x2 .f32)
      = aux (m ((c : Thread nD τ).loc main_arg0)) (m ((c : Thread nD τ).loc main_arg1))
          (m ((c : Thread nD τ).loc main_arg2)) (m ((c : Thread nD τ).loc main_arg3)) := by
  show Gen.V0 m c (Proc.devRef .tc main_v46) = _
  rw [V0_eq]
  exact sF_v46 m c

/-! ## After the launch -/

/-- The program's result: the sum of the launch's two per-core sums over the sum of the lengths plus one. -/
theorem tail_eq (c : Dev nD) (O : FVec Ideal S2x1x1 .f32) (hO : (Gen.dats m 0 c).arrAt 2 cfg0.N = O) :
    (Pipeline.afterTail₀ cfgs (Gen.dats m) 0 (Gen.V0 m) [Gen.hostOps1] c main_v50 : FVec Ideal S_ .f32)
      = Host.divf
          (Host.reduceAdd O (constant (F := Ideal) S_ .f32 0x00000000#32) reducesTo_S2x1x1_S_d0_1_2 h_S_)
          (Host.reduceAdd
            (sitofp (F := Ideal) .f32
              (addi (m ((c : Thread nD τ).loc main_arg3)) (broadcastInDim S8 ![] bcast_S_S8 (constantI S_ 32 1#32))))
            (constant (F := Ideal) S_ .f32 0x00000000#32) reducesTo_S8_S_d0 h_S_) := by
  unfold Pipeline.afterTail₀
  show StableHlo.after Gen.hostOps1 _ (Proc.devRef .tc main_v50) = _
  after_results
  have h47 : Pipeline.withArrays (cfgs 0).spec c (Gen.V0 m c) (fun w => (Gen.dats m 0 c).arrAt w (cfgs 0).N)
      (Proc.devRef .tc main_v47) = O :=
    (Pipeline.withArrays_arr spec0 Gen.launch0.win.arr_inj c _ _ 2).trans hO
  have h25 : Pipeline.withArrays (cfgs 0).spec c (Gen.V0 m c) (fun w => (Gen.dats m 0 c).arrAt w (cfgs 0).N)
      (Proc.devRef .tc main_v25)
        = sitofp (F := Ideal) .f32
            (addi (m ((c : Thread nD τ).loc main_arg3)) (broadcastInDim S8 ![] bcast_S_S8 (constantI S_ 32 1#32))) :=
    (Pipeline.withArrays_of_ne _ c (Gen.V0 m c) _ main_v25 (by decide)).trans (V_v25 m c)
  rw [h47, h25]

end Cert.KernelIdeal.HostVal

end
-- ==== Proof.KernelAux.lean ====
/-
  The packed per-row pair read at an index. Column 1 of the pair is the row's smoothing value. Column 0 is the logit at
  the row's target: for a target in [0, 8192) the wrap of a negative index leaves it alone, the in-range mask is 1, and
  the read along the columns, whose start index is clamped into [0, 8191], reads the row at the target itself.
-/
import proofs.«414440_j2113123910203_3_alg».proof.Proof.KerAux
import Idealize.ShloMosaic.Lib.ValueIdx
import Idealize.ShloMosaic.Lib.ValueLayout
import Idealize.ShloMosaic.Lib.Pipeline.Value
import Idealize.ShloMosaic.PureOps.Reduce

set_option maxRecDepth 16384

noncomputable section

namespace Cert.KernelIdeal.HostVal

open Idealize.ShloMosaic Idealize.ShloMosaic.ValueIdx
open Cert.KernelIdeal Cert.KernelIdeal.Facts₀ Cert.KernelIdeal.Facts

/-! ## Words and bits -/

/-- A fold by `and` from 1 over 1s is 1. -/
theorem foldl_andi_one {ι : Type} (f : ι → BitVec 1) (l : List ι) (hl : ∀ n ∈ l, f n = 1#1) :
    l.foldl (fun r n => IntOp.andi r (f n)) 1#1 = 1#1 := by
  induction l with
  | nil => rfl
  | cons a l ih =>
    have e : IntOp.andi 1#1 (f a) = 1#1 := by rw [hl a List.mem_cons_self]; rfl
    rw [List.foldl_cons, e]
    exact ih (fun n hn => hl n (List.mem_cons_of_mem _ hn))

/-- A reduction by `and` from 1 of an array of 1s is 1 everywhere. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  exact foldl_andi_one x _ (fun i _ => hx i)

/-- A word in [0, 8192) is not below zero, so the wrap by 8192 keeps it. -/
theorem word_wrap (w : BitVec 32) (h0 : 0 ≤ w.toInt) :
    Scalar.select (IntOp.cmpi .slt w 0#32) (IntOp.addi w 8192#32) w = w := by
  have e : IntOp.cmpi .slt w 0#32 = 0#1 := by
    unfold IntOp.cmpi
    have : w.slt 0#32 = false := by
      simp only [BitVec.slt, show (0#32 : BitVec 32).toInt = 0 from by decide, decide_eq_false_iff_not]; omega
    rw [this]; rfl
  rw [e, select_zero]

/-- A word in [0, 8192) passes the test 0 ≤ · ≤ 8191. -/
theorem word_mask (w : BitVec 32) (h0 : 0 ≤ w.toInt) (h1 : w.toInt < 8192) :
    IntOp.andi (IntOp.cmpi .sge w 0#32) (IntOp.cmpi .sle w 8191#32) = 1#1 := by
  have e0 : IntOp.cmpi .sge w 0#32 = 1#1 := by
    unfold IntOp.cmpi
    have : (0#32 : BitVec 32).sle w = true := by
      simp only [BitVec.sle, show (0#32 : BitVec 32).toInt = 0 from by decide, decide_eq_true_eq]; omega
    rw [this]; rfl
  have e1 : IntOp.cmpi .sle w 8191#32 = 1#1 := by
    unfold IntOp.cmpi
    have : w.sle 8191#32 = true := by
      simp only [BitVec.sle, show (8191#32 : BitVec 32).toInt = 8191 from by decide, decide_eq_true_eq]; omega
    rw [this]; rfl
  rw [e0, e1]; rfl

/-! ## The read along the columns -/

/-- The gather with the rows as a batching axis, read at row `n`: the row's entry at its start index, read signed and
    clamped into [0, 8191]. -/
theorem gather_row (x : FVec Ideal S4096x8192 .f32) (idx : IVec S4096x1x1 32) (n : Fin 4096) :
    Host.gather gather_S4096x8192_S4096x1x1_S4096x1_n_1_0_0_1_2_11 x idx (@ix2 4096 1 n 0)
      = x (ix2 n ⟨min (idx (@ix3 4096 1 1 n 0 0)).toInt.toNat (8192 - 1), by omega⟩) := by
  unfold Host.gather
  congr 1
  funext a
  refine Fin.ext ?_
  match a with
  | ⟨0, _⟩ =>
    show gather_S4096x8192_S4096x1x1_S4096x1_n_1_0_0_1_2_11.start (@ix2 4096 1 n 0) idx 0
      + gather_S4096x8192_S4096x1x1_S4096x1_n_1_0_0_1_2_11.batchCoord (@ix2 4096 1 n 0) 0
      + gather_S4096x8192_S4096x1x1_S4096x1_n_1_0_0_1_2_11.offCoord (@ix2 4096 1 n 0) 0 = n.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S4096x8192_S4096x1x1_S4096x1_n_1_0_0_1_2_11.operandBatchingDims from List.mem_singleton.mpr rfl)]
    simp only [Nat.zero_add, Nat.add_zero]
    rfl
  | ⟨1, _⟩ =>
    show gather_S4096x8192_S4096x1x1_S4096x1_n_1_0_0_1_2_11.start (@ix2 4096 1 n 0) idx 1
      + gather_S4096x8192_S4096x1x1_S4096x1_n_1_0_0_1_2_11.batchCoord (@ix2 4096 1 n 0) 1
      + gather_S4096x8192_S4096x1x1_S4096x1_n_1_0_0_1_2_11.offCoord (@ix2 4096 1 n 0) 1 = _
    rw [GatherDims.batchCoord_eq_zero _ _ _ (by decide),
      GatherDims.offCoord_eq_zero _ _ _ (fun h => ((GatherDims.mem_sKept _ _).mp h).1 (List.mem_singleton.mpr rfl))]
    unfold GatherDims.start
    rw [dif_pos (show (1 : Fin 2) ∈ gather_S4096x8192_S4096x1x1_S4096x1_n_1_0_0_1_2_11.startIndexMap from List.mem_singleton.mpr rfl)]
    have hsi : gather_S4096x8192_S4096x1x1_S4096x1_n_1_0_0_1_2_11.siIdx (@ix2 4096 1 n 0)
        ⟨List.idxOf (1 : Fin 2) gather_S4096x8192_S4096x1x1_S4096x1_n_1_0_0_1_2_11.startIndexMap,
          List.idxOf_lt_length_iff.2 (List.mem_singleton.mpr rfl)⟩ = @ix3 4096 1 1 n 0 0 := by
      funext b; refine Fin.ext ?_
      match b with
      | ⟨0, _⟩ => rfl
      | ⟨1, _⟩ => rfl
      | ⟨2, _⟩ => rfl
    rw [hsi]
    rfl

/-- The read along the columns at in-range indices is the row's entry at its index. -/
theorem takeAlong_apply (x : FVec Ideal S4096x8192 .f32) (i : IVec S4096x1 32)
    (hi : ∀ k : S4096x1.Idx, 0 ≤ (i k).toInt ∧ (i k).toInt < 8192) (n : Fin 4096) :
    takeAlong x i (@ix2 4096 1 n 0)
      = x (ix2 n ⟨(i (@ix2 4096 1 n 0)).toInt.toNat, by have := hi (@ix2 4096 1 n 0); omega⟩) := by
  unfold takeAlong
  dsimp only
  have hw : select (cmpi .slt i (broadcastInDim S4096x1 ![] bcast_S_S4096x1 (constantI S_ 32 0#32)))
      (addi i (broadcastInDim S4096x1 ![] bcast_S_S4096x1 (constantI S_ 32 8192#32))) i = i :=
    funext fun k => word_wrap (i k) (hi k).1
  have hm : Host.reduce IntOp.andi
      (andi (cmpi .sge (shapeCast S4096x1x1 i shapeCasts_S4096x1_S4096x1x1) (broadcastInDim S4096x1x1 ![] bcast_S_S4096x1x1 (constantI S_ 32 0#32)))
        (cmpi .sle (shapeCast S4096x1x1 i shapeCasts_S4096x1_S4096x1x1)
          (broadcastInDim S4096x1x1 ![0, 1, 2] bcast_S1x1x1_S4096x1x1_0_1_2 (broadcastInDim S1x1x1 ![2] bcast_S1_S1x1x1_2 (constantI S1 32 8191#32)))))
      (constantI S_ 1 1#1) reducesTo_S4096x1x1_S4096x1_d2 h_S_ (@ix2 4096 1 n 0) = 1#1 :=
    reduce_andi_one _ _ _ _ _ rfl (fun k => word_mask _ (hi (Shape.reshapeEquiv shapeCasts_S4096x1_S4096x1x1 k)).1
      (hi (Shape.reshapeEquiv shapeCasts_S4096x1_S4096x1x1 k)).2)
  rw [hw, select_apply, hm, select_one, gather_row]
  have e : shapeCast S4096x1x1 i shapeCasts_S4096x1_S4096x1x1 (@ix3 4096 1 1 n 0 0) = i (@ix2 4096 1 n 0) :=
    shapeCast_apply i shapeCasts_S4096x1_S4096x1x1 _ _ (by
      rw [Shape.rowMajor_val_two, Shape.rowMajor_val_three]
      show n.val * 1 + 0 = (n.val * 1 + 0) * 1 + 0
      omega)
  refine congrArg x (funext fun a => ?_)
  match a with
  | ⟨0, _⟩ => rfl
  | ⟨1, _⟩ =>
    refine Fin.ext ?_
    show min (shapeCast S4096x1x1 i shapeCasts_S4096x1_S4096x1x1 (@ix3 4096 1 1 n 0 0)).toInt.toNat (8192 - 1)
      = (i (@ix2 4096 1 n 0)).toInt.toNat
    rw [e]
    have := hi (@ix2 4096 1 n 0)
    omega

/-- Column 1 of the pair is the row's smoothing value. -/
theorem aux_col1 (a0 : FVec Ideal S8x512x8192 .f32) (a1 : FVec Ideal S8192x8192 .f32) (a2 : IVec S8x512 32) (a3 : IVec S8 32)
    (n : Fin 4096) : aux a0 a1 a2 a3 (ix2 n (1 : Fin 2)) = kerChain a1 a2 a3 (ix1 n) := by
  unfold aux
  refine (concatenate_pair_apply_right (t := S4096x2) (s₁ := S4096x1) (s₂ := S4096x1) (1 : Fin 2) _ _
    concatenates_S4096x1_S4096x1_S4096x2_d1 (ix2 n (1 : Fin 2)) rfl rfl (@ix2 4096 1 n 0) (fun b hb => ?_) rfl).trans ?_
  · match b with
    | ⟨0, _⟩ => rfl
    | ⟨1, _⟩ => exact absurd rfl hb
  · exact broadcastInDim_apply _ _ _ _ (ix1 n) (fun a => by
      match a with
      | ⟨0, _⟩ => rfl)

/-- Column 0 of the pair is the logit at the row's target, every target being a column. -/
theorem aux_col0 (a0 : FVec Ideal S8x512x8192 .f32) (a1 : FVec Ideal S8192x8192 .f32) (a2 : IVec S8x512 32) (a3 : IVec S8 32)
    (ht : ∀ n : Fin 4096, 0 ≤ ((shapeCast S4096 a2 shapeCasts_S8x512_S4096 : IVec S4096 32) (ix1 n)).toInt
      ∧ ((shapeCast S4096 a2 shapeCasts_S8x512_S4096 : IVec S4096 32) (ix1 n)).toInt < 8192)
    (n : Fin 4096) :
    aux a0 a1 a2 a3 (ix2 n (0 : Fin 2))
      = (shapeCast S4096x8192 a0 shapeCasts_S8x512x8192_S4096x8192 : FVec Ideal S4096x8192 .f32)
          (ix2 n ⟨((shapeCast S4096 a2 shapeCasts_S8x512_S4096 : IVec S4096 32) (ix1 n)).toInt.toNat,
            by have := ht n; omega⟩) := by
  unfold aux
  refine (concatenate_pair_apply_left (t := S4096x2) (s₁ := S4096x1) (s₂ := S4096x1) (1 : Fin 2) _ _
    concatenates_S4096x1_S4096x1_S4096x2_d1 (ix2 n (0 : Fin 2)) rfl (@ix2 4096 1 n 0) (fun b => ?_)).trans ?_
  · match b with
    | ⟨0, _⟩ => rfl
    | ⟨1, _⟩ => rfl
  · have hb : ∀ k : S4096x1.Idx, ∃ m : Fin 4096,
        broadcastInDim S4096x1 ![0] bcast_S4096_S4096x1_0 (shapeCast S4096 a2 shapeCasts_S8x512_S4096 : IVec S4096 32) k
          = (shapeCast S4096 a2 shapeCasts_S8x512_S4096 : IVec S4096 32) (ix1 m) := fun k =>
      ⟨k 0, broadcastInDim_apply _ _ _ _ (ix1 (k 0)) (fun a => by
        match a with
        | ⟨0, _⟩ => rfl)⟩
    refine (takeAlong_apply _ _ (fun k => ?_) n).trans ?_
    · obtain ⟨m, hm⟩ := hb k
      rw [hm]; exact ht m
    · have e : broadcastInDim S4096x1 ![0] bcast_S4096_S4096x1_0 (shapeCast S4096 a2 shapeCasts_S8x512_S4096 : IVec S4096 32)
          (@ix2 4096 1 n 0) = (shapeCast S4096 a2 shapeCasts_S8x512_S4096 : IVec S4096 32) (ix1 n) :=
        broadcastInDim_apply _ _ _ _ (ix1 n) (fun a => by
          match a with
          | ⟨0, _⟩ => rfl)
      refine congrArg _ (funext fun a => ?_)
      match a with
      | ⟨0, _⟩ => rfl
      | ⟨1, _⟩ =>
        refine Fin.ext ?_
        show (broadcastInDim S4096x1 ![0] bcast_S4096_S4096x1_0 (shapeCast S4096 a2 shapeCasts_S8x512_S4096 : IVec S4096 32)
          (@ix2 4096 1 n 0)).toInt.toNat = _
        rw [e]

end Cert.KernelIdeal.HostVal

end

#print axioms Cert.KernelIdeal.HostVal.aux_col0
#print axioms Cert.KernelIdeal.HostVal.aux_col1
-- ==== Proof.Reindex.lean ====
/-
  The numerator's index. Two cores, sixteen steps a core and 128 rows a step count the 4096 rows once each:
  row `n` is row `r` of the block `c · 16 + j`, with `n = (c · 16 + j) · 128 + r`.
-/
import Mathlib.Algebra.BigOperators.Fin
import Mathlib.Logic.Equiv.Fin.Basic
import Idealize.ShloMosaic.Lib.ValueIdx

namespace Cert.Reindex

/-- A sum over `m · n` positions is the sum over `m` blocks of the sums over each block's `n` positions. -/
theorem sum_blocks {M : Type} [AddCommMonoid M] (m n : ℕ) (g : Fin (m * n) → M) :
    ∑ k, g k = ∑ a : Fin m, ∑ b : Fin n,
      g ⟨a.val * n + b.val, by
        have ha : a.val + 1 ≤ m := a.isLt
        have hb := b.isLt
        have h1 : (a.val + 1) * n ≤ m * n := Nat.mul_le_mul_right n ha
        rw [Nat.add_mul, Nat.one_mul] at h1
        omega⟩ := by
  rw [← finProdFinEquiv.sum_comp, Fintype.sum_prod_type]
  refine Finset.sum_congr rfl fun a _ => Finset.sum_congr rfl fun b _ => congrArg g (Fin.ext ?_)
  simp [finProdFinEquiv, Nat.mul_comm, Nat.add_comm]

/-- The 4096 rows, by core, step and row of the step's block. -/
theorem sum_rows {M : Type} [AddCommMonoid M] (g : Fin 4096 → M) :
    ∑ c : Fin 2, ∑ j : Fin 16, ∑ r : Fin 128,
        g ⟨(c.val * 16 + j.val) * 128 + r.val, by have := c.isLt; have := j.isLt; have := r.isLt; omega⟩
      = ∑ n, g n := by
  have h1 := sum_blocks 32 128 (fun k : Fin (32 * 128) => g ⟨k.val, k.isLt⟩)
  have h2 := sum_blocks 2 16 (fun t : Fin (2 * 16) => ∑ r : Fin 128,
    g ⟨t.val * 128 + r.val, by have := t.isLt; have := r.isLt; omega⟩)
  calc _ = ∑ t : Fin (2 * 16), ∑ r : Fin 128, g ⟨t.val * 128 + r.val, by have := t.isLt; have := r.isLt; omega⟩ := h2.symm
    _ = ∑ k : Fin (32 * 128), g ⟨k.val, k.isLt⟩ := h1.symm
    _ = ∑ n, g n := rfl

open Idealize.ShloMosaic Idealize.ShloMosaic.ValueIdx in
/-- The output array has one entry a core: a sum over its indices is the sum over the two cores. -/
theorem sum_cores {M : Type} [AddCommMonoid M] (f : (⟨3, ![2, 1, 1]⟩ : Shape).Idx → M) :
    ∑ i, f i = ∑ c : Fin 2, f (ix3 c 0 0) := by
  let e : (⟨3, ![2, 1, 1]⟩ : Shape).Idx ≃ Fin 2 :=
    { toFun := fun i => i 0
      invFun := fun c => ix3 c 0 0
      left_inv := fun i => by
        have h := eq_ix3 i
        have h1 : i 1 = (0 : Fin 1) := Fin.ext (by have := (i 1).isLt; change (i 1).val < 1 at this; simp only [Fin.val_zero]; omega)
        have h2 : i 2 = (0 : Fin 1) := Fin.ext (by have := (i 2).isLt; change (i 2).val < 1 at this; simp only [Fin.val_zero]; omega)
        rw [h1, h2] at h; exact h.symm
      right_inv := fun _ => rfl }
  rw [← Equiv.sum_comp e.symm f]; rfl

end Cert.Reindex
-- ==== Proof.KernelValue.lean ====
/-
  The kernel program's result as one sum over the 4096 rows.

  The launch leaves, in entry `core` of its [2, 1, 1] output, the sum over the core's sixteen blocks of each block's
  sum over its 128 rows of the row's closed-form loss. The host adds the two entries and divides by the sum of the
  lengths plus one. Two cores, sixteen blocks a core and 128 rows a block count every row once, row `n` being row
  `n % 128` of block `n / 128`; the block's row of logits is the reshaped logits' row `n`, its packed pair is the
  logit at the row's target column and the row's smoothing value. So the result is the sum over all rows of the
  row's closed-form loss, over the sum of the lengths plus one.
-/
import proofs.«414440_j2113123910203_3_alg».proof.Proof.KernelAccum
import proofs.«414440_j2113123910203_3_alg».proof.Proof.KernelRow
import proofs.«414440_j2113123910203_3_alg».proof.Proof.KernelHost
import proofs.«414440_j2113123910203_3_alg».proof.Proof.KernelAux
import proofs.«414440_j2113123910203_3_alg».proof.Proof.Reindex
import proofs.«414440_j2113123910203_3_alg».proof.Proof.Spec
import Idealize.ShloMosaic.Lib.IdealHost
import Idealize.ShloMosaic.Lib.ValueIdx
import Idealize.ShloMosaic.PureOps.Ideal.Laws

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Facts₀ Cert.KernelIdeal.Facts

variable (m : (ℓ : Loc nD τ sig) → Buf (Elt Ideal) ℓ)

/-- The logits as 4096 rows of 8192 columns. -/
abbrev logits (c : Dev nD) : FVec Ideal S4096x8192 .f32 :=
  shapeCast S4096x8192 (m ((c : Thread nD τ).loc main_arg0)) shapeCasts_S8x512x8192_S4096x8192

/-- The targets, one word a row. -/
abbrev targets (c : Dev nD) : IVec S4096 32 :=
  shapeCast S4096 (m ((c : Thread nD τ).loc main_arg2)) shapeCasts_S8x512_S4096

/-- Row `n`'s target column: the target word's value, reduced into the columns' range (in range it is the value). -/
abbrev col (c : Dev nD) (n : Fin 4096) : Fin 8192 :=
  ⟨(targets m c (ix1 n)).toNat % 8192, Nat.mod_lt _ (by decide)⟩

/-- The divisor: the sum of the lengths plus one, as the host computes it. -/
abbrev den (c : Dev nD) : FVec Ideal S_ .f32 :=
  Host.reduceAdd
    (sitofp (F := Ideal) .f32
      (addi (m ((c : Thread nD τ).loc main_arg3)) (broadcastInDim S8 ![] bcast_S_S8 (constantI S_ 32 1#32))))
    (constant (F := Ideal) S_ .f32 0x00000000#32) reducesTo_S8_S_d0 h_S_

/-- Row `n`'s closed-form loss: of its row of logits, its logit at the target column and its smoothing value. -/
abbrev rowLoss (c : Dev nD) (n : Fin 4096) : EReal :=
  Cert.Spec.kerRow (fun v => logits m c (ix2 n v)) (logits m c (ix2 n (col m c n)))
    (HostVal.kerChain (m ((c : Thread nD τ).loc main_arg1)) (m ((c : Thread nD τ).loc main_arg2))
      (m ((c : Thread nD τ).loc main_arg3)) (ix1 n))

/-- A word whose signed value lies in `[0, 8192)`: its signed value, its unsigned value and the latter reduced
    into that range are one number. -/
theorem word_col (w : BitVec 32) (h0 : 0 ≤ w.toInt) (h1 : w.toInt < 8192) : w.toInt.toNat = w.toNat % 8192 := by
  have h := BitVec.toInt_eq_toNat_cond w
  have hlt := w.isLt
  split at h <;> omega

/-- Row `r` of block `t` is row `128 t + r` of the arrays: the closed-form loss of the block's row, of its packed
    target logit and of its packed smoothing value is the row's. -/
theorem row_term (c : Dev nD)
    (ht : ∀ n : Fin 4096, 0 ≤ (targets m c (ix1 n)).toInt ∧ (targets m c (ix1 n)).toInt < 8192)
    (t : Fin cfg0.N) (r : Fin 128) (hb : t.val * 128 + r.val < 4096) :
    Cert.Spec.kerRow (fun v => Accum.xblk m c t (ix2 r v)) (Accum.ablk m c t (ix2 r (0 : Fin 2)))
        (Accum.ablk m c t (ix2 r (1 : Fin 2)))
      = rowLoss m c ⟨t.val * 128 + r.val, hb⟩ := by
  have e0 : (fun v => Accum.xblk m c t (ix2 r v)) = fun v => logits m c (ix2 ⟨t.val * 128 + r.val, hb⟩ v) :=
    funext fun v => (Accum.iblk0 m c t r v).trans (congrFun (HostVal.V_v0 m c) _)
  have e1 : Accum.ablk m c t (ix2 r (1 : Fin 2))
      = HostVal.kerChain (m ((c : Thread nD τ).loc main_arg1)) (m ((c : Thread nD τ).loc main_arg2))
          (m ((c : Thread nD τ).loc main_arg3)) (ix1 ⟨t.val * 128 + r.val, hb⟩) :=
    (Accum.iblk1 m c t r 1).trans ((congrFun (HostVal.V_v46 m c) _).trans (HostVal.aux_col1 _ _ _ _ _))
  have e2 : Accum.ablk m c t (ix2 r (0 : Fin 2))
      = logits m c (ix2 ⟨t.val * 128 + r.val, hb⟩ (col m c ⟨t.val * 128 + r.val, hb⟩)) :=
    (Accum.iblk1 m c t r 0).trans ((congrFun (HostVal.V_v46 m c) _).trans
      ((HostVal.aux_col0 _ _ _ _ ht _).trans
        (congrArg (fun k => logits m c (ix2 (⟨t.val * 128 + r.val, hb⟩ : Fin 4096) k))
          (Fin.ext (word_col _ (ht _).1 (ht _).2)))))
  rw [e0, e1, e2]

/-- The program's result: the sum over the 4096 rows of the row's closed-form loss, over the sum of the lengths plus
    one — for targets in `[0, 8192)`. -/
theorem result_eq (c : Dev nD)
    (ht : ∀ n : Fin 4096, 0 ≤ (targets m c (ix1 n)).toInt ∧ (targets m c (ix1 n)).toInt < 8192) :
    (Pipeline.afterTail₀ cfgs (Gen.dats m) 0 (Gen.V0 m) [Gen.hostOps1] c main_v50 : FVec Ideal S_ .f32)
      = fun j => Ideal.div (∑ n : Fin 4096, rowLoss m c n) (den m c j) := by
  refine (HostVal.tail_eq m c (Accum.outG m c) (Accum.out_array m c)).trans ?_
  funext j
  refine (hostDivf_apply _ _ j).trans ?_
  refine congrArg (fun x => Ideal.div x (den m c j)) ?_
  refine (hostReduceAdd_apply _ _ _ _ j).trans ?_
  refine (Ideal.hostReduceAdd_total _ (fun b => b.elim0) _ _ j).trans ?_
  rw [constant_apply, Ideal.ofBits_zero_f32, zero_add]
  refine (Cert.Reindex.sum_cores (M := EReal) (Accum.outG m c)).trans ?_
  refine Eq.trans ?_ (Cert.Reindex.sum_rows (M := EReal) (rowLoss m c))
  refine Finset.sum_congr rfl fun a _ => Finset.sum_congr rfl fun k _ => ?_
  refine (congrFun (RowVal.blk_eq (Accum.xblk m c (Accum.pt a k)) (Accum.ablk m c (Accum.pt a k))) (ix2 0 0)).trans ?_
  exact Finset.sum_congr rfl fun r _ => row_term m c ht (Accum.pt a k) r _

end Cert.KernelIdeal.KValue

end
-- ==== Proof.RefChain.lean ====
/-
  The reference's smoothing value of each row as a pure function of the argument arrays: the operations %1 … %42
  of its @main, transcribed in order, in five parts and their chain.
-/
import proofs.«414440_j2113123910203_3_alg».proof.ReferenceIdeal
import proofs.«414440_j2113123910203_3_alg».proof.Proof.Gen.ReferenceIdeal
import Idealize.ShloMosaic.PureOps
import Idealize.ShloMosaic.PureOps.Ideal

noncomputable section

namespace Cert.ReferenceIdeal.RefRun

open Idealize.ShloMosaic Cert.ReferenceIdeal Cert.ReferenceIdeal.Facts₀

/-- Which rows have the target 1: operations %c, %2, %3 over the reshaped targets t (%1). -/
def refIsOne (t : IVec S4096 32) : IVec S4096 1 :=
  let main_c : IVec S_ 32 := (constantI S_ 32 1#32)
  let main_v2 : IVec S4096 32 := broadcastInDim S4096 ![] bcast_S_S4096 main_c
  let main_v3 : IVec S4096 1 := cmpi .eq t main_v2
  main_v3

/-- The transition entry of each row: operations %c, %2 … %22 over the reshaped targets t (%1) and the transition matrix a1. The previous row's target (the targets rolled by one, the first row's set to 4095) and the row's own, each normalised (a negative one shifted by the extent), index the matrix. -/
def refGather (t : IVec S4096 32) (a1 : FVec Ideal S8192x8192 .f32) : FVec Ideal S4096 .f32 :=
  let main_c : IVec S_ 32 := (constantI S_ 32 1#32)
  let main_v2 : IVec S4096 32 := broadcastInDim S4096 ![] bcast_S_S4096 main_c
  let main_v3 : IVec S4096 1 := cmpi .eq t main_v2
  let main_call0_v0 : IVec S1 32 := (extractStridedSlice S1 ![4095] · slices_S4096_S1_4095) t
  let main_call0_v1 : IVec S4095 32 := (extractStridedSlice S4095 ![0] · slices_S4096_S4095_0) t
  let main_v4 : IVec S4096 32 := (fun a b => concatenate S4096 0 [⟨S1, a⟩, ⟨S4095, b⟩] concatenates_S1_S4095_S4096_d0) main_call0_v0 main_call0_v1
  let main_call1_v0 : IVec S1 1 := (extractStridedSlice S1 ![4095] · slices_S4096_S1_4095) main_v3
  let main_call1_v1 : IVec S4095 1 := (extractStridedSlice S4095 ![0] · slices_S4096_S4095_0) main_v3
  let main_v5 : IVec S4096 1 := (fun a b => concatenate S4096 0 [⟨S1, a⟩, ⟨S4095, b⟩] concatenates_S1_S4095_S4096_d0) main_call1_v0 main_call1_v1
  let main_c_0 : IVec S_ 32 := (constantI S_ 32 0#32)
  let main_v6 : IVec S1 32 := broadcastInDim S1 ![] bcast_S_S1 main_c_0
  let main_c_1 : IVec S_ 1 := (constantI S_ 1 1#1)
  let main_v7 : IVec S4096 1 := (fun x i u => Host.scatter scatter_S4096_S1_S__n_0_0_0 (fun _ b => b) x i u) main_v5 main_v6 main_c_1
  let main_c_2 : IVec S_ 32 := (constantI S_ 32 4095#32)
  let main_call2_v0 : IVec S_ 32 := id main_c_2
  let main_call2_v1 : IVec S4096 32 := (broadcastInDim S4096 ![] bcast_S_S4096) main_call2_v0
  let main_v8 : IVec S4096 32 := select main_v7 main_call2_v1 main_v4
  let main_c_3 : IVec S_ 32 := (constantI S_ 32 0#32)
  let main_v9 : IVec S4096 32 := broadcastInDim S4096 ![] bcast_S_S4096 main_c_3
  let main_v10 : IVec S4096 1 := cmpi .slt main_v8 main_v9
  let main_c_4 : IVec S_ 32 := (constantI S_ 32 8192#32)
  let main_v11 : IVec S4096 32 := broadcastInDim S4096 ![] bcast_S_S4096 main_c_4
  let main_v12 : IVec S4096 32 := addi main_v8 main_v11
  let main_v13 : IVec S4096 32 := select main_v10 main_v12 main_v8
  let main_c_5 : IVec S_ 32 := (constantI S_ 32 0#32)
  let main_v14 : IVec S4096 32 := broadcastInDim S4096 ![] bcast_S_S4096 main_c_5
  let main_v15 : IVec S4096 1 := cmpi .slt t main_v14
  let main_c_6 : IVec S_ 32 := (constantI S_ 32 8192#32)
  let main_v16 : IVec S4096 32 := broadcastInDim S4096 ![] bcast_S_S4096 main_c_6
  let main_v17 : IVec S4096 32 := addi t main_v16
  let main_v18 : IVec S4096 32 := select main_v15 main_v17 t
  let main_v19 : IVec S4096x1 32 := broadcastInDim S4096x1 ![0] bcast_S4096_S4096x1_0 main_v13
  let main_v20 : IVec S4096x1 32 := broadcastInDim S4096x1 ![0] bcast_S4096_S4096x1_0 main_v18
  let main_v21 : IVec S4096x2 32 := (fun a b => concatenate S4096x2 1 [⟨S4096x1, a⟩, ⟨S4096x1, b⟩] concatenates_S4096x1_S4096x1_S4096x2_d1) main_v19 main_v20
  let main_v22 : FVec Ideal S4096 .f32 := (fun x i => Host.gather gather_S8192x8192_S4096x2_S4096_n_01_n_n_01_1_11 x i) a1 main_v21
  main_v22

/-- The lengths plus one: operations %c_7, %23, %24. -/
def refLens (a3 : IVec S8 32) : IVec S8 32 :=
  let main_c_7 : IVec S_ 32 := (constantI S_ 32 1#32)
  let main_v23 : IVec S8 32 := broadcastInDim S8 ![] bcast_S_S8 main_c_7
  let main_v24 : IVec S8 32 := addi a3 main_v23
  main_v24

/-- The rate of each sequence, 1 - 0.9 ^ (1 / (length + 1)): operations %c_7, %23 … %31. -/
def refRate (a3 : IVec S8 32) : FVec Ideal S8 .f32 :=
  let main_c_7 : IVec S_ 32 := (constantI S_ 32 1#32)
  let main_v23 : IVec S8 32 := broadcastInDim S8 ![] bcast_S_S8 main_c_7
  let main_v24 : IVec S8 32 := addi a3 main_v23
  let main_v25 : FVec Ideal S8 .f32 := sitofp .f32 main_v24
  let main_cst : FVec Ideal S_ .f32 := (constant S_ .f32 0x3F800000#32)
  let main_v26 : FVec Ideal S8 .f32 := broadcastInDim S8 ![] bcast_S_S8 main_cst
  let main_v27 : FVec Ideal S8 .f32 := Host.divf main_v26 main_v25
  let main_cst_8 : FVec Ideal S_ .f32 := (constant S_ .f32 0x3F666666#32)
  let main_v28 : FVec Ideal S8 .f32 := broadcastInDim S8 ![] bcast_S_S8 main_cst_8
  let main_v29 : FVec Ideal S8 .f32 := Host.powf main_v28 main_v27
  let main_cst_9 : FVec Ideal S_ .f32 := (constant S_ .f32 0x3F800000#32)
  let main_v30 : FVec Ideal S8 .f32 := broadcastInDim S8 ![] bcast_S_S8 main_cst_9
  let main_v31 : FVec Ideal S8 .f32 := subf main_v30 main_v29
  main_v31

/-- The smoothing value of each row: operations %32 … %42 over e (%3: which rows have the target 1), the rates r (%31) and the transition entries g (%22). A row's sequence is the number of earlier rows whose target is 1 (a running sum less the row's own term, normalised); its rate, gathered, times its transition entry. -/
def refSmooth (e : IVec S4096 1) (r : FVec Ideal S8 .f32) (g : FVec Ideal S4096 .f32) : FVec Ideal S4096 .f32 :=
  let main_v32 : IVec S4096 32 := (extui 32 · natLt_1_32) e
  let main_call3_call0_c : IVec S_ 32 := (constantI S_ 32 0#32)
  let main_call3_call0_v0 : IVec S_ 32 := (broadcastInDim S_ ![] bcast_S_S_) main_call3_call0_c
  let main_v33 : IVec S4096 32 := (fun x v => Host.reduceWindow IntOp.addi ![4096] ![1] ![4095] ![0] x v reduceWindows_S4096_S4096_w4096s1p4095_0 h_S_) main_v32 main_call3_call0_v0
  let main_v34 : IVec S4096 32 := subi main_v33 main_v32
  let main_c_10 : IVec S_ 32 := (constantI S_ 32 0#32)
  let main_v35 : IVec S4096 32 := broadcastInDim S4096 ![] bcast_S_S4096 main_c_10
  let main_v36 : IVec S4096 1 := cmpi .slt main_v34 main_v35
  let main_c_11 : IVec S_ 32 := (constantI S_ 32 8#32)
  let main_v37 : IVec S4096 32 := broadcastInDim S4096 ![] bcast_S_S4096 main_c_11
  let main_v38 : IVec S4096 32 := addi main_v34 main_v37
  let main_v39 : IVec S4096 32 := select main_v36 main_v38 main_v34
  let main_v40 : IVec S4096x1 32 := broadcastInDim S4096x1 ![0] bcast_S4096_S4096x1_0 main_v39
  let main_v41 : FVec Ideal S4096 .f32 := (fun x i => Host.gather gather_S8_S4096x1_S4096_n_0_n_n_0_1_1 x i) r main_v40
  let main_v42 : FVec Ideal S4096 .f32 := mulf main_v41 g
  main_v42

/-- The smoothing value of each row, operations %1 … %42, over the transition matrix a1, the targets a2 and the
    lengths a3. -/
def refChain (a1 : FVec Ideal S8192x8192 .f32) (a2 : IVec S8x512 32) (a3 : IVec S8 32) : FVec Ideal S4096 .f32 :=
  let main_v1 : IVec S4096 32 := shapeCast S4096 a2 shapeCasts_S8x512_S4096
  let main_v3 : IVec S4096 1 := refIsOne main_v1
  let main_v22 : FVec Ideal S4096 .f32 := refGather main_v1 a1
  let main_v31 : FVec Ideal S8 .f32 := refRate a3
  refSmooth main_v3 main_v31 main_v22

end Cert.ReferenceIdeal.RefRun

end
-- ==== Proof.RefTail.lean ====
/-
  The reference's value after the smoothing chain.

  From the reshaped logits `x`, the reshaped targets `t`, the smoothing value `s` of every row and the
  lengths `l`, the reference builds the weight matrix (the off-target weight broadcast along every row,
  the target weight scattered at the target column), the row-wise log-softmax of the logits, and sums
  `w · log w - w · logp` over all entries; the sum is divided by the sum of the lengths.
-/
import proofs.«414440_j2113123910203_3_alg».proof.ReferenceIdeal
import proofs.«414440_j2113123910203_3_alg».proof.Proof.Gen.ReferenceIdeal
import proofs.«414440_j2113123910203_3_alg».proof.Proof.Spec
import proofs.«414440_j2113123910203_3_alg».proof.Proof.Consts
import Idealize.ShloMosaic.Lib.StableHlo
import Idealize.ShloMosaic.Lib.StableHlo.Predicate
import Idealize.ShloMosaic.Lib.ValueIdx
import Idealize.ShloMosaic.PureOps
import Idealize.ShloMosaic.PureOps.Ideal
import Idealize.ShloMosaic.PureOps.Ideal.Laws
import Idealize.ShloMosaic.Lib.IdealHost
import Idealize.ShloMosaic.Lib.Pipeline.Value

noncomputable section

namespace Cert.ReferenceIdeal.RefTail

open Idealize.ShloMosaic
open Cert.ReferenceIdeal
open Cert.ReferenceIdeal.Facts₀

/-- The weight matrix: operations %43 … %65. The off-target weight `s / 8191` of every row is broadcast along
    the row; the target weight `1 - (s / 8191) · 8192` is scattered at `(n, t n)`, both indices normalised
    (a negative one is shifted by the extent). -/
def refWeight (t : IVec S4096 32) (s : FVec Ideal S4096 .f32) : FVec Ideal S4096x8192 .f32 :=
  let main_cst_12 : FVec Ideal S_ .f32 := constant S_ .f32 0x45FFF800#32
  let main_v43 : FVec Ideal S4096 .f32 := broadcastInDim S4096 ![] bcast_S_S4096 main_cst_12
  let main_v44 : FVec Ideal S4096 .f32 := Host.divf s main_v43
  let main_cst_13 : FVec Ideal S_ .f32 := constant S_ .f32 0x46000000#32
  let main_v45 : FVec Ideal S4096 .f32 := broadcastInDim S4096 ![] bcast_S_S4096 main_cst_13
  let main_v46 : FVec Ideal S4096 .f32 := mulf main_v44 main_v45
  let main_cst_14 : FVec Ideal S_ .f32 := constant S_ .f32 0x3F800000#32
  let main_v47 : FVec Ideal S4096 .f32 := broadcastInDim S4096 ![] bcast_S_S4096 main_cst_14
  let main_v48 : FVec Ideal S4096 .f32 := subf main_v47 main_v46
  let main_v49 : FVec Ideal S4096x1 .f32 := broadcastInDim S4096x1 ![0] bcast_S4096_S4096x1_0 main_v44
  let main_v50 : FVec Ideal S4096x8192 .f32 := broadcastInDim S4096x8192 ![0, 1] bcast_S4096x1_S4096x8192_0_1 main_v49
  let main_v51 : IVec S4096 32 := iotaInDim S4096 32 0
  let main_c_15 : IVec S_ 32 := constantI S_ 32 0#32
  let main_v52 : IVec S4096 32 := broadcastInDim S4096 ![] bcast_S_S4096 main_c_15
  let main_v53 : IVec S4096 1 := cmpi .slt main_v51 main_v52
  let main_c_16 : IVec S_ 32 := constantI S_ 32 4096#32
  let main_v54 : IVec S4096 32 := broadcastInDim S4096 ![] bcast_S_S4096 main_c_16
  let main_v55 : IVec S4096 32 := addi main_v51 main_v54
  let main_v56 : IVec S4096 32 := select main_v53 main_v55 main_v51
  let main_c_17 : IVec S_ 32 := constantI S_ 32 0#32
  let main_v57 : IVec S4096 32 := broadcastInDim S4096 ![] bcast_S_S4096 main_c_17
  let main_v58 : IVec S4096 1 := cmpi .slt t main_v57
  let main_c_18 : IVec S_ 32 := constantI S_ 32 8192#32
  let main_v59 : IVec S4096 32 := broadcastInDim S4096 ![] bcast_S_S4096 main_c_18
  let main_v60 : IVec S4096 32 := addi t main_v59
  let main_v61 : IVec S4096 32 := select main_v58 main_v60 t
  let main_v62 : IVec S4096x1 32 := broadcastInDim S4096x1 ![0] bcast_S4096_S4096x1_0 main_v56
  let main_v63 : IVec S4096x1 32 := broadcastInDim S4096x1 ![0] bcast_S4096_S4096x1_0 main_v61
  let main_v64 : IVec S4096x2 32 := (fun a b => concatenate S4096x2 1 [⟨S4096x1, a⟩, ⟨S4096x1, b⟩] concatenates_S4096x1_S4096x1_S4096x2_d1) main_v62 main_v63
  let main_v65 : FVec Ideal S4096x8192 .f32 := (fun x i u => Host.scatter scatter_S4096x8192_S4096x2_S4096_n_01_01_1 (fun _ b => b) x i u) main_v50 main_v64 main_v48
  main_v65

/-- The row-wise log-softmax of the logits: the operations of the call %66. -/
def refLogp (x : FVec Ideal S4096x8192 .f32) : FVec Ideal S4096x8192 .f32 :=
  let main_call4_cst : FVec Ideal S_ .f32 := constant S_ .f32 0xFF800000#32
  let main_call4_v0 : FVec Ideal S4096 .f32 := (fun x v => Host.reduce FloatOps.maximumf x v reducesTo_S4096x8192_S4096_d1 h_S_) x main_call4_cst
  let main_call4_cst_0 : FVec Ideal S_ .f32 := constant S_ .f32 0xFF800000#32
  let main_call4_v1 : FVec Ideal S4096 .f32 := broadcastInDim S4096 ![] bcast_S_S4096 main_call4_cst_0
  let main_call4_v2 : FVec Ideal S4096 .f32 := maximumf main_call4_v1 main_call4_v0
  let main_call4_v3 : FVec Ideal S4096x1 .f32 := broadcastInDim S4096x1 ![0] bcast_S4096_S4096x1_0 main_call4_v2
  let main_call4_v4 : FVec Ideal S4096x8192 .f32 := broadcastInDim S4096x8192 ![0, 1] bcast_S4096x1_S4096x8192_0_1 main_call4_v3
  let main_call4_v5 : FVec Ideal S4096x8192 .f32 := subf x main_call4_v4
  let main_call4_v6 : FVec Ideal S4096x8192 .f32 := Host.exp main_call4_v5
  let main_call4_cst_1 : FVec Ideal S_ .f32 := constant S_ .f32 0x00000000#32
  let main_call4_v7 : FVec Ideal S4096 .f32 := (fun x v => Host.reduceAdd x v reducesTo_S4096x8192_S4096_d1 h_S_) main_call4_v6 main_call4_cst_1
  let main_call4_v8 : FVec Ideal S4096x1 .f32 := broadcastInDim S4096x1 ![0] bcast_S4096_S4096x1_0 main_call4_v7
  let main_call4_v9 : FVec Ideal S4096x1 .f32 := Host.log main_call4_v8
  let main_call4_v10 : FVec Ideal S4096x8192 .f32 := broadcastInDim S4096x8192 ![0, 1] bcast_S4096x1_S4096x8192_0_1 main_call4_v9
  let main_v66 : FVec Ideal S4096x8192 .f32 := subf main_call4_v5 main_call4_v10
  main_v66

/-- The divergence summed and normalised: operations %67 … %80 over the weight matrix `w` (%65), the log-softmax
    `lp` (%66) and the lengths `l` (%24). -/
def refSum (w lp : FVec Ideal S4096x8192 .f32) (l : IVec S8 32) : FVec Ideal S_ .f32 :=
  let main_cst_19 : FVec Ideal S_ .f32 := constant S_ .f32 0x00000000#32
  let main_v67 : FVec Ideal S4096x8192 .f32 := broadcastInDim S4096x8192 ![] bcast_S_S4096x8192 main_cst_19
  let main_v68 : IVec S4096x8192 1 := cmpf .une w main_v67
  let main_v69 : IVec S4096x8192 1 := cmpf .une w w
  let main_v70 : IVec S4096x8192 1 := ori main_v68 main_v69
  let main_v71 : FVec Ideal S4096x8192 .f32 := Host.log w
  let main_v72 : FVec Ideal S4096x8192 .f32 := mulf w main_v71
  let main_cst_20 : FVec Ideal S_ .f32 := constant S_ .f32 0x00000000#32
  let main_v73 : FVec Ideal S4096x8192 .f32 := broadcastInDim S4096x8192 ![] bcast_S_S4096x8192 main_cst_20
  let main_v74 : FVec Ideal S4096x8192 .f32 := select main_v70 main_v72 main_v73
  let main_v75 : FVec Ideal S4096x8192 .f32 := mulf w lp
  let main_v76 : FVec Ideal S4096x8192 .f32 := subf main_v74 main_v75
  let main_cst_21 : FVec Ideal S_ .f32 := constant S_ .f32 0x00000000#32
  let main_v77 : FVec Ideal S_ .f32 := (fun x v => Host.reduceAdd x v reducesTo_S4096x8192_S_d0_1 h_S_) main_v76 main_cst_21
  let main_c_22 : IVec S_ 32 := constantI S_ 32 0#32
  let main_v78 : IVec S_ 32 := (fun x v => Host.reduce IntOp.addi x v reducesTo_S8_S_d0 h_S_) l main_c_22
  let main_v79 : FVec Ideal S_ .f32 := sitofp .f32 main_v78
  let main_v80 : FVec Ideal S_ .f32 := Host.divf main_v77 main_v79
  main_v80

/-- Operations %43 … %80 of the reference over the reshaped logits `x` (%0), the reshaped targets `t` (%1), the
    smoothing values `s` (%42) and the lengths `l` (%24): the weight matrix, the log-softmax, the normalised sum. -/
def refTail (x : FVec Ideal S4096x8192 .f32) (t : IVec S4096 32) (s : FVec Ideal S4096 .f32) (l : IVec S8 32) :
    FVec Ideal S_ .f32 :=
  let main_v65 : FVec Ideal S4096x8192 .f32 := refWeight t s
  let main_v66 : FVec Ideal S4096x8192 .f32 := refLogp x
  refSum main_v65 main_v66 l

open Idealize.ShloMosaic.ValueIdx
open scoped BigOperators

/-! ## Broadcasts read at an index -/

/-- A column `[4096, 1]` broadcast along the rows reads, at `(n, v)`, the column at `(n, 0)`. -/
theorem bcast_rows_apply {α : Type} (y : S4096x1.Idx → α) (n : Fin 4096) (v : Fin 8192) :
    broadcastInDim S4096x8192 ![0, 1] bcast_S4096x1_S4096x8192_0_1 y (ix2 n v) = y (ix2 n (0 : Fin 1)) :=
  broadcastInDim_apply _ _ _ _ (ix2 n (0 : Fin 1)) (fun a => by match a with | ⟨0, _⟩ => rfl | ⟨1, _⟩ => rfl)

/-- A vector `[4096]` as a column `[4096, 1]` reads, at `(n, 0)`, the vector at `n`. -/
theorem bcast_unit_apply {α : Type} (y : S4096.Idx → α) (n : Fin 4096) (c : Fin 1) :
    broadcastInDim S4096x1 ![0] bcast_S4096_S4096x1_0 y (ix2 n c) = y (ix1 n) :=
  broadcastInDim_apply _ _ _ _ (ix1 n) (fun a => by match a with | ⟨0, _⟩ => rfl)

/-- A scalar broadcast to a vector reads the scalar. -/
theorem bcast_scalar_vec_apply {α : Type} (y : S_.Idx → α) (n : Fin 4096) :
    broadcastInDim S4096 ![] bcast_S_S4096 y (ix1 n) = y ix0 :=
  broadcastInDim_scalar_apply _ _ _

/-- A scalar broadcast to the matrix reads the scalar. -/
theorem bcast_scalar_mat_apply {α : Type} (y : S_.Idx → α) (i : S4096x8192.Idx) :
    broadcastInDim S4096x8192 ![] bcast_S_S4096x8192 y i = y ix0 :=
  broadcastInDim_scalar_apply _ _ _

/-! ## Rows of the matrix -/

/-- The witness that dropping the column axis of the matrix leaves the vector of rows. -/
theorem reduces_rows : S4096x8192.Reduces [1] S4096 := by decide

/-- Row `n` with the column `k` inserted is the entry `(n, k)`. -/
theorem lift_rows (h : S4096x8192.Reduces [1] S4096) (n : Fin 4096) (k : Fin 8192) : h.lift (ix1 n) k = ix2 n k := by
  funext a
  refine Fin.ext ?_
  match a with
  | ⟨0, _⟩ => rfl
  | ⟨1, _⟩ => rfl

/-! ## The divergence summed -/

/-- One entry of the divergence: `select (w ≠ 0 ∨ w ≠ w) (w · log w) 0 - w · lp` is `xlx w - w · lp`: on the
    extended reals `w ≠ w` never holds, so the select is on `w ≠ 0` alone (`z` is the zero word's value). -/
theorem kl_entry (a b z : EReal) (hz : z = 0) :
    Scalar.select (IntOp.ori (Ideal.cmp .une a z) (Ideal.cmp .une a a)) (a * Ideal.log a) z - a * b
      = Cert.Spec.xlx a - a * b := by
  subst hz
  unfold Cert.Spec.xlx
  have h2 : Ideal.cmp .une a a = 0#1 := by simp [Ideal.cmp]
  rw [h2]
  by_cases h : a = 0
  · have h1 : Ideal.cmp .une a 0 = 0#1 := by simp [Ideal.cmp, h]
    rw [h1, if_pos h]
    rfl
  · have h1 : Ideal.cmp .une a 0 = 1#1 := by simp [Ideal.cmp, h]
    rw [h1, if_neg h]
    rfl

/-- The sum of the lengths as a float: operations %78 (with its zero initial value) and %79. -/
def refLen (l : IVec S8 32) : FVec Ideal S_ .f32 :=
  sitofp .f32 ((fun x v => Host.reduce IntOp.addi x v reducesTo_S8_S_d0 h_S_) l (constantI S_ 32 0#32))

/-- The normalised sum: the double sum of `w log w - w · lp` over rows and columns, divided by the sum of the lengths. -/
theorem refSum_eq (w lp : FVec Ideal S4096x8192 .f32) (l : IVec S8 32) :
    refSum w lp l = fun j => Ideal.div
      (∑ n : Fin 4096, ∑ v : Fin 8192, (Cert.Spec.xlx (w (ix2 n v)) - w (ix2 n v) * lp (ix2 n v))) (refLen l j) := by
  funext j
  unfold refSum
  dsimp only
  rw [hostDivf_apply, hostReduceAdd_apply, Ideal.hostReduceAdd_total _ (fun b => b.elim0), constant_apply,
    Ideal.ofBits_zero_f32, zero_add, sum_idx2]
  refine congrArg (fun a => Ideal.div a _) ?_
  refine Finset.sum_congr rfl fun n _ => Finset.sum_congr rfl fun v _ => ?_
  exact kl_entry (w (ix2 n v)) (lp (ix2 n v)) (Ideal.ofBits .f32 0x00000000#32) Ideal.ofBits_zero_f32

/-! ## The log-softmax of a row -/

/-- The host's exponential at an index. -/
theorem hostExp_apply {s : Shape} {φ : FTy} (y : FVec Ideal s φ) (i : s.Idx) : Host.exp y i = Ideal.exp (y i) := rfl
/-- The host's logarithm at an index. -/
theorem hostLog_apply {s : Shape} {φ : FTy} (y : FVec Ideal s φ) (i : s.Idx) : Host.log y i = Ideal.log (y i) := rfl

/-- The row maximum: the reduce by `maximum` from `-∞`, then the maximum with `-∞`, is the fold of `max` from `⊥`. -/
theorem rowMax_apply (x : FVec Ideal S4096x8192 .f32) (n : Fin 4096) :
    max (Ideal.ofBits .f32 0xFF800000#32)
        (Host.reduce (FloatOps.maximumf (F := Ideal) (φ := .f32)) x (constant (F := Ideal) S_ .f32 0xFF800000#32)
          reducesTo_S4096x8192_S4096_d1 h_S_ (ix1 n))
      = Cert.Spec.rowMax (fun v' => x (ix2 n v')) := by
  rw [Host.reduce_eq_fold_single _ _ _ _ reduces_rows, constant_apply, Cert.Consts.ofBits_neg_inf, max_bot_left]
  have e : x ∘ reduces_rows.lift (ix1 n) = fun k : Fin 8192 => x (ix2 n k) :=
    funext fun k => congrArg x (lift_rows _ n k)
  rw [e]
  rfl

/-- The row's sum from the zero initial value. -/
theorem rowSum_apply (y : FVec Ideal S4096x8192 .f32) (n : Fin 4096) :
    Host.reduceAdd y (constant (F := Ideal) S_ .f32 0x00000000#32) reducesTo_S4096x8192_S4096_d1 h_S_ (ix1 n)
      = ∑ k : Fin 8192, y (ix2 n k) := by
  rw [hostReduceAdd_apply, Ideal.hostReduceAdd_single _ reduces_rows, constant_apply, Ideal.ofBits_zero_f32, zero_add]
  exact Finset.sum_congr rfl fun k _ => congrArg y (lift_rows _ n k)

/-- The log-softmax at `(n, v)` is the specification's, of row `n`. -/
theorem refLogp_apply (x : FVec Ideal S4096x8192 .f32) (n : Fin 4096) (v : Fin 8192) :
    refLogp x (ix2 n v) = Cert.Spec.logp (fun v' => x (ix2 n v')) v := by
  unfold refLogp
  dsimp only
  rw [subf_apply, bcast_rows_apply, subf_apply, bcast_rows_apply, bcast_unit_apply, maximumf_apply,
    bcast_scalar_vec_apply, constant_apply, rowMax_apply]
  unfold Cert.Spec.logp Cert.Spec.rowLse
  refine congrArg (fun a => x (ix2 n v) - Cert.Spec.rowMax (fun v' => x (ix2 n v')) - a) ?_
  rw [hostLog_apply, bcast_unit_apply, rowSum_apply]
  refine congrArg Ideal.log (Finset.sum_congr rfl fun k _ => ?_)
  rw [hostExp_apply, subf_apply, bcast_rows_apply, bcast_unit_apply, maximumf_apply, bcast_scalar_vec_apply,
    constant_apply, rowMax_apply]

/-! ## A fold of point updates, and the set-scatter -/

/-- A fold of point updates leaves alone an index no update names. -/
theorem foldl_set_miss {κ ι α : Type} [DecidableEq ι] (g : κ → ι) (u : κ → α) (l : List κ) (x : ι → α) (i : ι)
    (h : ∀ k ∈ l, g k ≠ i) :
    l.foldl (fun r k => fun i' => if i' = g k then u k else r i') x i = x i := by
  induction l generalizing x with
  | nil => rfl
  | cons a l ih =>
    rw [List.foldl_cons, ih _ (fun k hk => h k (List.mem_cons_of_mem _ hk))]
    exact if_neg (fun e => h a List.mem_cons_self e.symm)

/-- A fold of point updates at pairwise distinct indices holds, at the index an update names, that update's value. -/
theorem foldl_set_hit {κ ι α : Type} [DecidableEq ι] (g : κ → ι) (u : κ → α) (l : List κ) (hnd : l.Nodup)
    (hinj : ∀ a ∈ l, ∀ b ∈ l, g a = g b → a = b) (x : ι → α) (k₀ : κ) (hk₀ : k₀ ∈ l) :
    l.foldl (fun r k => fun i' => if i' = g k then u k else r i') x (g k₀) = u k₀ := by
  induction l generalizing x with
  | nil => exact absurd hk₀ List.not_mem_nil
  | cons a l ih =>
    rw [List.foldl_cons]
    rcases List.mem_cons.mp hk₀ with rfl | hk
    · rw [foldl_set_miss g u l _ (g k₀) (fun k hk e => by
        have := hinj k (List.mem_cons_of_mem _ hk) k₀ List.mem_cons_self e
        subst this
        exact (List.nodup_cons.mp hnd).1 hk)]
      exact if_pos rfl
    · exact ih (List.nodup_cons.mp hnd).2
        (fun a ha b hb => hinj a (List.mem_cons_of_mem _ ha) b (List.mem_cons_of_mem _ hb)) _ hk

section Scatter
variable {α : Type} {s si u : Shape} {w : Nat} (d : ScatterDims s si u) (x : s.Idx → α) (idx : IVec si w)
  (upd : u.Idx → α) (ρ : u.Idx → s.Idx) (hρ : ∀ j, d.resultIdx? j idx = some (ρ j))

include hρ in
/-- A set-scatter every update of which lands inside the operand, at `ρ j`, is the fold of those point updates. -/
theorem scatter_set_eq_foldl :
    Host.scatter d (fun _ b => b) x idx upd
      = (List.finRange u.numel).foldl
          (fun r n => fun i' => if i' = ρ (u.rowMajor.symm n) then upd (u.rowMajor.symm n) else r i') x := by
  unfold Host.scatter
  congr 1
  funext r n
  rw [hρ]

include hρ in
/-- Where the updates land at pairwise distinct entries, the entry update `j` names holds update `j`. -/
theorem scatter_set_hit (hinj : Function.Injective ρ) (j : u.Idx) :
    Host.scatter d (fun _ b => b) x idx upd (ρ j) = upd j := by
  rw [scatter_set_eq_foldl d x idx upd ρ hρ]
  have h := foldl_set_hit (fun n => ρ (u.rowMajor.symm n)) (fun n => upd (u.rowMajor.symm n)) (List.finRange u.numel)
    (List.nodup_finRange _) (fun a _ b _ e => u.rowMajor.symm.injective (hinj e)) x (u.rowMajor j) (List.mem_finRange _)
  rw [Equiv.symm_apply_apply] at h
  exact h

include hρ in
/-- An entry no update names keeps the operand's value. -/
theorem scatter_set_miss (i : s.Idx) (hi : ∀ j, ρ j ≠ i) :
    Host.scatter d (fun _ b => b) x idx upd i = x i := by
  rw [scatter_set_eq_foldl d x idx upd ρ hρ]
  exact foldl_set_miss _ _ _ x i (fun n _ => hi _)

end Scatter

/-! ## The scatter of this part: one update per row, at (row, target column) -/

/-- The scatter's dimension numbers: both operand axes inserted, the index vector along axis 1 of the indices. -/
abbrev sd : ScatterDims S4096x8192 S4096x2 S4096 := scatter_S4096x8192_S4096x2_S4096_n_01_01_1

/-- Update `m` reads its row number at `(m, 0)` of the indices … -/
theorem sd_start0 (idx : IVec S4096x2 32) (m : Fin 4096) :
    sd.start (ix1 m) idx (0 : Fin 2) = (idx (ix2 m (0 : Fin 2))).toInt := by
  unfold ScatterDims.start
  rw [dif_pos (show (0 : Fin 2) ∈ sd.scatterDimsToOperandDims from List.mem_cons_self)]
  have hsi : sd.siIdx (ix1 m) ⟨List.idxOf (0 : Fin 2) sd.scatterDimsToOperandDims,
      List.idxOf_lt_length_iff.2 List.mem_cons_self⟩ = ix2 m (0 : Fin 2) := by
    funext b; refine Fin.ext ?_
    match b with
    | ⟨0, _⟩ => rfl
    | ⟨1, _⟩ => rfl
  rw [hsi]

/-- … and its column number at `(m, 1)`. -/
theorem sd_start1 (idx : IVec S4096x2 32) (m : Fin 4096) :
    sd.start (ix1 m) idx (1 : Fin 2) = (idx (ix2 m (1 : Fin 2))).toInt := by
  unfold ScatterDims.start
  rw [dif_pos (show (1 : Fin 2) ∈ sd.scatterDimsToOperandDims from List.mem_cons_of_mem _ List.mem_cons_self)]
  have hsi : sd.siIdx (ix1 m) ⟨List.idxOf (1 : Fin 2) sd.scatterDimsToOperandDims,
      List.idxOf_lt_length_iff.2 (List.mem_cons_of_mem _ List.mem_cons_self)⟩ = ix2 m (1 : Fin 2) := by
    funext b; refine Fin.ext ?_
    match b with
    | ⟨0, _⟩ => rfl
    | ⟨1, _⟩ => rfl
  rw [hsi]

/-- The update is one element: no window coordinate on either axis. -/
theorem sd_window (j : S4096.Idx) (a : Fin 2) : sd.window j a = 0 := by
  unfold ScatterDims.window
  exact dif_neg (by revert a; decide)

/-- With the row number and an in-range column `c m` as update `m`'s index vector, the update lands at `(m, c m)`. -/
theorem sd_resultIdx (idx : IVec S4096x2 32) (c : Fin 4096 → Fin 8192)
    (h0 : ∀ m : Fin 4096, (idx (ix2 m (0 : Fin 2))).toInt = (m.val : Int))
    (h1 : ∀ m : Fin 4096, (idx (ix2 m (1 : Fin 2))).toInt = ((c m).val : Int)) (m : Fin 4096) :
    sd.resultIdx? (ix1 m) idx = some (ix2 m (c m)) := by
  have hs0 := (sd_start0 idx m).trans (h0 m)
  have hs1 := (sd_start1 idx m).trans (h1 m)
  have hm := m.isLt
  have hc := (c m).isLt
  unfold ScatterDims.resultIdx?
  have hall : ∀ a : Fin 2, 0 ≤ sd.start (ix1 m) idx a + (sd.window (ix1 m) a : Int)
      ∧ sd.start (ix1 m) idx a + (sd.window (ix1 m) a : Int) < (S4096x8192.size a : Int) := by
    intro a
    rw [sd_window]
    match a with
    | ⟨0, _⟩ =>
      show 0 ≤ sd.start (ix1 m) idx (0 : Fin 2) + ((0 : Nat) : Int) ∧ sd.start (ix1 m) idx (0 : Fin 2) + ((0 : Nat) : Int) < ((4096 : Nat) : Int)
      rw [hs0]; omega
    | ⟨1, _⟩ =>
      show 0 ≤ sd.start (ix1 m) idx (1 : Fin 2) + ((0 : Nat) : Int) ∧ sd.start (ix1 m) idx (1 : Fin 2) + ((0 : Nat) : Int) < ((8192 : Nat) : Int)
      rw [hs1]; omega
  rw [dif_pos hall]
  refine congrArg some (funext fun a => Fin.ext ?_)
  match a with
  | ⟨0, _⟩ =>
    show (sd.start (ix1 m) idx (0 : Fin 2) + ((sd.window (ix1 m) (0 : Fin 2) : Nat) : Int)).toNat = m.val
    rw [hs0, sd_window]; omega
  | ⟨1, _⟩ =>
    show (sd.start (ix1 m) idx (1 : Fin 2) + ((sd.window (ix1 m) (1 : Fin 2) : Nat) : Int)).toNat = (c m).val
    rw [hs1, sd_window]; omega

/-! ## The index vectors: the row number and the target, normalised -/

/-- A row number is not negative, so its normalisation (a negative index is shifted by the extent) leaves it: the
    word reads as the row number. -/
theorem norm_row (m : Fin 4096) :
    (Scalar.select (IntOp.cmpi .slt (BitVec.ofNat 32 m.val) 0#32) (IntOp.addi (BitVec.ofNat 32 m.val) 4096#32)
      (BitVec.ofNat 32 m.val)).toInt = (m.val : Int) := by
  have hm : m.val < 2 ^ 31 := by have := m.isLt; omega
  have hc : IntOp.cmpi .slt (BitVec.ofNat 32 m.val) 0#32 = 0#1 := by
    refine eq_zero_of_ne_one fun h => ?_
    have h' := (StableHlo.Predicate.slt_ofNat_iff m.val 0 hm (by decide)).mp h
    omega
  rw [hc, select_zero]
  exact StableHlo.Predicate.toInt_ofNat_small _ hm

/-- A target that is not negative is left by its normalisation. -/
theorem norm_col (a : BitVec 32) (h : 0 ≤ a.toInt) :
    Scalar.select (IntOp.cmpi .slt a 0#32) (IntOp.addi a 8192#32) a = a := by
  have hc : IntOp.cmpi .slt a 0#32 = 0#1 := by
    refine eq_zero_of_ne_one fun h1 => ?_
    unfold IntOp.cmpi at h1
    rw [StableHlo.Predicate.ofBool_eq_one_iff] at h1
    simp only [BitVec.slt, decide_eq_true_eq] at h1
    have h0 : (0#32 : BitVec 32).toInt = 0 := by decide
    omega
  rw [hc, select_zero]

/-- A word in `[0, 8192)` read signed is its value reduced below 8192. -/
theorem toNat_mod_of_range (a : BitVec 32) (h0 : 0 ≤ a.toInt) (h1 : a.toInt < 8192) :
    ((a.toNat % 8192 : Nat) : Int) = a.toInt := by
  have := a.isLt
  rw [BitVec.toInt_eq_toNat_cond] at h0 h1 ⊢
  split_ifs at h0 h1 ⊢ <;> omega

/-- THE SCATTER READ AT `(n, v)`: with the row number and an in-range column `c m` as update `m`'s index vector, no
    two updates land on one entry (they are in different rows), so entry `(n, v)` holds update `n` where `v = c n`
    and the operand's value elsewhere. -/
theorem scatter_rows_apply {α : Type} (X : S4096x8192.Idx → α) (idx : IVec S4096x2 32) (U : S4096.Idx → α)
    (c : Fin 4096 → Fin 8192)
    (h0 : ∀ m : Fin 4096, (idx (ix2 m (0 : Fin 2))).toInt = (m.val : Int))
    (h1 : ∀ m : Fin 4096, (idx (ix2 m (1 : Fin 2))).toInt = ((c m).val : Int)) (n : Fin 4096) (v : Fin 8192) :
    Host.scatter sd (fun _ b => b) X idx U (ix2 n v) = if v = c n then U (ix1 n) else X (ix2 n v) := by
  have hρ : ∀ j : S4096.Idx, sd.resultIdx? j idx = some (ix2 (j 0) (c (j 0))) := fun j => by
    obtain ⟨m, rfl⟩ : ∃ m : Fin 4096, j = ix1 m := ⟨j 0, eq_ix1 j⟩
    exact sd_resultIdx idx c h0 h1 m
  have hinj : Function.Injective (fun j : S4096.Idx => ix2 (j 0) (c (j 0))) := fun j j' e => by
    have e0 : j 0 = j' 0 := congrFun e (0 : Fin 2)
    exact (eq_ix1 j).trans ((congrArg ix1 e0).trans (eq_ix1 j').symm)
  by_cases hv : v = c n
  · subst hv
    rw [if_pos rfl]
    exact scatter_set_hit sd X idx U _ hρ hinj (ix1 n)
  · rw [if_neg hv]
    refine scatter_set_miss sd X idx U _ hρ (ix2 n v) (fun j e => hv ?_)
    have e0 : j 0 = n := congrFun e (0 : Fin 2)
    have e1 : c (j 0) = v := congrFun e (1 : Fin 2)
    rw [← e1, e0]

/-! ## The weight matrix -/

/-- The target column of row `n`: the word `t n` read as a natural number (reduced below 8192, which changes
    nothing for a target in range). -/
def tcol (t : IVec S4096 32) (n : Fin 4096) : Fin 8192 := ⟨(t (ix1 n)).toNat % 8192, Nat.mod_lt _ (by decide)⟩

/-- For a target in range the column is the word's value. -/
theorem tcol_val (t : IVec S4096 32) (ht : ∀ n : Fin 4096, 0 ≤ (t (ix1 n)).toInt ∧ (t (ix1 n)).toInt < 8192)
    (n : Fin 4096) : ((tcol t n).val : Int) = (t (ix1 n)).toInt :=
  toNat_mod_of_range _ (ht n).1 (ht n).2

/-- The weight matrix at `(n, v)`: the target weight on the target column, the off-target weight elsewhere. -/
theorem refWeight_apply (t : IVec S4096 32) (s : FVec Ideal S4096 .f32)
    (ht : ∀ n : Fin 4096, 0 ≤ (t (ix1 n)).toInt ∧ (t (ix1 n)).toInt < 8192) (n : Fin 4096) (v : Fin 8192) :
    refWeight t s (ix2 n v) = Cert.Spec.weight (tcol t n) (s (ix1 n)) v := by
  unfold refWeight
  dsimp only
  refine (scatter_rows_apply _ _ _ (tcol t) ?_ ?_ n v).trans ?_
  · intro m
    rw [concatenate_pair_apply_left (t := S4096x2) (s₁ := S4096x1) (s₂ := S4096x1) (1 : Fin 2) _ _
      concatenates_S4096x1_S4096x1_S4096x2_d1 (ix2 m (0 : Fin 2)) rfl
      (ix2 m (0 : Fin 1)) (fun b => by match b with | ⟨0, _⟩ => rfl | ⟨1, _⟩ => rfl), bcast_unit_apply]
    exact norm_row m
  · intro m
    rw [concatenate_pair_apply_right (t := S4096x2) (s₁ := S4096x1) (s₂ := S4096x1) (1 : Fin 2) _ _
      concatenates_S4096x1_S4096x1_S4096x2_d1 (ix2 m (1 : Fin 2)) rfl rfl
      (ix2 m (0 : Fin 1)) (fun b hb => by
        match b, hb with
        | ⟨0, _⟩, _ => rfl
        | ⟨1, _⟩, hb => exact absurd rfl hb) rfl, bcast_unit_apply]
    exact (congrArg BitVec.toInt (norm_col (t (ix1 m)) (ht m).1)).trans (tcol_val t ht m).symm
  · unfold Cert.Spec.weight Cert.Spec.src Cert.Spec.off
    rw [bcast_rows_apply, bcast_unit_apply, subf_apply, mulf_apply, hostDivf_apply, bcast_scalar_vec_apply,
      bcast_scalar_vec_apply, bcast_scalar_vec_apply, constant_apply, constant_apply, constant_apply,
      Cert.Consts.ofBits_one, Cert.Consts.ofBits_8191, Cert.Consts.ofBits_8192, EReal.coe_one]

/-! ## The reference's value -/

/-- THE REFERENCE'S VALUE: the sum over rows and columns of the specification's entries, divided by the sum of the lengths. -/
theorem refTail_eq (x : FVec Ideal S4096x8192 .f32) (t : IVec S4096 32) (s : FVec Ideal S4096 .f32) (l : IVec S8 32)
    (ht : ∀ n : Fin 4096, 0 ≤ (t (ix1 n)).toInt ∧ (t (ix1 n)).toInt < 8192) :
    refTail x t s l = fun j => Ideal.div
      (∑ n : Fin 4096, ∑ v : Fin 8192, Cert.Spec.entry (fun v' => x (ix2 n v')) (tcol t n) (s (ix1 n)) v) (refLen l j) := by
  rw [refTail, refSum_eq]
  funext j
  refine congrArg (fun a => Ideal.div a (refLen l j)) ?_
  refine Finset.sum_congr rfl fun n _ => Finset.sum_congr rfl fun v _ => ?_
  rw [refWeight_apply t s ht n v, refLogp_apply x n v]
  rfl

end Cert.ReferenceIdeal.RefTail

end
-- ==== Proof.RefRun.lean ====
/-
  The reference's run: @main as the straight line of its 128 host operations, the calls unfolded at their
  call sites, and what the result buffer holds once they have run, as a pure term of the arguments' contents.
-/
import proofs.«414440_j2113123910203_3_alg».proof.Proof.Gen.ReferenceIdeal
import Idealize.ShloMosaic.Lib.StableHlo.Run
import Idealize.ShloMosaic.PureOps.Ideal
import proofs.«414440_j2113123910203_3_alg».proof.Proof.RefChain
import proofs.«414440_j2113123910203_3_alg».proof.Proof.RefTail

set_option Elab.async false

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The last entry of a vector in front of the others: the two pieces of a roll by one, joined. -/
def catRoll32 (a : IVec S1 32) (b : IVec S4095 32) : IVec S4096 32 :=
  concatenate S4096 0 [⟨S1, a⟩, ⟨S4095, b⟩] concatenates_S1_S4095_S4096_d0
@[inherit_doc catRoll32]
def catRoll1 (a : IVec S1 1) (b : IVec S4095 1) : IVec S4096 1 :=
  concatenate S4096 0 [⟨S1, a⟩, ⟨S4095, b⟩] concatenates_S1_S4095_S4096_d0
/-- Two index columns side by side. -/
def catPair (a b : IVec S4096x1 32) : IVec S4096x2 32 :=
  concatenate S4096x2 1 [⟨S4096x1, a⟩, ⟨S4096x1, b⟩] concatenates_S4096x1_S4096x1_S4096x2_d1

/-- The two reshapes: the logits as 4096 rows, the targets as 4096 entries. Operations 1 … 2 of 128. -/
abbrev opsA : List (HloOp τ sig (Elt F)) :=
  [ StableHlo.reshape main_arg0 main_v0 rfl shapeCasts_S8x512x8192_S4096x8192,
    StableHlo.reshape main_arg2 main_v1 rfl shapeCasts_S8x512_S4096 ]

/-- The transition entry of each row: the previous target (rolled, the first row's set to 4095), both indices normalised, the gather. Operations 3 … 37 of 128. -/
abbrev opsB : List (HloOp τ sig (Elt F)) :=
  [ StableHlo.nullary main_c (constantI S_ 32 1#32),
    StableHlo.unary main_c main_v2 (broadcastInDim S4096 ![] bcast_S_S4096 : (⟨S_, .i32⟩ : BufTy).Contents (Elt F) → (⟨S4096, .i32⟩ : BufTy).Contents (Elt F)),
    StableHlo.binary main_v1 main_v2 main_v3 (cmpi .eq : (⟨S4096, .i32⟩ : BufTy).Contents (Elt F) → (⟨S4096, .i32⟩ : BufTy).Contents (Elt F) → (⟨S4096, .i1⟩ : BufTy).Contents (Elt F)),
    StableHlo.TRef.unary (TRef.of (T := ⟨S4096, .i32⟩) main_v1) main_call0.v0 (extractStridedSlice S1 ![4095] · slices_S4096_S1_4095),
    StableHlo.TRef.unary (TRef.of (T := ⟨S4096, .i32⟩) main_v1) main_call0.v1 (extractStridedSlice S4095 ![0] · slices_S4096_S4095_0),
    StableHlo.TRef.binary main_call0.v0 main_call0.v1 main_call0.v2 catRoll32,
    StableHlo.TRef.unary (TRef.of (T := ⟨S4096, .i1⟩) main_v3) main_call1.v0 (extractStridedSlice S1 ![4095] · slices_S4096_S1_4095),
    StableHlo.TRef.unary (TRef.of (T := ⟨S4096, .i1⟩) main_v3) main_call1.v1 (extractStridedSlice S4095 ![0] · slices_S4096_S4095_0),
    StableHlo.TRef.binary main_call1.v0 main_call1.v1 main_call1.v2 catRoll1,
    StableHlo.nullary main_c_0 (constantI S_ 32 0#32),
    StableHlo.unary main_c_0 main_v6 (broadcastInDim S1 ![] bcast_S_S1 : (⟨S_, .i32⟩ : BufTy).Contents (Elt F) → (⟨S1, .i32⟩ : BufTy).Contents (Elt F)),
    StableHlo.nullary main_c_1 (constantI S_ 1 1#1),
    StableHlo.ternary main_v5 main_v6 main_c_1 main_v7 ((fun x i u => Host.scatter scatter_S4096_S1_S__n_0_0_0 (fun _ b => b) x i u) : (⟨S4096, .i1⟩ : BufTy).Contents (Elt F) → (⟨S1, .i32⟩ : BufTy).Contents (Elt F) → (⟨S_, .i1⟩ : BufTy).Contents (Elt F) → (⟨S4096, .i1⟩ : BufTy).Contents (Elt F)),
    StableHlo.nullary main_c_2 (constantI S_ 32 4095#32),
    StableHlo.TRef.unary (TRef.of (T := ⟨S_, .i32⟩) main_c_2) main_call2.v0 id,
    StableHlo.TRef.unary main_call2.v0 main_call2.v1 (broadcastInDim S4096 ![] bcast_S_S4096),
    StableHlo.TRef.ternary (TRef.of (T := ⟨S4096, .i1⟩) main_v7) main_call2.v1 (TRef.of (T := ⟨S4096, .i32⟩) main_v4) main_call2.v2 select,
    StableHlo.nullary main_c_3 (constantI S_ 32 0#32),
    StableHlo.unary main_c_3 main_v9 (broadcastInDim S4096 ![] bcast_S_S4096 : (⟨S_, .i32⟩ : BufTy).Contents (Elt F) → (⟨S4096, .i32⟩ : BufTy).Contents (Elt F)),
    StableHlo.binary main_v8 main_v9 main_v10 (cmpi .slt : (⟨S4096, .i32⟩ : BufTy).Contents (Elt F) → (⟨S4096, .i32⟩ : BufTy).Contents (Elt F) → (⟨S4096, .i1⟩ : BufTy).Contents (Elt F)),
    StableHlo.nullary main_c_4 (constantI S_ 32 8192#32),
    StableHlo.unary main_c_4 main_v11 (broadcastInDim S4096 ![] bcast_S_S4096 : (⟨S_, .i32⟩ : BufTy).Contents (Elt F) → (⟨S4096, .i32⟩ : BufTy).Contents (Elt F)),
    StableHlo.binary main_v8 main_v11 main_v12 (addi : (⟨S4096, .i32⟩ : BufTy).Contents (Elt F) → (⟨S4096, .i32⟩ : BufTy).Contents (Elt F) → (⟨S4096, .i32⟩ : BufTy).Contents (Elt F)),
    StableHlo.ternary main_v10 main_v12 main_v8 main_v13 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_5 (constantI S_ 32 0#32),
    StableHlo.unary main_c_5 main_v14 (broadcastInDim S4096 ![] bcast_S_S4096 : (⟨S_, .i32⟩ : BufTy).Contents (Elt F) → (⟨S4096, .i32⟩ : BufTy).Contents (Elt F)),
    StableHlo.binary main_v1 main_v14 main_v15 (cmpi .slt : (⟨S4096, .i32⟩ : BufTy).Contents (Elt F) → (⟨S4096, .i32⟩ : BufTy).Contents (Elt F) → (⟨S4096, .i1⟩ : BufTy).Contents (Elt F)),
    StableHlo.nullary main_c_6 (constantI S_ 32 8192#32),
    StableHlo.unary main_c_6 main_v16 (broadcastInDim S4096 ![] bcast_S_S4096 : (⟨S_, .i32⟩ : BufTy).Contents (Elt F) → (⟨S4096, .i32⟩ : BufTy).Contents (Elt F)),
    StableHlo.binary main_v1 main_v16 main_v17 (addi : (⟨S4096, .i32⟩ : BufTy).Contents (Elt F) → (⟨S4096, .i32⟩ : BufTy).Contents (Elt F) → (⟨S4096, .i32⟩ : BufTy).Contents (Elt F)),
    StableHlo.ternary main_v15 main_v17 main_v1 main_v18 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v13 main_v19 (broadcastInDim S4096x1 ![0] bcast_S4096_S4096x1_0 : (⟨S4096, .i32⟩ : BufTy).Contents (Elt F) → (⟨S4096x1, .i32⟩ : BufTy).Contents (Elt F)),
    StableHlo.unary main_v18 main_v20 (broadcastInDim S4096x1 ![0] bcast_S4096_S4096x1_0 : (⟨S4096, .i32⟩ : BufTy).Contents (Elt F) → (⟨S4096x1, .i32⟩ : BufTy).Contents (Elt F)),
    StableHlo.binary main_v19 main_v20 main_v21 (catPair : (⟨S4096x1, .i32⟩ : BufTy).Contents (Elt F) → (⟨S4096x1, .i32⟩ : BufTy).Contents (Elt F) → (⟨S4096x2, .i32⟩ : BufTy).Contents (Elt F)),
    StableHlo.binary main_arg1 main_v21 main_v22 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)) ]

/-- The lengths plus one and the per-sequence rate `1 - 0.9 ^ (1 / (length + 1))`. Operations 38 … 50 of 128. -/
abbrev opsC : List (HloOp τ sig (Elt F)) :=
  [ StableHlo.nullary main_c_7 (constantI S_ 32 1#32),
    StableHlo.unary main_c_7 main_v23 (broadcastInDim S8 ![] bcast_S_S8 : (⟨S_, .i32⟩ : BufTy).Contents (Elt F) → (⟨S8, .i32⟩ : BufTy).Contents (Elt F)),
    StableHlo.binary main_arg3 main_v23 main_v24 (addi : (⟨S8, .i32⟩ : BufTy).Contents (Elt F) → (⟨S8, .i32⟩ : BufTy).Contents (Elt F) → (⟨S8, .i32⟩ : BufTy).Contents (Elt F)),
    StableHlo.unary main_v24 main_v25 (sitofp .f32 : (⟨S8, .i32⟩ : BufTy).Contents (Elt F) → (⟨S8, .f32⟩ : BufTy).Contents (Elt F)),
    StableHlo.nullary main_cst (constant S_ .f32 0x3F800000#32),
    StableHlo.unary main_cst main_v26 (broadcastInDim S8 ![] bcast_S_S8 : (⟨S_, .f32⟩ : BufTy).Contents (Elt F) → (⟨S8, .f32⟩ : BufTy).Contents (Elt F)),
    StableHlo.binary main_v26 main_v25 main_v27 (Host.divf : (⟨S8, .f32⟩ : BufTy).Contents (Elt F) → (⟨S8, .f32⟩ : BufTy).Contents (Elt F) → (⟨S8, .f32⟩ : BufTy).Contents (Elt F)),
    StableHlo.nullary main_cst_8 (constant S_ .f32 0x3F666666#32),
    StableHlo.unary main_cst_8 main_v28 (broadcastInDim S8 ![] bcast_S_S8 : (⟨S_, .f32⟩ : BufTy).Contents (Elt F) → (⟨S8, .f32⟩ : BufTy).Contents (Elt F)),
    StableHlo.binary main_v28 main_v27 main_v29 (Host.powf : (⟨S8, .f32⟩ : BufTy).Contents (Elt F) → (⟨S8, .f32⟩ : BufTy).Contents (Elt F) → (⟨S8, .f32⟩ : BufTy).Contents (Elt F)),
    StableHlo.nullary main_cst_9 (constant S_ .f32 0x3F800000#32),
    StableHlo.unary main_cst_9 main_v30 (broadcastInDim S8 ![] bcast_S_S8 : (⟨S_, .f32⟩ : BufTy).Contents (Elt F) → (⟨S8, .f32⟩ : BufTy).Contents (Elt F)),
    StableHlo.binary main_v30 main_v29 main_v31 (subf : (⟨S8, .f32⟩ : BufTy).Contents (Elt F) → (⟨S8, .f32⟩ : BufTy).Contents (Elt F) → (⟨S8, .f32⟩ : BufTy).Contents (Elt F)) ]

/-- The sequence of each row (a running count of the rows whose target is 1), the rate gathered by it, times the transition entry. Operations 51 … 65 of 128. -/
abbrev opsD : List (HloOp τ sig (Elt F)) :=
  [ StableHlo.unary main_v3 main_v32 ((extui 32 · natLt_1_32) : (⟨S4096, .i1⟩ : BufTy).Contents (Elt F) → (⟨S4096, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (TRef.of (T := ⟨S4096, .i32⟩) main_v32) main_call3.call0.v0 main_call3.call0.v1 (fun x v => Host.reduceWindow IntOp.addi ![4096] ![1] ![4095] ![0] x v reduceWindows_S4096_S4096_w4096s1p4095_0 h_S_),
    StableHlo.binary main_v33 main_v32 main_v34 (subi : (⟨S4096, .i32⟩ : BufTy).Contents (Elt F) → (⟨S4096, .i32⟩ : BufTy).Contents (Elt F) → (⟨S4096, .i32⟩ : BufTy).Contents (Elt F)),
    StableHlo.nullary main_c_10 (constantI S_ 32 0#32),
    StableHlo.unary main_c_10 main_v35 (broadcastInDim S4096 ![] bcast_S_S4096 : (⟨S_, .i32⟩ : BufTy).Contents (Elt F) → (⟨S4096, .i32⟩ : BufTy).Contents (Elt F)),
    StableHlo.binary main_v34 main_v35 main_v36 (cmpi .slt : (⟨S4096, .i32⟩ : BufTy).Contents (Elt F) → (⟨S4096, .i32⟩ : BufTy).Contents (Elt F) → (⟨S4096, .i1⟩ : BufTy).Contents (Elt F)),
    StableHlo.nullary main_c_11 (constantI S_ 32 8#32),
    StableHlo.unary main_c_11 main_v37 (broadcastInDim S4096 ![] bcast_S_S4096 : (⟨S_, .i32⟩ : BufTy).Contents (Elt F) → (⟨S4096, .i32⟩ : BufTy).Contents (Elt F)),
    StableHlo.binary main_v34 main_v37 main_v38 (addi : (⟨S4096, .i32⟩ : BufTy).Contents (Elt F) → (⟨S4096, .i32⟩ : BufTy).Contents (Elt F) → (⟨S4096, .i32⟩ : BufTy).Contents (Elt F)),
    StableHlo.ternary main_v36 main_v38 main_v34 main_v39 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v39 main_v40 (broadcastInDim S4096x1 ![0] bcast_S4096_S4096x1_0 : (⟨S4096, .i32⟩ : BufTy).Contents (Elt F) → (⟨S4096x1, .i32⟩ : BufTy).Contents (Elt F)),
    StableHlo.binary main_v31 main_v40 main_v41 ((fun x i => Host.gather gather_S8_S4096x1_S4096_n_0_n_n_0_1_1 x i) : (⟨S8, .f32⟩ : BufTy).Contents (Elt F) → (⟨S4096x1, .i32⟩ : BufTy).Contents (Elt F) → (⟨S4096, .f32⟩ : BufTy).Contents (Elt F)),
    StableHlo.binary main_v41 main_v22 main_v42 (mulf : (⟨S4096, .f32⟩ : BufTy).Contents (Elt F) → (⟨S4096, .f32⟩ : BufTy).Contents (Elt F) → (⟨S4096, .f32⟩ : BufTy).Contents (Elt F)) ]

/-- The off-target weight: the smoothing value over 8191. Operations 66 … 68 of 128. -/
abbrev opsE1 : List (HloOp τ sig (Elt F)) :=
  [ StableHlo.nullary main_cst_12 (constant S_ .f32 0x45FFF800#32),
    StableHlo.unary main_cst_12 main_v43 (broadcastInDim S4096 ![] bcast_S_S4096 : (⟨S_, .f32⟩ : BufTy).Contents (Elt F) → (⟨S4096, .f32⟩ : BufTy).Contents (Elt F)),
    StableHlo.binary main_v42 main_v43 main_v44 (Host.divf : (⟨S4096, .f32⟩ : BufTy).Contents (Elt F) → (⟨S4096, .f32⟩ : BufTy).Contents (Elt F) → (⟨S4096, .f32⟩ : BufTy).Contents (Elt F)) ]

/-- The target weight and the weight matrix: the off-target weight along each row, the target weight scattered at the target. Operations 69 … 95 of 128. -/
abbrev opsE2 : List (HloOp τ sig (Elt F)) :=
  [ StableHlo.nullary main_cst_13 (constant S_ .f32 0x46000000#32),
    StableHlo.unary main_cst_13 main_v45 (broadcastInDim S4096 ![] bcast_S_S4096 : (⟨S_, .f32⟩ : BufTy).Contents (Elt F) → (⟨S4096, .f32⟩ : BufTy).Contents (Elt F)),
    StableHlo.binary main_v44 main_v45 main_v46 (mulf : (⟨S4096, .f32⟩ : BufTy).Contents (Elt F) → (⟨S4096, .f32⟩ : BufTy).Contents (Elt F) → (⟨S4096, .f32⟩ : BufTy).Contents (Elt F)),
    StableHlo.nullary main_cst_14 (constant S_ .f32 0x3F800000#32),
    StableHlo.unary main_cst_14 main_v47 (broadcastInDim S4096 ![] bcast_S_S4096 : (⟨S_, .f32⟩ : BufTy).Contents (Elt F) → (⟨S4096, .f32⟩ : BufTy).Contents (Elt F)),
    StableHlo.binary main_v47 main_v46 main_v48 (subf : (⟨S4096, .f32⟩ : BufTy).Contents (Elt F) → (⟨S4096, .f32⟩ : BufTy).Contents (Elt F) → (⟨S4096, .f32⟩ : BufTy).Contents (Elt F)),
    StableHlo.unary main_v44 main_v49 (broadcastInDim S4096x1 ![0] bcast_S4096_S4096x1_0 : (⟨S4096, .f32⟩ : BufTy).Contents (Elt F) → (⟨S4096x1, .f32⟩ : BufTy).Contents (Elt F)),
    StableHlo.unary main_v49 main_v50 (broadcastInDim S4096x8192 ![0, 1] bcast_S4096x1_S4096x8192_0_1 : (⟨S4096x1, .f32⟩ : BufTy).Contents (Elt F) → (⟨S4096x8192, .f32⟩ : BufTy).Contents (Elt F)),
    StableHlo.nullary main_v51 (iotaInDim S4096 32 0),
    StableHlo.nullary main_c_15 (constantI S_ 32 0#32),
    StableHlo.unary main_c_15 main_v52 (broadcastInDim S4096 ![] bcast_S_S4096 : (⟨S_, .i32⟩ : BufTy).Contents (Elt F) → (⟨S4096, .i32⟩ : BufTy).Contents (Elt F)),
    StableHlo.binary main_v51 main_v52 main_v53 (cmpi .slt : (⟨S4096, .i32⟩ : BufTy).Contents (Elt F) → (⟨S4096, .i32⟩ : BufTy).Contents (Elt F) → (⟨S4096, .i1⟩ : BufTy).Contents (Elt F)),
    StableHlo.nullary main_c_16 (constantI S_ 32 4096#32),
    StableHlo.unary main_c_16 main_v54 (broadcastInDim S4096 ![] bcast_S_S4096 : (⟨S_, .i32⟩ : BufTy).Contents (Elt F) → (⟨S4096, .i32⟩ : BufTy).Contents (Elt F)),
    StableHlo.binary main_v51 main_v54 main_v55 (addi : (⟨S4096, .i32⟩ : BufTy).Contents (Elt F) → (⟨S4096, .i32⟩ : BufTy).Contents (Elt F) → (⟨S4096, .i32⟩ : BufTy).Contents (Elt F)),
    StableHlo.ternary main_v53 main_v55 main_v51 main_v56 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_17 (constantI S_ 32 0#32),
    StableHlo.unary main_c_17 main_v57 (broadcastInDim S4096 ![] bcast_S_S4096 : (⟨S_, .i32⟩ : BufTy).Contents (Elt F) → (⟨S4096, .i32⟩ : BufTy).Contents (Elt F)),
    StableHlo.binary main_v1 main_v57 main_v58 (cmpi .slt : (⟨S4096, .i32⟩ : BufTy).Contents (Elt F) → (⟨S4096, .i32⟩ : BufTy).Contents (Elt F) → (⟨S4096, .i1⟩ : BufTy).Contents (Elt F)),
    StableHlo.nullary main_c_18 (constantI S_ 32 8192#32),
    StableHlo.unary main_c_18 main_v59 (broadcastInDim S4096 ![] bcast_S_S4096 : (⟨S_, .i32⟩ : BufTy).Contents (Elt F) → (⟨S4096, .i32⟩ : BufTy).Contents (Elt F)),
    StableHlo.binary main_v1 main_v59 main_v60 (addi : (⟨S4096, .i32⟩ : BufTy).Contents (Elt F) → (⟨S4096, .i32⟩ : BufTy).Contents (Elt F) → (⟨S4096, .i32⟩ : BufTy).Contents (Elt F)),
    StableHlo.ternary main_v58 main_v60 main_v1 main_v61 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v56 main_v62 (broadcastInDim S4096x1 ![0] bcast_S4096_S4096x1_0 : (⟨S4096, .i32⟩ : BufTy).Contents (Elt F) → (⟨S4096x1, .i32⟩ : BufTy).Contents (Elt F)),
    StableHlo.unary main_v61 main_v63 (broadcastInDim S4096x1 ![0] bcast_S4096_S4096x1_0 : (⟨S4096, .i32⟩ : BufTy).Contents (Elt F) → (⟨S4096x1, .i32⟩ : BufTy).Contents (Elt F)),
    StableHlo.binary main_v62 main_v63 main_v64 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.ternary main_v50 main_v64 main_v48 main_v65 ((fun x i u => Host.scatter scatter_S4096x8192_S4096x2_S4096_n_01_01_1 (fun _ b => b) x i u) : (⟨S4096x8192, .f32⟩ : BufTy).Contents (Elt F) → (⟨S4096x2, .i32⟩ : BufTy).Contents (Elt F) → (⟨S4096, .f32⟩ : BufTy).Contents (Elt F) → (⟨S4096x8192, .f32⟩ : BufTy).Contents (Elt F)) ]

/-- The row-wise log-softmax of the logits. Operations 96 … 110 of 128. -/
abbrev opsFn : List (HloOp τ sig (Elt F)) :=
  [ StableHlo.TRef.nullary main_call4.cst (constant S_ .f32 0xFF800000#32),
    StableHlo.TRef.binary (TRef.of (T := ⟨S4096x8192, .f32⟩) main_v0) main_call4.cst main_call4.v0 (fun x v => Host.reduce FloatOps.maximumf x v reducesTo_S4096x8192_S4096_d1 h_S_),
    StableHlo.TRef.nullary main_call4.cst_0 (constant S_ .f32 0xFF800000#32),
    StableHlo.TRef.unary main_call4.cst_0 main_call4.v1 (broadcastInDim S4096 ![] bcast_S_S4096),
    StableHlo.TRef.binary main_call4.v1 main_call4.v0 main_call4.v2 maximumf,
    StableHlo.TRef.unary main_call4.v2 main_call4.v3 (broadcastInDim S4096x1 ![0] bcast_S4096_S4096x1_0),
    StableHlo.TRef.unary main_call4.v3 main_call4.v4 (broadcastInDim S4096x8192 ![0, 1] bcast_S4096x1_S4096x8192_0_1),
    StableHlo.TRef.binary (TRef.of (T := ⟨S4096x8192, .f32⟩) main_v0) main_call4.v4 main_call4.v5 subf,
    StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S4096x8192_S4096_d1 h_S_),
    StableHlo.TRef.unary main_call4.v7 main_call4.v8 (broadcastInDim S4096x1 ![0] bcast_S4096_S4096x1_0),
    StableHlo.TRef.unary main_call4.v8 main_call4.v9 Host.log,
    StableHlo.TRef.unary main_call4.v9 main_call4.v10 (broadcastInDim S4096x8192 ![0, 1] bcast_S4096x1_S4096x8192_0_1),
    StableHlo.TRef.binary main_call4.v5 main_call4.v10 main_call4.v11 subf ]

/-- The divergence summed over all entries, over the sum of the lengths. Operations 111 … 128 of 128. -/
abbrev opsG : List (HloOp τ sig (Elt F)) :=
  [ StableHlo.nullary main_cst_19 (constant S_ .f32 0x00000000#32),
    StableHlo.unary main_cst_19 main_v67 (broadcastInDim S4096x8192 ![] bcast_S_S4096x8192 : (⟨S_, .f32⟩ : BufTy).Contents (Elt F) → (⟨S4096x8192, .f32⟩ : BufTy).Contents (Elt F)),
    StableHlo.binary main_v65 main_v67 main_v68 (cmpf .une : (⟨S4096x8192, .f32⟩ : BufTy).Contents (Elt F) → (⟨S4096x8192, .f32⟩ : BufTy).Contents (Elt F) → (⟨S4096x8192, .i1⟩ : BufTy).Contents (Elt F)),
    StableHlo.binary main_v65 main_v65 main_v69 (cmpf .une : (⟨S4096x8192, .f32⟩ : BufTy).Contents (Elt F) → (⟨S4096x8192, .f32⟩ : BufTy).Contents (Elt F) → (⟨S4096x8192, .i1⟩ : BufTy).Contents (Elt F)),
    StableHlo.binary main_v68 main_v69 main_v70 (ori : (⟨S4096x8192, .i1⟩ : BufTy).Contents (Elt F) → (⟨S4096x8192, .i1⟩ : BufTy).Contents (Elt F) → (⟨S4096x8192, .i1⟩ : BufTy).Contents (Elt F)),
    StableHlo.unary main_v65 main_v71 (Host.log : (⟨S4096x8192, .f32⟩ : BufTy).Contents (Elt F) → (⟨S4096x8192, .f32⟩ : BufTy).Contents (Elt F)),
    StableHlo.binary main_v65 main_v71 main_v72 (mulf : (⟨S4096x8192, .f32⟩ : BufTy).Contents (Elt F) → (⟨S4096x8192, .f32⟩ : BufTy).Contents (Elt F) → (⟨S4096x8192, .f32⟩ : BufTy).Contents (Elt F)),
    StableHlo.nullary main_cst_20 (constant S_ .f32 0x00000000#32),
    StableHlo.unary main_cst_20 main_v73 (broadcastInDim S4096x8192 ![] bcast_S_S4096x8192 : (⟨S_, .f32⟩ : BufTy).Contents (Elt F) → (⟨S4096x8192, .f32⟩ : BufTy).Contents (Elt F)),
    StableHlo.TRef.ternary (TRef.of (T := ⟨S4096x8192, .i1⟩) main_v70) (TRef.of (T := ⟨S4096x8192, .f32⟩) main_v72) (TRef.of (T := ⟨S4096x8192, .f32⟩) main_v73) main_call5.v0 select,
    StableHlo.binary main_v65 main_v66 main_v75 (mulf : (⟨S4096x8192, .f32⟩ : BufTy).Contents (Elt F) → (⟨S4096x8192, .f32⟩ : BufTy).Contents (Elt F) → (⟨S4096x8192, .f32⟩ : BufTy).Contents (Elt F)),
    StableHlo.binary main_v74 main_v75 main_v76 (subf : (⟨S4096x8192, .f32⟩ : BufTy).Contents (Elt F) → (⟨S4096x8192, .f32⟩ : BufTy).Contents (Elt F) → (⟨S4096x8192, .f32⟩ : BufTy).Contents (Elt F)),
    StableHlo.nullary main_cst_21 (constant S_ .f32 0x00000000#32),
    StableHlo.binary main_v76 main_cst_21 main_v77 ((fun x v => Host.reduceAdd x v reducesTo_S4096x8192_S_d0_1 h_S_) : (⟨S4096x8192, .f32⟩ : BufTy).Contents (Elt F) → (⟨S_, .f32⟩ : BufTy).Contents (Elt F) → (⟨S_, .f32⟩ : BufTy).Contents (Elt F)),
    StableHlo.nullary main_c_22 (constantI S_ 32 0#32),
    StableHlo.binary main_v24 main_c_22 main_v78 ((fun x v => Host.reduce IntOp.addi x v reducesTo_S8_S_d0 h_S_) : (⟨S8, .i32⟩ : BufTy).Contents (Elt F) → (⟨S_, .i32⟩ : BufTy).Contents (Elt F) → (⟨S_, .i32⟩ : BufTy).Contents (Elt F)),
    StableHlo.unary main_v78 main_v79 (sitofp .f32 : (⟨S_, .i32⟩ : BufTy).Contents (Elt F) → (⟨S_, .f32⟩ : BufTy).Contents (Elt F)),
    StableHlo.binary main_v77 main_v79 main_v80 (Host.divf : (⟨S_, .f32⟩ : BufTy).Contents (Elt F) → (⟨S_, .f32⟩ : BufTy).Contents (Elt F) → (⟨S_, .f32⟩ : BufTy).Contents (Elt F)) ]

/-- @main's 128 operations, in order. -/
abbrev ops : List (HloOp τ sig (Elt F)) :=
  opsA ++ (opsB ++ (opsC ++ (opsD ++ (opsE1 ++ (opsE2 ++ (opsFn ++ opsG))))))

theorem opsA_sub : (opsA : List (HloOp τ sig (Elt F))).Forall fun op => op.bufs ⊆ tcRefs τ sig :=
  ⟨reshape_bufs_sub .., reshape_bufs_sub ..⟩
theorem opsB_sub : (opsB : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., unary_bufs_sub .., binary_bufs_sub .., nullary_bufs_sub .., unary_bufs_sub .., nullary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩
theorem opsC_sub : (opsC : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub ..⟩
theorem opsD_sub : (opsD : List (HloOp τ sig (Elt F))).Forall fun op => op.bufs ⊆ tcRefs τ sig :=
  ⟨unary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsE1_sub : (opsE1 : List (HloOp τ sig (Elt F))).Forall fun op => op.bufs ⊆ tcRefs τ sig :=
  ⟨nullary_bufs_sub .., unary_bufs_sub .., binary_bufs_sub ..⟩
theorem opsE2_sub : (opsE2 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., unary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩
theorem opsFn_sub : (opsFn : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem opsG_sub : (opsG : List (HloOp τ sig (Elt F))).Forall fun op => op.bufs ⊆ tcRefs τ sig :=
  ⟨nullary_bufs_sub .., unary_bufs_sub .., binary_bufs_sub .., binary_bufs_sub .., binary_bufs_sub .., unary_bufs_sub .., binary_bufs_sub .., nullary_bufs_sub .., unary_bufs_sub .., ternary_bufs_sub .., binary_bufs_sub .., binary_bufs_sub .., nullary_bufs_sub .., binary_bufs_sub .., nullary_bufs_sub .., binary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp opsA_sub op h, List.forall_iff_forall_mem.mp opsB_sub op h, List.forall_iff_forall_mem.mp opsC_sub op h, List.forall_iff_forall_mem.mp opsD_sub op h, List.forall_iff_forall_mem.mp opsE1_sub op h, List.forall_iff_forall_mem.mp opsE2_sub op h, List.forall_iff_forall_mem.mp opsFn_sub op h, List.forall_iff_forall_mem.mp opsG_sub op h]

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h
theorem opsD_fresh : ∀ op ∈ (opsD : List (HloOp τ sig (Elt F))), op.fresh = ∅ := by
  intro _ h; (repeat (cases h with | head => rfl | tail _ h => ?_)); exact nomatch h
theorem opsE1_fresh : ∀ op ∈ (opsE1 : List (HloOp τ sig (Elt F))), op.fresh = ∅ := by
  intro _ h; (repeat (cases h with | head => rfl | tail _ h => ?_)); exact nomatch h
theorem opsE2_fresh : ∀ op ∈ (opsE2 : List (HloOp τ sig (Elt F))), op.fresh = ∅ := by
  intro _ h; (repeat (cases h with | head => rfl | tail _ h => ?_)); exact nomatch h
theorem opsFn_fresh : ∀ op ∈ (opsFn : List (HloOp τ sig (Elt F))), op.fresh = ∅ := by
  intro _ h; (repeat (cases h with | head => rfl | tail _ h => ?_)); exact nomatch h
theorem opsG_fresh : ∀ op ∈ (opsG : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h | h | h | h | h
  exacts [opsA_fresh op h, opsB_fresh op h, opsC_fresh op h, opsD_fresh op h, opsE1_fresh op h, opsE2_fresh op h, opsFn_fresh op h, opsG_fresh op h]

set_option maxRecDepth 8192 in
theorem main_part0_eq (c : Dev nD) :
    main_part0 (F := F) c = seq (opsA ++ (opsB ++ (opsC ++ (opsD ++ opsE1)))) := by
  simp only [main_part0, fn_roll_static.body, fn_roll_static_0.body, fn_where.body, fn_cumsum.body, fn_cumsum_1.body,
    opsA, opsB, opsC, opsD, opsE1, List.cons_append, List.nil_append, seq, bind_assoc, pure_bind] <;> rfl

set_option maxRecDepth 8192 in
theorem main_part1_eq (c : Dev nD) :
    main_part1 (F := F) c = seq (opsE2 ++ (opsFn ++ opsG)) := by
  simp only [main_part1, fn_log_softmax.body, fn_where_2.body,
    opsE2, opsFn, opsG, List.cons_append, List.nil_append, seq, bind_assoc, pure_bind] <;> rfl

theorem main_eq (c : Dev nD) : main (F := F) c = seq ops := by
  have h : (ops : List (HloOp τ sig (Elt F))) = (opsA ++ (opsB ++ (opsC ++ (opsD ++ opsE1)))) ++ (opsE2 ++ (opsFn ++ opsG)) := by
    simp only [ops, List.append_assoc]
  rw [h, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- What the result buffer holds once the 128 operations have run from the launch contents. -/
def out (m : (ℓ : Loc nD τ sig) → Buf (Elt Ideal) ℓ) (c : Dev nD) : FVec Ideal S_ .f32 :=
  after (ops (F := Ideal)) (launchContents m c) (Proc.devRef .tc main_v80)

/-- A value written to a typed reference's buffer and read back is the value. -/
theorem ofBuf_toBuf {T : BufTy} (x : TRef sig T) (v : T.Contents (Elt F)) : x.ofBuf (x.toBuf v) = v := by
  obtain ⟨r, h, hd, hu⟩ := x
  subst h
  rfl

/-! ## What the buffers hold after the operations, part by part -/

/-- The operations of two lists run in turn. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- An operation that writes one buffer, a member of a list, writes inside the list. -/
theorem writes_sub_of_mem {op : HloOp τ sig (Elt F)} {y : Ref sig .tc} {W : List (Ref sig .tc)}
    (hw : op.writes = {Proc.devRef .tc y}) (h : y ∈ W) :
    op.writes ⊆ (W.map (Proc.devRef (τ := τ) .tc)).toFinset := by
  rw [hw, Finset.singleton_subset_iff, List.mem_toFinset]
  exact List.mem_map_of_mem h

/-- The buffers part A writes. -/
abbrev WA : List (Ref sig .tc) := [main_v0, main_v1]
theorem opsA_writes : (opsA : List (HloOp τ sig (Elt F))).Forall fun op =>
    op.writes ⊆ (WA.map (Proc.devRef (τ := τ) .tc)).toFinset :=
  ⟨writes_sub_of_mem rfl (by decide), writes_sub_of_mem rfl (by decide)⟩
/-- A buffer part A does not write keeps its contents through it. -/
theorem keepA (V : Valuation τ sig (Elt F)) (r : Ref sig .tc) (h : r ∉ WA) :
    after opsA V (Proc.devRef .tc r) = V (Proc.devRef .tc r) :=
  after_of_writes_sub opsA V opsA_writes h

/-- The buffers part B writes. -/
abbrev WB : List (Ref sig .tc) := [main_c, main_v2, main_v3, main_call0_v0, main_call0_v1, main_v4, main_call1_v0, main_call1_v1, main_v5, main_c_0, main_v6, main_c_1, main_v7, main_c_2, main_call2_v0, main_call2_v1, main_v8, main_c_3, main_v9, main_v10, main_c_4, main_v11, main_v12, main_v13, main_c_5, main_v14, main_v15, main_c_6, main_v16, main_v17, main_v18, main_v19, main_v20, main_v21, main_v22]
theorem opsB_writes : (opsB : List (HloOp τ sig (Elt F))).Forall fun op =>
    op.writes ⊆ (WB.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
/-- A buffer part B does not write keeps its contents through it. -/
theorem keepB (V : Valuation τ sig (Elt F)) (r : Ref sig .tc) (h : r ∉ WB) :
    after opsB V (Proc.devRef .tc r) = V (Proc.devRef .tc r) :=
  after_of_writes_sub opsB V opsB_writes h

/-- The buffers part C writes. -/
abbrev WC : List (Ref sig .tc) := [main_c_7, main_v23, main_v24, main_v25, main_cst, main_v26, main_v27, main_cst_8, main_v28, main_v29, main_cst_9, main_v30, main_v31]
theorem opsC_writes : (opsC : List (HloOp τ sig (Elt F))).Forall fun op =>
    op.writes ⊆ (WC.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
/-- A buffer part C does not write keeps its contents through it. -/
theorem keepC (V : Valuation τ sig (Elt F)) (r : Ref sig .tc) (h : r ∉ WC) :
    after opsC V (Proc.devRef .tc r) = V (Proc.devRef .tc r) :=
  after_of_writes_sub opsC V opsC_writes h

/-- The buffers part D writes. -/
abbrev WD : List (Ref sig .tc) := [main_v32, main_call3_call0_c, main_call3_call0_v0, main_v33, main_v34, main_c_10, main_v35, main_v36, main_c_11, main_v37, main_v38, main_v39, main_v40, main_v41, main_v42]
theorem opsD_writes : (opsD : List (HloOp τ sig (Elt F))).Forall fun op =>
    op.writes ⊆ (WD.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
/-- A buffer part D does not write keeps its contents through it. -/
theorem keepD (V : Valuation τ sig (Elt F)) (r : Ref sig .tc) (h : r ∉ WD) :
    after opsD V (Proc.devRef .tc r) = V (Proc.devRef .tc r) :=
  after_of_writes_sub opsD V opsD_writes h

/-- The buffers part E1 writes. -/
abbrev WE1 : List (Ref sig .tc) := [main_cst_12, main_v43, main_v44]
theorem opsE1_writes : (opsE1 : List (HloOp τ sig (Elt F))).Forall fun op =>
    op.writes ⊆ (WE1.map (Proc.devRef (τ := τ) .tc)).toFinset :=
  ⟨writes_sub_of_mem rfl (by decide), writes_sub_of_mem rfl (by decide), writes_sub_of_mem rfl (by decide)⟩
/-- A buffer part E1 does not write keeps its contents through it. -/
theorem keepE1 (V : Valuation τ sig (Elt F)) (r : Ref sig .tc) (h : r ∉ WE1) :
    after opsE1 V (Proc.devRef .tc r) = V (Proc.devRef .tc r) :=
  after_of_writes_sub opsE1 V opsE1_writes h

/-- The buffers part E2 writes. -/
abbrev WE2 : List (Ref sig .tc) := [main_cst_13, main_v45, main_v46, main_cst_14, main_v47, main_v48, main_v49, main_v50, main_v51, main_c_15, main_v52, main_v53, main_c_16, main_v54, main_v55, main_v56, main_c_17, main_v57, main_v58, main_c_18, main_v59, main_v60, main_v61, main_v62, main_v63, main_v64, main_v65]
theorem opsE2_writes : (opsE2 : List (HloOp τ sig (Elt F))).Forall fun op =>
    op.writes ⊆ (WE2.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
/-- A buffer part E2 does not write keeps its contents through it. -/
theorem keepE2 (V : Valuation τ sig (Elt F)) (r : Ref sig .tc) (h : r ∉ WE2) :
    after opsE2 V (Proc.devRef .tc r) = V (Proc.devRef .tc r) :=
  after_of_writes_sub opsE2 V opsE2_writes h

/-- The buffers part Fn writes. -/
abbrev WFn : List (Ref sig .tc) := [main_call4_cst, main_call4_v0, main_call4_cst_0, main_call4_v1, main_call4_v2, main_call4_v3, main_call4_v4, main_call4_v5, main_call4_v6, main_call4_cst_1, main_call4_v7, main_call4_v8, main_call4_v9, main_call4_v10, main_v66]
theorem opsFn_writes : (opsFn : List (HloOp τ sig (Elt F))).Forall fun op =>
    op.writes ⊆ (WFn.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
/-- A buffer part Fn does not write keeps its contents through it. -/
theorem keepFn (V : Valuation τ sig (Elt F)) (r : Ref sig .tc) (h : r ∉ WFn) :
    after opsFn V (Proc.devRef .tc r) = V (Proc.devRef .tc r) :=
  after_of_writes_sub opsFn V opsFn_writes h

/-- The buffers part G writes. -/
abbrev WG : List (Ref sig .tc) := [main_cst_19, main_v67, main_v68, main_v69, main_v70, main_v71, main_v72, main_cst_20, main_v73, main_v74, main_v75, main_v76, main_cst_21, main_v77, main_c_22, main_v78, main_v79, main_v80]
theorem opsG_writes : (opsG : List (HloOp τ sig (Elt F))).Forall fun op =>
    op.writes ⊆ (WG.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
/-- A buffer part G does not write keeps its contents through it. -/
theorem keepG (V : Valuation τ sig (Elt F)) (r : Ref sig .tc) (h : r ∉ WG) :
    after opsG V (Proc.devRef .tc r) = V (Proc.devRef .tc r) :=
  after_of_writes_sub opsG V opsG_writes h

/-! ## Each part's results as pure terms of what it reads -/

set_option maxRecDepth 8192 in
theorem valA_v0 (V : Valuation τ sig (Elt Ideal)) :
    after (opsA (F := Ideal)) V (Proc.devRef .tc main_v0) = shapeCast S4096x8192 (V (Proc.devRef .tc main_arg0)) shapeCasts_S8x512x8192_S4096x8192 := by
  simp only [opsA, after_cons, after_nil]
  rfl

set_option maxRecDepth 8192 in
theorem valA_v1 (V : Valuation τ sig (Elt Ideal)) :
    after (opsA (F := Ideal)) V (Proc.devRef .tc main_v1) = shapeCast S4096 (V (Proc.devRef .tc main_arg2)) shapeCasts_S8x512_S4096 := by
  simp only [opsA, after_cons, after_nil]
  rfl

set_option maxRecDepth 8192 in
theorem valB_v3 (V : Valuation τ sig (Elt Ideal)) :
    after (opsB (F := Ideal)) V (Proc.devRef .tc main_v3) = refIsOne (V (Proc.devRef .tc main_v1)) := by
  simp only [opsB, after_cons, after_nil]
  rfl

set_option maxRecDepth 100000 in
theorem valB_v22 (V : Valuation τ sig (Elt Ideal)) :
    after (opsB (F := Ideal)) V (Proc.devRef .tc main_v22) = refGather (V (Proc.devRef .tc main_v1)) (V (Proc.devRef .tc main_arg1)) := by
  simp only [opsB]
  after_results_simp
  simp only [ofBuf_toBuf]
  rfl

set_option maxRecDepth 8192 in
theorem valC_v24 (V : Valuation τ sig (Elt Ideal)) :
    after (opsC (F := Ideal)) V (Proc.devRef .tc main_v24) = refLens (V (Proc.devRef .tc main_arg3)) := by
  simp only [opsC, after_cons, after_nil]
  rfl

set_option maxRecDepth 8192 in
theorem valC_v31 (V : Valuation τ sig (Elt Ideal)) :
    after (opsC (F := Ideal)) V (Proc.devRef .tc main_v31) = refRate (V (Proc.devRef .tc main_arg3)) := by
  simp only [opsC, after_cons, after_nil]
  rfl

set_option maxRecDepth 8192 in
theorem valD_v42 (V : Valuation τ sig (Elt Ideal)) :
    after (opsD (F := Ideal)) V (Proc.devRef .tc main_v42) = refSmooth (V (Proc.devRef .tc main_v3)) (V (Proc.devRef .tc main_v31)) (V (Proc.devRef .tc main_v22)) := by
  simp only [opsD]
  after_results_simp
  simp only [refSmooth, TRef.toBuf, TRef.ofBuf, cast_eq]

set_option maxRecDepth 8192 in
theorem valE_v65 (V : Valuation τ sig (Elt Ideal)) :
    after (opsE2 (F := Ideal)) (after (opsE1 (F := Ideal)) V) (Proc.devRef .tc main_v65) = RefTail.refWeight (V (Proc.devRef .tc main_v1)) (V (Proc.devRef .tc main_v42)) := by
  simp only [opsE1, opsE2]
  after_results_simp
  simp only [RefTail.refWeight]
  rfl

set_option maxRecDepth 100000 in
theorem valF_v66 (V : Valuation τ sig (Elt Ideal)) :
    after (opsFn (F := Ideal)) V (Proc.devRef .tc main_v66) = RefTail.refLogp (V (Proc.devRef .tc main_v0)) := by
  simp only [opsFn]
  after_results_simp
  simp only [ofBuf_toBuf]
  rfl

set_option maxRecDepth 8192 in
theorem valG_v80 (V : Valuation τ sig (Elt Ideal)) :
    after (opsG (F := Ideal)) V (Proc.devRef .tc main_v80) = RefTail.refSum (V (Proc.devRef .tc main_v65)) (V (Proc.devRef .tc main_v66)) (V (Proc.devRef .tc main_v24)) := by
  simp only [opsG, after_cons, after_nil]
  rfl

/-! ## The run -/

/-- The result buffer's contents as the chain of the parts. -/
theorem after_ops_v80 (V : Valuation τ sig (Elt Ideal)) :
    after (ops (F := Ideal)) V (Proc.devRef .tc main_v80)
      = RefTail.refTail (shapeCast S4096x8192 (V (Proc.devRef .tc main_arg0)) shapeCasts_S8x512x8192_S4096x8192)
          (shapeCast S4096 (V (Proc.devRef .tc main_arg2)) shapeCasts_S8x512_S4096)
          (refChain (V (Proc.devRef .tc main_arg1)) (V (Proc.devRef .tc main_arg2)) (V (Proc.devRef .tc main_arg3)))
          (refLens (V (Proc.devRef .tc main_arg3))) := by
  simp only [ops, after_app]
  rw [valG_v80, valF_v66,
    keepFn _ main_v65 (by decide), valE_v65,
    keepFn _ main_v24 (by decide), keepE2 _ main_v24 (by decide), keepE1 _ main_v24 (by decide), keepD _ main_v24 (by decide), valC_v24,
    keepE2 _ main_v0 (by decide), keepE1 _ main_v0 (by decide), keepD _ main_v0 (by decide), keepC _ main_v0 (by decide), keepB _ main_v0 (by decide), valA_v0,
    keepD _ main_v1 (by decide), keepC _ main_v1 (by decide), keepB _ main_v1 (by decide), valA_v1,
    valD_v42, keepC _ main_v3 (by decide), valB_v3, valC_v31, keepC _ main_v22 (by decide), valB_v22,
    valA_v1, keepB _ main_arg3 (by decide), keepA _ main_arg3 (by decide), keepA _ main_arg1 (by decide)]
  rfl

/-- An argument's buffer is written by no operation. -/
theorem after_ops_arg (V : Valuation τ sig (Elt Ideal)) (r : Ref sig .tc)
    (hA : r ∉ WA) (hB : r ∉ WB) (hC : r ∉ WC) (hD : r ∉ WD) (hE1 : r ∉ WE1) (hE2 : r ∉ WE2) (hF : r ∉ WFn) (hG : r ∉ WG) :
    after (ops (F := Ideal)) V (Proc.devRef .tc r) = V (Proc.devRef .tc r) := by
  simp only [ops, after_app]
  rw [keepG _ r hG, keepFn _ r hF, keepE2 _ r hE2, keepE1 _ r hE1, keepD _ r hD, keepC _ r hC, keepB _ r hB, keepA _ r hA]

/-- What the result buffer holds once the 128 operations have run from the launch contents: the reference's tail over
    the reshaped logits and targets, the smoothing values and the lengths plus one. -/
theorem out_eq (m : (ℓ : Loc nD τ sig) → Buf (Elt Ideal) ℓ) (c : Dev nD) :
    out m c
      = RefTail.refTail (shapeCast S4096x8192 (m ((c.tc : Thread nD τ).loc main_arg0)) shapeCasts_S8x512x8192_S4096x8192)
          (shapeCast S4096 (m ((c.tc : Thread nD τ).loc main_arg2)) shapeCasts_S8x512_S4096)
          (refChain (m ((c.tc : Thread nD τ).loc main_arg1)) (m ((c.tc : Thread nD τ).loc main_arg2)) (m ((c.tc : Thread nD τ).loc main_arg3)))
          (refLens (m ((c.tc : Thread nD τ).loc main_arg3))) :=
  after_ops_v80 (launchContents m c)

/-- On every device, from any memory with zero counters: every weakly fair execution of @main terminates with the
    result at `out` and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v80) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨h c main_v80,
      (h c main_arg0).trans (after_ops_arg _ main_arg0 (by decide) (by decide) (by decide) (by decide) (by decide) (by decide) (by decide) (by decide)),
      (h c main_arg1).trans (after_ops_arg _ main_arg1 (by decide) (by decide) (by decide) (by decide) (by decide) (by decide) (by decide) (by decide)),
      (h c main_arg2).trans (after_ops_arg _ main_arg2 (by decide) (by decide) (by decide) (by decide) (by decide) (by decide) (by decide) (by decide)),
      (h c main_arg3).trans (after_ops_arg _ main_arg3 (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.PreChain.lean ====
/-
  The smoothing value of every row, as the printed precondition computes it: the predicate's operations 0 … 46 (the
  row's target and its predecessor's pick an entry of the smoothing matrix; the row's sequence picks a factor
  1 - 0.9 ^ (1 / (length + 1)); the value is their product), transcribed as printed and cut in three as the printed
  function is. Definitions only.
-/
import proofs.«414440_j2113123910203_3_alg».proof.Pre_finite_inputs
import proofs.«414440_j2113123910203_3_alg».proof.Proof.Gen.Pre_finite_inputs
import Idealize.ShloMosaic.PureOps.Ideal

noncomputable section

namespace Cert.PreDecode

open Idealize.ShloMosaic
open Cert.Pre_finite_inputs Cert.Pre_finite_inputs.Facts

/-- Operations 36 … 46: the row's position in its sequence picks the sequence's factor, times the matrix entry. -/
def preChain_part2 (main_v2 : IVec S4096 1) (main_v26 : FVec Ideal S4096 .f32) (main_v35 : FVec Ideal S8 .f32) : FVec Ideal S4096 .f32 :=
  let main_v36 : IVec S4096 32 := (extui 32 · natLt_1_32) main_v2
  let main_c_10 : IVec S_ 32 := constantI S_ 32 0#32
  let main_v37 : IVec S4096 32 := (fun x v => Host.reduceWindow IntOp.addi ![4096] ![1] ![4095] ![0] x v reduceWindows_S4096_S4096_w4096s1p4095_0 h_S_) main_v36 main_c_10
  let main_v38 : IVec S4096 32 := subi main_v37 main_v36
  let main_c_11 : IVec S_ 32 := constantI S_ 32 0#32
  let main_v39 : IVec S4096 32 := broadcastInDim S4096 ![] bcast_S_S4096 main_c_11
  let main_v40 : IVec S4096 1 := cmpi .slt main_v38 main_v39
  let main_c_12 : IVec S_ 32 := constantI S_ 32 8#32
  let main_v41 : IVec S4096 32 := broadcastInDim S4096 ![] bcast_S_S4096 main_c_12
  let main_v42 : IVec S4096 32 := addi main_v38 main_v41
  let main_v43 : IVec S4096 32 := select main_v40 main_v42 main_v38
  let main_v44 : IVec S4096x1 32 := broadcastInDim S4096x1 ![0] bcast_S4096_S4096x1_0 main_v43
  let main_v45 : FVec Ideal S4096 .f32 := (fun x i => Host.gather gather_S8_S4096x1_S4096_n_0_n_n_0_1_1 x i) main_v35 main_v44
  let main_v46 : FVec Ideal S4096 .f32 := mulf main_v45 main_v26
  main_v46

/-- Operations 18 … 35: the matrix entry of every row and the factor of every sequence. -/
def preChain_part1 (main_arg1 : FVec Ideal S8192x8192 .f32) (main_arg3 : IVec S8 32) (main_v0 : IVec S4096 32) (main_v2 : IVec S4096 1) (main_v17 : IVec S4096 32) : FVec Ideal S4096 .f32 :=
  let main_c_5 : IVec S_ 32 := constantI S_ 32 0#32
  let main_v18 : IVec S4096 32 := broadcastInDim S4096 ![] bcast_S_S4096 main_c_5
  let main_v19 : IVec S4096 1 := cmpi .slt main_v0 main_v18
  let main_c_6 : IVec S_ 32 := constantI S_ 32 8192#32
  let main_v20 : IVec S4096 32 := broadcastInDim S4096 ![] bcast_S_S4096 main_c_6
  let main_v21 : IVec S4096 32 := addi main_v0 main_v20
  let main_v22 : IVec S4096 32 := select main_v19 main_v21 main_v0
  let main_v23 : IVec S4096x1 32 := broadcastInDim S4096x1 ![0] bcast_S4096_S4096x1_0 main_v17
  let main_v24 : IVec S4096x1 32 := broadcastInDim S4096x1 ![0] bcast_S4096_S4096x1_0 main_v22
  let main_v25 : IVec S4096x2 32 := (fun a b => concatenate S4096x2 1 [⟨S4096x1, a⟩, ⟨S4096x1, b⟩] concatenates_S4096x1_S4096x1_S4096x2_d1) main_v23 main_v24
  let main_v26 : FVec Ideal S4096 .f32 := (fun x i => Host.gather gather_S8192x8192_S4096x2_S4096_n_01_n_n_01_1_11 x i) main_arg1 main_v25
  let main_c_7 : IVec S_ 32 := constantI S_ 32 1#32
  let main_v27 : IVec S8 32 := broadcastInDim S8 ![] bcast_S_S8 main_c_7
  let main_v28 : IVec S8 32 := addi main_arg3 main_v27
  let main_v29 : FVec Ideal S8 .f32 := sitofp .f32 main_v28
  let main_cst : FVec Ideal S_ .f32 := constant S_ .f32 0x3F800000#32
  let main_v30 : FVec Ideal S8 .f32 := broadcastInDim S8 ![] bcast_S_S8 main_cst
  let main_v31 : FVec Ideal S8 .f32 := Host.divf main_v30 main_v29
  let main_cst_8 : FVec Ideal S_ .f32 := constant S_ .f32 0x3F666666#32
  let main_v32 : FVec Ideal S8 .f32 := broadcastInDim S8 ![] bcast_S_S8 main_cst_8
  let main_v33 : FVec Ideal S8 .f32 := Host.powf main_v32 main_v31
  let main_cst_9 : FVec Ideal S_ .f32 := constant S_ .f32 0x3F800000#32
  let main_v34 : FVec Ideal S8 .f32 := broadcastInDim S8 ![] bcast_S_S8 main_cst_9
  let main_v35 : FVec Ideal S8 .f32 := subf main_v34 main_v33
  preChain_part2 main_v2 main_v26 main_v35

/-- The smoothing value of every row: the predicate's operations 0 … 46, as printed (cut in three as the printed function is). -/
def preChain (main_arg1 : FVec Ideal S8192x8192 .f32) (main_arg2 : IVec S8x512 32) (main_arg3 : IVec S8 32) : FVec Ideal S4096 .f32 :=
  let main_v0 : IVec S4096 32 := shapeCast S4096 main_arg2 shapeCasts_S8x512_S4096
  let main_c : IVec S_ 32 := constantI S_ 32 1#32
  let main_v1 : IVec S4096 32 := broadcastInDim S4096 ![] bcast_S_S4096 main_c
  let main_v2 : IVec S4096 1 := cmpi .eq main_v0 main_v1
  let main_v3 : IVec S1 32 := (extractStridedSlice S1 ![4095] · slices_S4096_S1_4095) main_v0
  let main_v4 : IVec S4095 32 := (extractStridedSlice S4095 ![0] · slices_S4096_S4095_0) main_v0
  let main_v5 : IVec S4096 32 := (fun a b => concatenate S4096 0 [⟨S1, a⟩, ⟨S4095, b⟩] concatenates_S1_S4095_S4096_d0) main_v3 main_v4
  let main_v6 : IVec S1 1 := (extractStridedSlice S1 ![4095] · slices_S4096_S1_4095) main_v2
  let main_v7 : IVec S4095 1 := (extractStridedSlice S4095 ![0] · slices_S4096_S4095_0) main_v2
  let main_v8 : IVec S4096 1 := (fun a b => concatenate S4096 0 [⟨S1, a⟩, ⟨S4095, b⟩] concatenates_S1_S4095_S4096_d0) main_v6 main_v7
  let main_c_0 : IVec S_ 32 := constantI S_ 32 0#32
  let main_v9 : IVec S1 32 := broadcastInDim S1 ![] bcast_S_S1 main_c_0
  let main_c_1 : IVec S_ 1 := constantI S_ 1 1#1
  let main_v10 : IVec S4096 1 := (fun x i u => Host.scatter scatter_S4096_S1_S__n_0_0_0 (fun _ b => b) x i u) main_v8 main_v9 main_c_1
  let main_c_2 : IVec S_ 32 := constantI S_ 32 4095#32
  let main_v11 : IVec S4096 32 := broadcastInDim S4096 ![] bcast_S_S4096 main_c_2
  let main_v12 : IVec S4096 32 := select main_v10 main_v11 main_v5
  let main_c_3 : IVec S_ 32 := constantI S_ 32 0#32
  let main_v13 : IVec S4096 32 := broadcastInDim S4096 ![] bcast_S_S4096 main_c_3
  let main_v14 : IVec S4096 1 := cmpi .slt main_v12 main_v13
  let main_c_4 : IVec S_ 32 := constantI S_ 32 8192#32
  let main_v15 : IVec S4096 32 := broadcastInDim S4096 ![] bcast_S_S4096 main_c_4
  let main_v16 : IVec S4096 32 := addi main_v12 main_v15
  let main_v17 : IVec S4096 32 := select main_v14 main_v16 main_v12
  preChain_part1 main_arg1 main_arg3 main_v0 main_v2 main_v17

end Cert.PreDecode

end
-- ==== Proof.PreDecode.lean ====
/-
  The precondition read back. The printed predicate is the conjunction of six "every element" tests: the logits and
  the smoothing matrix are finite, every target is a column (0 ≤ t < 8192), every label length lies in [0, 512], and the
  two weights of every row are not negative: off = s / 8191 ≥ 0 and src = 1 - off · 8192 ≥ 0, where the row's smoothing
  value s is a chain of operations on the matrix, the targets and the lengths (`preChain`). `decode` turns "the
  predicate is 1" into these facts, element by element.
-/
import proofs.«414440_j2113123910203_3_alg».proof.Pre_finite_inputs
import proofs.«414440_j2113123910203_3_alg».proof.Proof.Gen.Pre_finite_inputs
import proofs.«414440_j2113123910203_3_alg».proof.Proof.PreChain
import Idealize.ShloMosaic.Lib.ReduceAll
import Idealize.ShloMosaic.Lib.StableHlo.Predicate
import Idealize.ShloMosaic.Lib.ValueIdx
import Idealize.ShloMosaic.PureOps.Ideal

set_option maxRecDepth 16384

noncomputable section

namespace Cert.PreDecode

open Idealize.ShloMosaic
open Cert.Pre_finite_inputs Cert.Pre_finite_inputs.Facts

/-! ## The chain's end: the two weights, and the predicate over them -/

/-- The weight off the target: the smoothing value over 8191. -/
def offV (a1 : FVec Ideal S8192x8192 .f32) (a2 : IVec S8x512 32) (a3 : IVec S8 32) : FVec Ideal S4096 .f32 :=
  Host.divf (preChain a1 a2 a3) (broadcastInDim S4096 ![] bcast_S_S4096 (constant S_ .f32 0x45FFF800#32))

/-- The weight on the target: one less 8192 times the weight off it. -/
def srcV (a1 : FVec Ideal S8192x8192 .f32) (a2 : IVec S8x512 32) (a3 : IVec S8 32) : FVec Ideal S4096 .f32 :=
  subf (broadcastInDim S4096 ![] bcast_S_S4096 (constant S_ .f32 0x3F800000#32))
    (mulf (offV a1 a2 a3) (broadcastInDim S4096 ![] bcast_S_S4096 (constant S_ .f32 0x46000000#32)))

/-- The predicate is its last two parts over the chain's two weights. -/
theorem fn_split (a0 : FVec Ideal S8x512x8192 .f32) (a1 : FVec Ideal S8192x8192 .f32) (a2 : IVec S8x512 32) (a3 : IVec S8 32) :
    Cert.Pre_finite_inputs.fn (F := Ideal) a0 a1 a2 a3
      = fn_part3 (F := Ideal) a1 a2 a3 (offV a1 a2 a3) (srcV a1 a2 a3) (Host.absf a0) := rfl

/-! ## The element facts -/

instance : Subsingleton S_.Idx := ⟨fun a b => funext fun d => d.elim0⟩

theorem ofBits_inf : Ideal.ofBits .f32 0x7F800000#32 = ⊤ := by simp [Ideal.ofBits, Ideal.ieee]
theorem ofBits_zero : Ideal.ofBits .f32 0x00000000#32 = 0 := by simp [Ideal.ofBits, Ideal.ieee]

/-- An absolute value below +∞ is of neither infinity. -/
theorem abs_lt_top (x : EReal) (h : Ideal.cmp .olt (max x (-x)) (Ideal.ofBits .f32 0x7F800000#32) = 1#1) : x ≠ ⊤ ∧ x ≠ ⊥ := by
  rw [ofBits_inf] at h
  simp only [Ideal.cmp, StableHlo.Predicate.ofBool_eq_one_iff, decide_eq_true_eq, max_lt_iff] at h
  refine ⟨fun e => ?_, fun e => ?_⟩
  · rw [e] at h; exact absurd h.1 (lt_irrefl _)
  · rw [e] at h; exact absurd h.2 (by simp)

/-- A value tested not below zero. -/
theorem ge_zero (x : EReal) (h : Ideal.cmp .oge x (Ideal.ofBits .f32 0x00000000#32) = 1#1) : 0 ≤ x := by
  rw [ofBits_zero] at h
  simpa only [Ideal.cmp, StableHlo.Predicate.ofBool_eq_one_iff, decide_eq_true_eq] using h

/-- A word tested in [0, n) signed. -/
theorem word_range (w : BitVec 32) (h : IntOp.andi (IntOp.cmpi .sge w 0#32) (IntOp.cmpi .slt w 8192#32) = 1#1) :
    0 ≤ w.toInt ∧ w.toInt < 8192 := by
  obtain ⟨h0, h1⟩ := IntOp.andi_eq_one.1 h
  simp only [IntOp.cmpi, StableHlo.Predicate.ofBool_eq_one_iff, BitVec.sle, BitVec.slt, decide_eq_true_eq] at h0 h1
  exact ⟨by simpa using h0, by simpa using h1⟩

/-- A word tested in [0, 512] signed. -/
theorem word_range_le (w : BitVec 32) (h : IntOp.andi (IntOp.cmpi .sge w 0#32) (IntOp.cmpi .sle w 512#32) = 1#1) :
    0 ≤ w.toInt ∧ w.toInt ≤ 512 := by
  obtain ⟨h0, h1⟩ := IntOp.andi_eq_one.1 h
  simp only [IntOp.cmpi, StableHlo.Predicate.ofBool_eq_one_iff, BitVec.sle, BitVec.slt, decide_eq_true_eq] at h0 h1
  exact ⟨by simpa using h0, by simpa using h1⟩

/-! ## The predicate's last two parts, over any two weights -/

theorem tail_decode (a1 : FVec Ideal S8192x8192 .f32) (a2 : IVec S8x512 32) (a3 : IVec S8 32)
    (v48 v52 : FVec Ideal S4096 .f32) (v53 : FVec Ideal S8x512x8192 .f32)
    (h : fn_part3 (F := Ideal) a1 a2 a3 v48 v52 v53 ValueIdx.ix0 = 1#1) :
    (∀ i, Ideal.cmp .olt (v53 i) (Ideal.ofBits .f32 0x7F800000#32) = 1#1)
    ∧ (∀ i, Ideal.cmp .olt (max (a1 i) (-(a1 i))) (Ideal.ofBits .f32 0x7F800000#32) = 1#1)
    ∧ (∀ i, IntOp.andi (IntOp.cmpi .sge (a2 i) 0#32) (IntOp.cmpi .slt (a2 i) 8192#32) = 1#1)
    ∧ (∀ b, IntOp.andi (IntOp.cmpi .sge (a3 b) 0#32) (IntOp.cmpi .sle (a3 b) 512#32) = 1#1)
    ∧ (∀ n, Ideal.cmp .oge (v48 n) (Ideal.ofBits .f32 0x00000000#32) = 1#1)
    ∧ (∀ n, Ideal.cmp .oge (v52 n) (Ideal.ofBits .f32 0x00000000#32) = 1#1) := by
  unfold fn_part3 fn_part4 at h
  dsimp only [andi] at h
  simp only [IntOp.andi_eq_one] at h
  obtain ⟨⟨⟨⟨⟨h1, h2⟩, h3⟩, h4⟩, h5⟩, h6⟩ := h
  refine ⟨fun i => ?_, fun i => ?_, fun i => ?_, fun b => ?_, fun n => ?_, fun n => ?_⟩
  · exact Host.reduce_andi_all _ _ _ _ _ h1 i
  · exact Host.reduce_andi_all _ _ _ _ _ h2 i
  · exact Host.reduce_andi_all _ _ _ _ _ h3 i
  · exact Host.reduce_andi_all _ _ _ _ _ h4 b
  · exact Host.reduce_andi_all _ _ _ _ _ h5 n
  · exact Host.reduce_andi_all _ _ _ _ _ h6 n

/-- The predicate decoded. -/
theorem decode (a0 : FVec Ideal S8x512x8192 .f32) (a1 : FVec Ideal S8192x8192 .f32) (a2 : IVec S8x512 32) (a3 : IVec S8 32)
    (h : Cert.Pre_finite_inputs.fn (F := Ideal) a0 a1 a2 a3 = fun _ => 1#1) :
    (∀ i, a0 i ≠ ⊤ ∧ a0 i ≠ ⊥) ∧ (∀ i, a1 i ≠ ⊤ ∧ a1 i ≠ ⊥)
    ∧ (∀ i : S8x512.Idx, 0 ≤ (a2 i).toInt ∧ (a2 i).toInt < 8192)
    ∧ (∀ b : S8.Idx, 0 ≤ (a3 b).toInt ∧ (a3 b).toInt ≤ 512)
    ∧ (∀ n : S4096.Idx, 0 ≤ Ideal.div (preChain a1 a2 a3 n) (Ideal.ofBits .f32 0x45FFF800#32)
        ∧ 0 ≤ Ideal.ofBits .f32 0x3F800000#32 - Ideal.div (preChain a1 a2 a3 n) (Ideal.ofBits .f32 0x45FFF800#32) * Ideal.ofBits .f32 0x46000000#32) := by
  have e := congrFun h ValueIdx.ix0
  rw [fn_split] at e
  obtain ⟨h1, h2, h3, h4, h5, h6⟩ := tail_decode a1 a2 a3 _ _ _ e
  refine ⟨fun i => abs_lt_top (a0 i) (h1 i), fun i => abs_lt_top (a1 i) (h2 i), fun i => word_range _ (h3 i),
    fun b => word_range_le _ (h4 b), fun n => ⟨ge_zero _ (h5 n), ge_zero _ (h6 n)⟩⟩

end Cert.PreDecode

end
-- ==== Proof.PreFacts.lean ====
/-
  The decoded precondition in the form the rows' law uses: every logit of the reshaped [4096 × 8192] array is a real,
  every target of the flattened [4096] array is a column, every sequence length plus one lies in [0, 513] (the sum does
  not wrap), and the two weights of every row, as the specification spells them, are not negative.
-/
import proofs.«414440_j2113123910203_3_alg».proof.Proof.PreDecode
import proofs.«414440_j2113123910203_3_alg».proof.Proof.Spec
import proofs.«414440_j2113123910203_3_alg».proof.Proof.Consts
import Idealize.ShloMosaic.Lib.ValueIdx
import Idealize.ShloMosaic.Lib.Pipeline.Value

set_option maxRecDepth 16384

noncomputable section

namespace Cert.PreDecode

open Idealize.ShloMosaic Idealize.ShloMosaic.ValueIdx
open Cert.Pre_finite_inputs

/-- Every entry of the logits, reshaped to rows, is a real: an entry of the reshaped array is an entry of the array. -/
theorem rows_real (a0 : FVec Ideal S8x512x8192 .f32) (a1 : FVec Ideal S8192x8192 .f32) (a2 : IVec S8x512 32) (a3 : IVec S8 32)
    (h : Cert.Pre_finite_inputs.fn (F := Ideal) a0 a1 a2 a3 = fun _ => 1#1)
    (hc : S8x512x8192.ShapeCasts ⟨2, ![4096, 8192]⟩) :
    ∀ (n : Fin 4096) (v : Fin 8192), ∃ r : ℝ, (shapeCast ⟨2, ![4096, 8192]⟩ a0 hc : FVec Ideal _ .f32) (ix2 n v) = (r : EReal) := by
  intro n v
  obtain ⟨ht, hb⟩ := (decode a0 a1 a2 a3 h).1 (Shape.reshapeEquiv hc (ix2 n v))
  exact ⟨_, (EReal.coe_toReal ht hb).symm⟩

/-- Every target of the flattened array is a column. -/
theorem targets_range (a0 : FVec Ideal S8x512x8192 .f32) (a1 : FVec Ideal S8192x8192 .f32) (a2 : IVec S8x512 32) (a3 : IVec S8 32)
    (h : Cert.Pre_finite_inputs.fn (F := Ideal) a0 a1 a2 a3 = fun _ => 1#1)
    (hc : S8x512.ShapeCasts ⟨1, ![4096]⟩) :
    ∀ n : Fin 4096, 0 ≤ ((shapeCast ⟨1, ![4096]⟩ a2 hc : IVec _ 32) (ix1 n)).toInt
      ∧ ((shapeCast ⟨1, ![4096]⟩ a2 hc : IVec _ 32) (ix1 n)).toInt < 8192 :=
  fun n => (decode a0 a1 a2 a3 h).2.2.1 (Shape.reshapeEquiv hc (ix1 n))

/-- A word in [0, 512] plus one is in [1, 513]: the sum does not wrap. -/
theorem toInt_add_one (w : BitVec 32) (h0 : 0 ≤ w.toInt) (h1 : w.toInt ≤ 512) : (w + 1#32).toInt = w.toInt + 1 := by
  rw [BitVec.toInt_add, show (1#32 : BitVec 32).toInt = 1 from by decide, Int.bmod_def]
  omega

/-- Every sequence length plus one lies in [0, 513]. -/
theorem lens_range (a0 : FVec Ideal S8x512x8192 .f32) (a1 : FVec Ideal S8192x8192 .f32) (a2 : IVec S8x512 32) (a3 : IVec S8 32)
    (h : Cert.Pre_finite_inputs.fn (F := Ideal) a0 a1 a2 a3 = fun _ => 1#1)
    (hb : S_.BroadcastsInDim S8 ![]) :
    ∀ b : S8.Idx, 0 ≤ ((addi a3 (broadcastInDim S8 ![] hb (constantI S_ 32 1#32)) : IVec S8 32) b).toInt
      ∧ ((addi a3 (broadcastInDim S8 ![] hb (constantI S_ 32 1#32)) : IVec S8 32) b).toInt ≤ 513 := by
  intro b
  obtain ⟨h0, h1⟩ := (decode a0 a1 a2 a3 h).2.2.2.1 b
  have e : ((addi a3 (broadcastInDim S8 ![] hb (constantI S_ 32 1#32)) : IVec S8 32) b) = a3 b + 1#32 := rfl
  rw [e, toInt_add_one _ h0 h1]
  omega

/-- The two weights of every row, as the specification spells them, are not negative. -/
theorem weights_nonneg (a0 : FVec Ideal S8x512x8192 .f32) (a1 : FVec Ideal S8192x8192 .f32) (a2 : IVec S8x512 32) (a3 : IVec S8 32)
    (h : Cert.Pre_finite_inputs.fn (F := Ideal) a0 a1 a2 a3 = fun _ => 1#1) :
    ∀ n : Fin 4096, 0 ≤ Cert.Spec.off (preChain a1 a2 a3 (ix1 n)) ∧ 0 ≤ Cert.Spec.src (preChain a1 a2 a3 (ix1 n)) := by
  intro n
  have hw := (decode a0 a1 a2 a3 h).2.2.2.2 (ix1 n)
  rw [Cert.Consts.ofBits_8191, Cert.Consts.ofBits_8192, Cert.Consts.ofBits_one, EReal.coe_one] at hw
  exact hw

end Cert.PreDecode

end
-- ==== Proof.Chains.lean ====
/-
  The three transcriptions of the smoothing value of every row are one function.

  The reference's host operations, the kernel program's host operations and the precondition's operations compute
  the row's smoothing value by the same chain from the smoothing matrix, the targets and the lengths. The three
  differ only by an identity conversion and by a broadcast of a rank-0 array to rank 0, which is the array.
-/
import proofs.«414440_j2113123910203_3_alg».proof.Proof.RefChain
import proofs.«414440_j2113123910203_3_alg».proof.Proof.KerChain
import proofs.«414440_j2113123910203_3_alg».proof.Proof.PreChain

noncomputable section

namespace Cert.Chains

open Idealize.ShloMosaic
open Cert.ReferenceIdeal.RefRun Cert.KernelIdeal.HostVal

/-- The end-of-sequence mask: the same comparison of the targets with 1. -/
theorem isOne_eq (a2 : IVec Cert.KernelIdeal.S8x512 32) : refIsOne (chainT a2) = chainEos a2 := rfl

/-- The coefficient of each sequence: the same operations on the lengths. -/
theorem rate_eq (a3 : IVec Cert.KernelIdeal.S8 32) : refRate a3 = chainCoef a3 := rfl

/-- The matrix entry of each row: the same rolls, scatter, wraps and gather. -/
theorem gather_eq (a1 : FVec Ideal Cert.KernelIdeal.S8192x8192 .f32) (a2 : IVec Cert.KernelIdeal.S8x512 32) :
    refGather (chainT a2) a1 = chainConf a1 a2 := rfl

/-- The product of the sequence's coefficient and the row's matrix entry: the same running count, wrap and gather. -/
theorem smooth_eq (a2 : IVec Cert.KernelIdeal.S8x512 32) (r : FVec Ideal Cert.KernelIdeal.S8 .f32)
    (g : FVec Ideal Cert.KernelIdeal.S4096 .f32) :
    refSmooth (chainEos a2) r g
      = mulf (Host.gather Cert.KernelIdeal.gather_S8_S4096x1_S4096_n_0_n_n_0_1_1 r (chainSeg a2)) g := rfl

/-- The reference's chain and the kernel program's are the same operations. -/
theorem ref_eq_ker : refChain = kerChain := by
  funext a1 a2 a3
  show refSmooth (refIsOne (chainT a2)) (refRate a3) (refGather (chainT a2) a1) = _
  rw [isOne_eq, rate_eq, gather_eq, smooth_eq]
  rfl

/-- A rank-0 array broadcast to rank 0 is the array: both have the one index. -/
theorem broadcastInDim_rank0 {α : Type} (h : (⟨0, ![]⟩ : Shape).BroadcastsInDim ⟨0, ![]⟩ (![] : Fin 0 → Fin 0))
    (x : (⟨0, ![]⟩ : Shape).Idx → α) :
    broadcastInDim (⟨0, ![]⟩ : Shape) (![] : Fin 0 → Fin 0) h x = x := by
  funext j
  unfold broadcastInDim
  congr 1
  funext a
  exact a.elim0

/-- The precondition's last operations are the reference's: the running count starts from the same zero. -/
theorem part2_eq (e : IVec Cert.KernelIdeal.S4096 1) (g : FVec Ideal Cert.KernelIdeal.S4096 .f32)
    (r : FVec Ideal Cert.KernelIdeal.S8 .f32) :
    Cert.PreDecode.preChain_part2 e g r = refSmooth e r g := by
  unfold Cert.PreDecode.preChain_part2 refSmooth
  simp only [broadcastInDim_rank0]
  rfl

/-- The precondition's chain and the kernel program's are the same operations. -/
theorem pre_eq_ker : Cert.PreDecode.preChain = kerChain := by
  funext a1 a2 a3
  show Cert.PreDecode.preChain_part2 _ _ _ = _
  rw [part2_eq, ← ref_eq_ker]
  rfl

end Cert.Chains

end
-- ==== Proof.RowLaw.lean ====
/-
  One row's sum of entries is its closed form.

  From `0 ≤ off s` and `0 ≤ src s` the smoothing value `s` is a real with both weights nonnegative reals; the
  row's entries are reals, so its largest entry, its shifted exponentials, their sum and its logarithm are reals.
  The weights take the value `src s` at the target column and `off s` at the other 8191 columns, so the sum over
  the columns splits into 8191 equal terms `xlx (off s)`, the term `xlx (src s)`, and the two weights against the
  log-softmax: `∑ v, logp v = ∑ v, (x v - M) - 8192 · L`.
-/
import Idealize.ShloMosaic.PureOps.Ideal
import Mathlib.Algebra.BigOperators.Group.Finset.Basic
import Mathlib.Order.Fin.Basic
import proofs.«414440_j2113123910203_3_alg».proof.Proof.Spec

noncomputable section

namespace Cert.RowLaw

open Idealize.ShloMosaic Cert.Spec

/-- A finite sum of reals, coerced term by term, is the coerced sum. -/
theorem coe_sum {ι : Type} (S : Finset ι) (f : ι → ℝ) :
    ∑ v ∈ S, ((f v : ℝ) : EReal) = ((∑ v ∈ S, f v : ℝ) : EReal) := by
  classical
  induction S using Finset.induction_on with
  | empty => simp
  | insert a S ha ih => rw [Finset.sum_insert ha, Finset.sum_insert ha, ih, EReal.coe_add]

/-- `a · log a` at a nonnegative real (the real logarithm is `0` at `0`). -/
theorem xlx_coe {a : ℝ} (ha : 0 ≤ a) : xlx (a : EReal) = ((a * Real.log a : ℝ) : EReal) := by
  unfold xlx
  rcases eq_or_lt_of_le ha with h | h
  · subst h; simp
  · have hne : (a : EReal) ≠ 0 := by
      intro h0; exact (ne_of_gt h) (by exact_mod_cast h0)
    rw [if_neg hne, Ideal.log_coe, if_neg (not_le.mpr h), ← EReal.coe_mul]

/-- The largest entry of a row of reals is a real: it is one of the entries. -/
theorem rowMax_real (x : Fin 8192 → ℝ) : ∃ m : ℝ, rowMax (fun v => (x v : EReal)) = (m : EReal) := by
  obtain ⟨i, -, hi⟩ := Finset.exists_mem_eq_sup (Finset.univ : Finset (Fin 8192)) ⟨0, Finset.mem_univ _⟩
    (fun v => (x v : EReal))
  exact ⟨x i, hi⟩

/-- The law in the reals, over any finite set of columns: the weights take two values. -/
theorem real_law {ι : Type} [Fintype ι] [DecidableEq ι] (t : ι) (o r : ℝ) (X : ℝ → ℝ) (lp : ι → ℝ) :
    ∑ v, (X (if v = t then r else o) - (if v = t then r else o) * lp v)
      = ((Fintype.card ι : ℝ) - 1) * X o + X r - o * (∑ v, lp v) - (r - o) * lp t := by
  have h : ∀ v, (X (if v = t then r else o) - (if v = t then r else o) * lp v)
      = (X o - o * lp v) + (if v = t then (X r - r * lp t) - (X o - o * lp t) else 0) := by
    intro v
    by_cases hv : v = t
    · subst hv; simp
    · simp [hv]
  simp only [h]
  rw [Finset.sum_add_distrib, Finset.sum_ite_eq' Finset.univ t, if_pos (Finset.mem_univ t), Finset.sum_sub_distrib,
    Finset.sum_const, ← Finset.mul_sum, Finset.card_univ, nsmul_eq_mul]
  ring

/-- The smoothing value is a real when both weights are nonnegative. -/
theorem s_real (s : EReal) (ho : 0 ≤ off s) (hs : 0 ≤ src s) : ∃ sr : ℝ, s = (sr : EReal) := by
  have hoff : off s = s * (((1 : ℝ) / 8191 : ℝ) : EReal) := Ideal.div_coe (by norm_num) s
  have hpos : (0 : ℝ) < (1 : ℝ) / 8191 := by norm_num
  induction s using EReal.rec with
  | bot =>
    exfalso
    rw [hoff, EReal.bot_mul_coe_of_pos hpos] at ho
    exact (not_le.mpr EReal.bot_lt_zero) ho
  | coe a => exact ⟨a, rfl⟩
  | top =>
    exfalso
    unfold src at hs
    rw [hoff, EReal.top_mul_coe_of_pos hpos, EReal.top_mul_coe_of_pos (by norm_num : (0 : ℝ) < 8192)] at hs
    simp at hs

/-- The logarithm of the softmax denominator of a row of reals whose largest entry is `m`. -/
theorem rowLse_real (x : Fin 8192 → ℝ) (m : ℝ) (hm : rowMax (fun v => (x v : EReal)) = (m : EReal)) :
    rowLse (fun v => (x v : EReal)) = ((Real.log (∑ v, Real.exp (x v - m)) : ℝ) : EReal) := by
  unfold rowLse
  rw [hm]
  have h : ∀ v : Fin 8192, Ideal.exp ((x v : EReal) - (m : EReal)) = ((Real.exp (x v - m) : ℝ) : EReal) := by
    intro v; rw [← EReal.coe_sub, Ideal.exp_coe]
  simp only [h]
  rw [coe_sum, Ideal.log_coe, if_neg]
  apply not_le.mpr
  exact Finset.sum_pos (fun v _ => Real.exp_pos _) ⟨0, Finset.mem_univ _⟩

/-- One row's sum of entries is the closed form, at the row's own target logit. -/
theorem row_sum (xr : Cert.Spec.Row) (hx : ∀ v, ∃ r : ℝ, xr v = (r : EReal)) (t : Fin 8192) (s : EReal)
    (ho : 0 ≤ Cert.Spec.off s) (hs : 0 ≤ Cert.Spec.src s) :
    ∑ v : Fin 8192, Cert.Spec.entry xr t s v = Cert.Spec.kerRow xr (xr t) s := by
  obtain ⟨sr, rfl⟩ := s_real s ho hs
  choose x hxv using hx
  obtain rfl : xr = fun v => (x v : EReal) := funext hxv
  obtain ⟨m, hm⟩ := rowMax_real x
  have hL := rowLse_real x m hm
  -- the two weights as reals
  have hoff : off (sr : EReal) = ((sr * ((1 : ℝ) / 8191) : ℝ) : EReal) := by
    rw [off, Ideal.div_coe (by norm_num) _, ← EReal.coe_mul]
  have hsrc : src (sr : EReal) = ((1 - sr * ((1 : ℝ) / 8191) * 8192 : ℝ) : EReal) := by
    rw [src, hoff, ← EReal.coe_mul, ← EReal.coe_one, ← EReal.coe_sub]
  have ho' : (0 : ℝ) ≤ sr * ((1 : ℝ) / 8191) := by
    rw [hoff] at ho; exact_mod_cast ho
  have hs' : (0 : ℝ) ≤ 1 - sr * ((1 : ℝ) / 8191) * 8192 := by
    rw [hsrc] at hs; exact_mod_cast hs
  generalize hso : sr * ((1 : ℝ) / 8191) = o at *
  generalize hsr : 1 - o * 8192 = rr at *
  generalize hLL : Real.log (∑ v, Real.exp (x v - m)) = L at *
  -- each entry is a real
  have hent : ∀ v : Fin 8192, entry (fun v => (x v : EReal)) t (sr : EReal) v
      = (((fun a : ℝ => a * Real.log a) (if v = t then rr else o)
          - (if v = t then rr else o) * (x v - m - L) : ℝ) : EReal) := by
    intro v
    have hw : weight t (sr : EReal) v = ((if v = t then rr else o : ℝ) : EReal) := by
      unfold weight; rw [hoff, hsrc]; split_ifs <;> rfl
    have hw0 : (0 : ℝ) ≤ if v = t then rr else o := by split_ifs <;> assumption
    unfold entry logp
    rw [hw, xlx_coe hw0, hm, hL, ← EReal.coe_sub, ← EReal.coe_sub, ← EReal.coe_mul, ← EReal.coe_sub]
  have hreal := real_law t o rr (fun a : ℝ => a * Real.log a) (fun v : Fin 8192 => x v - m - L)
  beta_reduce at hreal
  simp only [hent]
  rw [coe_sum, hreal]
  -- the closed form is the same real
  unfold kerRow
  simp only []
  have hok : (sr : EReal) * (((1 : ℝ) / 8191 : ℝ) : EReal) = ((o : ℝ) : EReal) := by
    rw [← EReal.coe_mul, hso]
  have hrk : max (1 - ((o : ℝ) : EReal) * ((8192 : ℝ) : EReal)) 0 = ((rr : ℝ) : EReal) := by
    rw [← EReal.coe_mul, ← EReal.coe_one, ← EReal.coe_sub, hsr]
    exact max_eq_left (by exact_mod_cast hs')
  have hsum : ∑ v : Fin 8192, ((x v : EReal) - (m : EReal)) = ((∑ v : Fin 8192, (x v - m) : ℝ) : EReal) := by
    rw [← coe_sum]
    exact Finset.sum_congr rfl (fun v _ => (EReal.coe_sub _ _).symm)
  rw [hok, hrk, xlx_coe ho', xlx_coe hs', hm, hL, hsum]
  rw [← EReal.coe_mul, ← EReal.coe_add, ← EReal.coe_mul, ← EReal.coe_sub, ← EReal.coe_mul, ← EReal.coe_sub,
    ← EReal.coe_sub, ← EReal.coe_sub, ← EReal.coe_sub, ← EReal.coe_mul, ← EReal.coe_sub, EReal.coe_eq_coe_iff]
  rw [Finset.sum_sub_distrib, Finset.sum_sub_distrib, Finset.sum_const, Finset.sum_const, Finset.card_univ,
    Fintype.card_fin, nsmul_eq_mul, nsmul_eq_mul]
  push_cast
  ring

end Cert.RowLaw

end
-- ==== Proof.LenSum.lean ====
/-
  The divisor. The kernel's program turns each length into a real and adds the eight reals; the reference adds the
  eight 32-bit words and turns the sum into a real. The two agree when the words' sum does not wrap, which the
  bound on the lengths gives: each word is between 0 and 513, so the eight add up to at most 4104.
-/
import Idealize.ShloMosaic.PureOps.Ideal.Laws
import Idealize.ShloMosaic.PureOps.Reduce
import Idealize.ShloMosaic.Lib.WordSum
import Idealize.ShloMosaic.Lib.ValueIdx
import Idealize.ShloMosaic.Lib.ValueIdxRank1
import Mathlib.Algebra.BigOperators.Fin

noncomputable section

namespace Cert.LenSum

open Idealize.ShloMosaic Idealize.ShloMosaic.ValueIdx

abbrev S8 : Shape := ⟨1, ![8]⟩
abbrev S_ : Shape := ⟨0, ![]⟩

/-- Every index of the eight lengths reduces to the one index of the scalar. -/
theorem drop_eq (h : S8.ReducesTo [0] S_) (i : S8.Idx) (j : S_.Idx) : h.drop i = j :=
  funext fun b => b.elim0

/-- A word that is not negative read signed is, read signed, its unsigned value. -/
theorem toInt_eq_toNat (w : BitVec 32) (h0 : 0 ≤ w.toInt) : w.toInt = (w.toNat : ℤ) := by
  rw [BitVec.toInt_eq_toNat_cond] at h0 ⊢
  split at h0
  · rename_i hlt; rw [if_pos hlt]
  · exfalso; have := w.isLt; omega

/-- A finite sum of reals, each read as an extended real, is the real sum read as an extended real. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- There are eight lengths. -/
theorem card_S8 : (Finset.univ : Finset S8.Idx).card = 8 := by
  rw [Finset.card_univ, Fintype.card_congr (idxEquiv1 (n := 8))]
  exact Fintype.card_fin 8

/-- The real sum of the lengths is the real of their 32-bit sum: no wrap below 2³¹. -/
theorem sum_sitofp (l : IVec S8 32) (hl : ∀ b : S8.Idx, 0 ≤ (l b).toInt ∧ (l b).toInt ≤ 513)
    (h : S8.ReducesTo [0] S_) (hu : 0 < S_.numel) :
    (Host.reduceAdd (F := Ideal) (sitofp .f32 l : FVec Ideal S8 .f32) (constant S_ .f32 0x00000000#32) h hu : FVec Ideal S_ .f32)
      = sitofp .f32 (Host.reduce IntOp.addi l (constantI S_ 32 0#32) h hu) := by
  funext j
  have hnat : ∀ b : S8.Idx, (l b).toNat ≤ 513 := fun b => by
    have := toInt_eq_toNat (l b) (hl b).1; have := (hl b).2; omega
  have hbound : ∑ i : S8.Idx, (l i).toNat ≤ 8 * 513 := by
    calc ∑ i : S8.Idx, (l i).toNat ≤ ∑ _i : S8.Idx, 513 := Finset.sum_le_sum fun i _ => hnat i
      _ = 8 * 513 := by rw [Finset.sum_const, card_S8]; rfl
  -- the words' sum, as a word
  have hsum : Host.reduce IntOp.addi l (constantI S_ 32 0#32) h hu j = ∑ i : S8.Idx, l i := by
    haveI : Std.Commutative (fun x1 x2 : BitVec 32 => x1 + x2) := ⟨BitVec.add_comm⟩
    haveI : Std.Associative (fun x1 x2 : BitVec 32 => x1 + x2) := ⟨BitVec.add_assoc⟩
    have e := Host.reduce_eq_fold (fun x1 x2 : BitVec 32 => x1 + x2) l (constantI S_ 32 0#32) h hu j
    change Host.reduce (fun x1 x2 : BitVec 32 => x1 + x2) l (constantI S_ 32 0#32) h hu j = _
    rw [Finset.filter_true_of_mem fun i _ => drop_eq h i j] at e
    rw [e]
    show Finset.fold (· + ·) (0#32 : BitVec 32) l Finset.univ = _
    rw [show (0#32 : BitVec 32) = 0 from rfl, Finset.sum_eq_fold]
  have htoNat : (∑ i : S8.Idx, l i).toNat = ∑ i : S8.Idx, (l i).toNat :=
    WordSum.toNat_sum _ _ (by omega)
  have htoInt : (∑ i : S8.Idx, l i).toInt = ∑ i : S8.Idx, (l i).toInt := by
    rw [BitVec.toInt_eq_toNat_cond, if_pos (by rw [htoNat]; omega), htoNat, Nat.cast_sum]
    exact Finset.sum_congr rfl fun i _ => (toInt_eq_toNat (l i) (hl i).1).symm
  show Ideal.hostReduceAdd h (sitofp .f32 l : FVec Ideal S8 .f32) _ j = _
  rw [Ideal.hostReduceAdd_total h (fun b => b.elim0)]
  show Ideal.ofBits .f32 0x00000000#32 + ∑ i : S8.Idx, (((l i).toInt : ℝ) : EReal) = ((((Host.reduce IntOp.addi l (constantI S_ 32 0#32) h hu j).toInt : ℤ) : ℝ) : EReal)
  rw [hsum, htoInt, Ideal.ofBits_zero_f32, zero_add, coe_sum, Int.cast_sum]

end Cert.LenSum

end
-- ==== Proof.lean ====
/-
  The certificate's five claims, assembled.

  Both programs compute, from the logits `x` reshaped to 4096 rows of 8192 columns, the targets `t`, and the
  smoothing values `s` that one shared chain of host operations makes of the confusion matrix, the targets and
  the lengths, the quotient of `∑ n, ∑ v, entry (x n) (t n) (s n) v` by the sum of the lengths plus one. The
  reference sums the 4096 × 8192 entries as they stand; the kernel sums, row by row, the closed form `kerRow`
  of a row's 8192 entries (block by block over its grid, a scratch accumulator carried along a core's sixteen
  steps), and one row's entries add up to its closed form where the row is finite and its two weights are not
  negative, which is what the precondition says. The divisor is the same number read two ways: the reals of
  the eight words added, or the real of the words' sum, which does not wrap for lengths inside [0, 512].
  The kernel's literal for 1/8191 is the named constant of the one ledger entry.
-/
import proofs.«414440_j2113123910203_3_alg».proof.Defs
import proofs.«414440_j2113123910203_3_alg».proof.Proof.Gen.Kernel.Frame
import proofs.«414440_j2113123910203_3_alg».proof.Proof.Gen.KernelIdeal.Frame
import proofs.«414440_j2113123910203_3_alg».proof.Proof.Gen.ReferenceIdeal
import proofs.«414440_j2113123910203_3_alg».proof.Proof.Gen.Pre_finite_inputs
import proofs.«414440_j2113123910203_3_alg».proof.Proof.KernelValue
import proofs.«414440_j2113123910203_3_alg».proof.Proof.RefRun
import proofs.«414440_j2113123910203_3_alg».proof.Proof.RefTail
import proofs.«414440_j2113123910203_3_alg».proof.Proof.PreFacts
import proofs.«414440_j2113123910203_3_alg».proof.Proof.Chains
import proofs.«414440_j2113123910203_3_alg».proof.Proof.RowLaw
import proofs.«414440_j2113123910203_3_alg».proof.Proof.LenSum
import Idealize.ShloMosaic.Adequacy
import Idealize.ShloMosaic.Init

noncomputable section

namespace Cert.Proof

open Idealize.ShloMosaic Idealize.SL.Sem Idealize.ShloMosaic.ValueIdx

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.RefRun.run m ρ)

/-- The ledger's one entry: the kernel's word for 1/8191 is the named constant, whose value the table gives. -/
theorem preserves : Cert.preserves_Kernel_KernelIdeal :=
  IdealRules.named_const.statement Cert.KernelIdeal.κ "inv_vm1" .f32 0x39000400#32 ((1 / 8191 : ℝ) : EReal) rfl

/-- The idealized kernel program's run with its result named: what the host operations after the region make of
    the output array, and the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v50)
        = Pipeline.afterTail₀ Cert.KernelIdeal.cfgs (Cert.KernelIdeal.Gen.dats m) 0 (Cert.KernelIdeal.Gen.V0 m) [Cert.KernelIdeal.Gen.hostOps1] c Cert.KernelIdeal.main_v50
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun _ h c => ⟨(h c).2 Cert.KernelIdeal.main_v50 (Pipeline.mem_restRefs_of Cert.KernelIdeal.main_v50 (by decide) (by decide)),
      (((h c).2 Cert.KernelIdeal.main_arg0 (Pipeline.mem_restRefs_of Cert.KernelIdeal.main_arg0 (by decide) (by decide))).trans (Cert.KernelIdeal.Gen.W_main_arg0 m (Cert.KernelIdeal.Gen.dats m) c)),
      (((h c).2 Cert.KernelIdeal.main_arg1 (Pipeline.mem_restRefs_of Cert.KernelIdeal.main_arg1 (by decide) (by decide))).trans (Cert.KernelIdeal.Gen.W_main_arg1 m (Cert.KernelIdeal.Gen.dats m) c)),
      (((h c).2 Cert.KernelIdeal.main_arg2 (Pipeline.mem_restRefs_of Cert.KernelIdeal.main_arg2 (by decide) (by decide))).trans (Cert.KernelIdeal.Gen.W_main_arg2 m (Cert.KernelIdeal.Gen.dats m) c)),
      (((h c).2 Cert.KernelIdeal.main_arg3 (Pipeline.mem_restRefs_of Cert.KernelIdeal.main_arg3 (by decide) (by decide))).trans (Cert.KernelIdeal.Gen.W_main_arg3 m (Cert.KernelIdeal.Gen.dats m) c))⟩)
    (Cert.KernelIdeal.Gen.run_main m ρ)

/-- The two idealized programs end with one result: the reference's double sum of entries is, row by row, the
    kernel's sum of closed forms, and the two divisors are one number. -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v50,
    kernel_run m ρ, ?_⟩
  refine (θ_run Cert.ReferenceIdeal.defs _ _).mono (fun r h c => ⟨(h c).1.trans ?_, (h c).2⟩) (Cert.ReferenceIdeal.RefRun.run m' ρ')
  have hp := hpre c
  have ht := Cert.PreDecode.targets_range _ _ _ _ hp Cert.KernelIdeal.Facts₀.shapeCasts_S8x512_S4096
  rw [Cert.ReferenceIdeal.RefRun.out_eq, (hagree c).1, (hagree c).2.1, (hagree c).2.2.1, (hagree c).2.2.2]
  rw [Cert.ReferenceIdeal.RefTail.refTail_eq _ _ _ _ ht]
  refine Eq.trans ?_ (Cert.KernelIdeal.KValue.result_eq m c ht).symm
  funext j
  congr 1
  · refine Finset.sum_congr rfl fun n _ => ?_
    rw [Cert.Chains.ref_eq_ker]
    have hw := Cert.PreDecode.weights_nonneg _ _ _ _ hp n
    rw [Cert.Chains.pre_eq_ker] at hw
    exact Cert.RowLaw.row_sum _ (Cert.PreDecode.rows_real _ _ _ _ hp Cert.KernelIdeal.Facts₀.shapeCasts_S8x512x8192_S4096x8192 n) _ _ hw.1 hw.2
  · exact (congrFun (Cert.LenSum.sum_sitofp _ (Cert.PreDecode.lens_range _ _ _ _ hp Cert.KernelIdeal.Facts₀.bcast_S_S8) _ _) j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
